-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S800000 : Shape := ⟨1, ![800000]⟩
abbrev S100000x128 : Shape := ⟨2, ![100000, 128]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg9 : FVec F S64 .f32) (main_arg10 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg6 : FVec F S64 .f32) (main_arg7 : FVec F S64x64 .f32) (main_arg8 : FVec F S64 .f32) (main_arg9 : FVec F S64 .f32) (main_arg10 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : IVec S800000 32) (main_arg1 : IVec S800000 32) (main_arg2 : FVec F S100000x128 .f32) (main_arg3 : FVec F S128x64 .f32) (main_arg4 : FVec F S64 .f32) (main_arg5 : FVec F S64x64 .f32) (main_arg6 : FVec F S64 .f32) (main_arg7 : FVec F S64x64 .f32) (main_arg8 : FVec F S64 .f32) (main_arg9 : FVec F S64 .f32) (main_arg10 : FVec F S64 .f32) : IVec S_ 1 :=
  let main_v0 : FVec F S100000x128 .f32 := Host.absf main_arg2
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_v13 main_v16
-- ==== Kernel.lean ====
abbrev S800000 : Shape := ⟨1, ![800000]⟩
abbrev S100000x128 : Shape := ⟨2, ![100000, 128]⟩
abbrev S128x64 : Shape := ⟨2, ![128, 64]⟩
abbrev S64 : Shape := ⟨1, ![64]⟩
abbrev S64x64 : Shape := ⟨2, ![64, 64]⟩
abbrev S_ : Shape := ⟨0, ![]⟩
abbrev S100000 : Shape := ⟨1, ![100000]⟩
abbrev S800000x1 : Shape := ⟨2, ![800000, 1]⟩
abbrev S1x64 : Shape := ⟨2, ![1, 64]⟩
abbrev S100000x64 : Shape := ⟨2, ![100000, 64]⟩
abbrev S2000x128 : Shape := ⟨2, ![2000, 128]⟩
abbrev S2000x64 : Shape := ⟨2, ![2000, 64]⟩
abbrev S800000x64 : Shape := ⟨2, ![800000, 64]⟩
abbrev S100000x1 : Shape := ⟨2, ![100000, 1]⟩

abbrev nBuf : Space → Nat
  | .hbm => 115
  | .vmem => 42
  | .smem => 0
  | _ => 0

abbrev bufTy : (tb : Table) → Fin (tcTables nBuf tb) → BufTy
  | .hbm, ⟨0, _⟩ => ⟨S800000, .i32⟩
  | .hbm, ⟨1, _⟩ => ⟨S800000, .i32⟩
  | .hbm, ⟨2, _⟩ => ⟨S100000x128, .f32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S800000, .f32⟩
  | .hbm, ⟨13, _⟩ => ⟨S_, .f32⟩
  | .hbm, ⟨14, _⟩ => ⟨S100000, .f32⟩
  | .hbm, ⟨15, _⟩ => ⟨S800000x1, .i32⟩
  | .hbm, ⟨16, _⟩ => ⟨S100000, .f32⟩
  | .hbm, ⟨17, _⟩ => ⟨S_, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S800000x1, .i32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000, .f32⟩
  | .hbm, ⟨41, _⟩ => ⟨S_, .f32⟩
  | .hbm, ⟨42, _⟩ => ⟨S100000, .f32⟩
  | .hbm, ⟨43, _⟩ => ⟨S100000, .f32⟩
  | .hbm, ⟨44, _⟩ => ⟨S1x64, .f32⟩
  | .hbm, ⟨45, _⟩ => ⟨S100000x64, .f32⟩
  | .hbm, ⟨46, _⟩ => ⟨S_, .f32⟩
  | .hbm, ⟨47, _⟩ => ⟨S64, .f32⟩
  | .hbm, ⟨48, _⟩ => ⟨S1x64, .f32⟩
  | .hbm, ⟨49, _⟩ => ⟨S100000x64, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x64, .f32⟩
  | .hbm, ⟨59, _⟩ => ⟨S800000x1, .f32⟩
  | .hbm, ⟨60, _⟩ => ⟨S800000x64, .f32⟩
  | .hbm, ⟨61, _⟩ => ⟨S800000x64, .f32⟩
  | .hbm, ⟨62, _⟩ => ⟨S_, .f32⟩
  | .hbm, ⟨63, _⟩ => ⟨S100000x64, .f32⟩
  | .hbm, ⟨64, _⟩ => ⟨S800000x1, .i32⟩
  | .hbm, ⟨65, _⟩ => ⟨S100000x64, .f32⟩
  | .hbm, ⟨66, _⟩ => ⟨S100000x1, .f32⟩
  | .hbm, ⟨67, _⟩ => ⟨S100000x64, .f32⟩
  | .hbm, ⟨68, _⟩ => ⟨S100000x64, .f32⟩
  | .hbm, ⟨69, _⟩ => ⟨S1x64, .f32⟩
  | .hbm, ⟨70, _⟩ => ⟨S100000x64, .f32⟩
  | .hbm, ⟨71, _⟩ => ⟨S100000x64, .f32⟩
  | .hbm, ⟨72, _⟩ => ⟨S100000x64, .f32⟩
  | .hbm, ⟨73, _⟩ => ⟨S1x64, .f32⟩
  | .hbm, ⟨74, _⟩ => ⟨S100000x64, .f32⟩
  | .hbm, ⟨75, _⟩ => ⟨S_, .i32⟩
  | .hbm, ⟨76, _⟩ => ⟨S800000, .i32⟩
  | .hbm, ⟨77, _⟩ => ⟨S800000, .i1⟩
  | .hbm, ⟨78, _⟩ => ⟨S_, .i32⟩
  | .hbm, ⟨79, _⟩ => ⟨S800000, .i32⟩
  | .hbm, ⟨80, _⟩ => ⟨S800000, .i32⟩
  | .hbm, ⟨81, _⟩ => ⟨S800000, .i32⟩
  | .hbm, ⟨82, _⟩ => ⟨S800000x1, .i32⟩
  | .hbm, ⟨83, _⟩ => ⟨S800000x64, .f32⟩
  | .hbm, ⟨84, _⟩ => ⟨S800000x1, .f32⟩
  | .hbm, ⟨85, _⟩ => ⟨S800000x64, .f32⟩
  | .hbm, ⟨86, _⟩ => ⟨S800000x64, .f32⟩
  | .hbm, ⟨87, _⟩ => ⟨S_, .f32⟩
  | .hbm, ⟨88, _⟩ => ⟨S100000x64, .f32⟩
  | .hbm, ⟨89, _⟩ => ⟨S800000x1, .i32⟩
  | .hbm, ⟨90, _⟩ => ⟨S100000x64, .f32⟩
  | .hbm, ⟨91, _⟩ => ⟨S100000x1, .f32⟩
  | .hbm, ⟨92, _⟩ => ⟨S100000x64, .f32⟩
  | .hbm, ⟨93, _⟩ => ⟨S100000x64, .f32⟩
  | .hbm, ⟨94, _⟩ => ⟨S1x64, .f32⟩
  | .hbm, ⟨95, _⟩ => ⟨S100000x64, .f32⟩
  | .hbm, ⟨96, _⟩ => ⟨S100000x64, .f32⟩
  | .hbm, ⟨97, _⟩ => ⟨S100000x64, .f32⟩
  | .hbm, ⟨98, _⟩ => ⟨S1x64, .f32⟩
  | .hbm, ⟨99, _⟩ => ⟨S1x64, .f32⟩
  | .hbm, ⟨100, _⟩ => ⟨S64, .f32⟩
  | .hbm, ⟨101, _⟩ => ⟨S_, .f32⟩
  | .hbm, ⟨102, _⟩ => ⟨S64, .f32⟩
  | .hbm, ⟨103, _⟩ => ⟨S64, .f32⟩
  | .hbm, ⟨104, _⟩ => ⟨S64, .f32⟩
  | .hbm, ⟨105, _⟩ => ⟨S_, .f32⟩
  | .hbm, ⟨106, _⟩ => ⟨S64, .f32⟩
  | .hbm, ⟨107, _⟩ => ⟨S64, .f32⟩
  | .hbm, ⟨108, _⟩ => ⟨S64, .f32⟩
  | .hbm, ⟨109, _⟩ => ⟨S64, .f32⟩
  | .hbm, ⟨110, _⟩ => ⟨S1x64, .f32⟩
  | .hbm, ⟨111, _⟩ => ⟨S1x64, .f32⟩
  | .hbm, ⟨112, _⟩ => ⟨S1x64, .f32⟩
  | .hbm, ⟨113, _⟩ => ⟨S1x64, .f32⟩
  | .hbm, ⟨114, _⟩ => ⟨S100000x64, .f32⟩
  | .local _ .vmem, ⟨0, _⟩ => ⟨S2000x128, .f32⟩
  | .local _ .vmem, ⟨1, _⟩ => ⟨S2000x128, .f32⟩
  | .local _ .vmem, ⟨2, _⟩ => ⟨S128x64, .f32⟩
  | .local _ .vmem, ⟨3, _⟩ => ⟨S1x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S64x64, .f32⟩
  | .local _ .vmem, ⟨9, _⟩ => ⟨S1x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S64x64, .f32⟩
  | .local _ .vmem, ⟨21, _⟩ => ⟨S1x64, .f32⟩
  | .local _ .vmem, ⟨22, _⟩ => ⟨S2000x64, .f32⟩
  | .local _ .vmem, ⟨23, _⟩ => ⟨S2000x64, .f32⟩
  | .local _ .vmem, ⟨24, _⟩ => ⟨S2000x64, .f32⟩
  | .local _ .vmem, ⟨25, _⟩ => ⟨S2000x64, .f32⟩
  | .local _ .vmem, ⟨26, _⟩ => ⟨S2000x64, .f32⟩
  | .local _ .vmem, ⟨27, _⟩ => ⟨S2000x64, .f32⟩
  | .local _ .vmem, ⟨28, _⟩ => ⟨S2000x64, .f32⟩
  | .local _ .vmem, ⟨29, _⟩ => ⟨S2000x64, .f32⟩
  | .local _ .vmem, ⟨30, _⟩ => ⟨S2000x64, .f32⟩
  | .local _ .vmem, ⟨31, _⟩ => ⟨S2000x64, .f32⟩
  | .local _ .vmem, ⟨32, _⟩ => ⟨S1x64, .f32⟩
  | .local _ .vmem, ⟨33, _⟩ => ⟨S1x64, .f32⟩
  | .local _ .vmem, ⟨34, _⟩ => ⟨S2000x64, .f32⟩
  | .local _ .vmem, ⟨35, _⟩ => ⟨S2000x64, .f32⟩
  | .local _ .vmem, ⟨36, _⟩ => ⟨S1x64, .f32⟩
  | .local _ .vmem, ⟨37, _⟩ => ⟨S1x64, .f32⟩
  | .local _ .vmem, ⟨38, _⟩ => ⟨S1x64, .f32⟩
  | .local _ .vmem, ⟨39, _⟩ => ⟨S1x64, .f32⟩
  | .local _ .vmem, ⟨40, _⟩ => ⟨S2000x64, .f32⟩
  | .local _ .vmem, ⟨41, _⟩ => ⟨S2000x64, .f32⟩
  | _, _ => ⟨S800000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v4 : Ref sig .tc := ⟨.hbm, 20, rfl⟩
abbrev main_cst_2 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_3 : Ref sig .tc := ⟨.hbm, 25, rfl⟩
abbrev main_call1_v0 : Ref sig .tc := ⟨.hbm, 26, rfl⟩
abbrev main_call1_v1 : Ref sig .tc := ⟨.hbm, 27, rfl⟩
abbrev main_v8 : Ref sig .tc := ⟨.hbm, 28, rfl⟩
abbrev main_cst_4 : Ref sig .tc := ⟨.hbm, 29, rfl⟩
abbrev main_v9 : Ref sig .tc := ⟨.hbm, 30, rfl⟩
abbrev main_v10 : Ref sig .tc := ⟨.hbm, 31, rfl⟩
abbrev main_c : Ref sig .tc := ⟨.hbm, 32, rfl⟩
abbrev main_v11 : Ref sig .tc := ⟨.hbm, 33, rfl⟩
abbrev main_v12 : Ref sig .tc := ⟨.hbm, 34, rfl⟩
abbrev main_c_5 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_6 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_7 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_c_8 : Ref sig .tc := ⟨.hbm, 50, rfl⟩
abbrev main_v25 : Ref sig .tc := ⟨.hbm, 51, rfl⟩
abbrev main_v26 : Ref sig .tc := ⟨.hbm, 52, rfl⟩
abbrev main_c_9 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_10 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_c_11 : Ref sig .tc := ⟨.hbm, 75, rfl⟩
abbrev main_v47 : Ref sig .tc := ⟨.hbm, 76, rfl⟩
abbrev main_v48 : Ref sig .tc := ⟨.hbm, 77, rfl⟩
abbrev main_c_12 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_13 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67_0 : Ref sig .tc := ⟨.hbm, 98, rfl⟩
abbrev main_v67_1 : Ref sig .tc := ⟨.hbm, 99, rfl⟩
abbrev main_v68 : Ref sig .tc := ⟨.hbm, 100, rfl⟩
abbrev main_cst_14 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_15 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc6_stg0_0 : Ref sig .tc := ⟨.vmem, 34, rfl⟩
abbrev cc6_stg0_1 : Ref sig .tc := ⟨.vmem, 35, rfl⟩
abbrev cc6_stg1_0 : Ref sig .tc := ⟨.vmem, 36, rfl⟩
abbrev cc6_stg2_0 : Ref sig .tc := ⟨.vmem, 37, rfl⟩
abbrev cc6_stg3_0 : Ref sig .tc := ⟨.vmem, 38, rfl⟩
abbrev cc6_stg4_0 : Ref sig .tc := ⟨.vmem, 39, rfl⟩
abbrev cc6_stg5_0 : Ref sig .tc := ⟨.vmem, 40, rfl⟩
abbrev cc6_stg5_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc6_sem0_0 : DmaSem sig := 34
abbrev cc6_sem0_1 : DmaSem sig := 35
abbrev cc6_sem1_0 : DmaSem sig := 36
abbrev cc6_sem2_0 : DmaSem sig := 37
abbrev cc6_sem3_0 : DmaSem sig := 38
abbrev cc6_sem4_0 : DmaSem sig := 39
abbrev cc6_sem5_0 : DmaSem sig := 40
abbrev cc6_sem5_1 : DmaSem sig := 41

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S2000x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

class Facts₀ : Prop where
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  shapeCasts_S64_S1x64 : S64.ShapeCasts S1x64
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  bcast_S_S64 : S_.BroadcastsInDim S64 (![] : Fin 0 → Fin S64.rank)
  shapeCasts_S2000x64_S2000x64 : S2000x64.ShapeCasts S2000x64
  inb_S64x64_S64x64_0_0 : ∀ a, (![0, 0] : Fin 2 → Nat) a + S64x64.size a ≤ S64x64.size a
  h_S64x64 : 0 < S64x64.numel
  bcast_S800000x1_S800000x64_0_1 : S800000x1.BroadcastsInDim S800000x64 (![0, 1] : Fin 2 → Fin S800000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reduces_S2000x64_S64 : S2000x64.Reduces [0] S64
  shapeCasts_S1x64_S64 : S1x64.ShapeCasts S64
  scatter_S100000_S800000x1_S800000_n_0_0_1_wf : ScatterDims.WF S100000 S800000x1 S800000 [] [0] [0] 1
  gather_S100000_S800000x1_S800000_n_0_n_n_0_1_1_wf : GatherDims.WF S100000 S800000x1 S800000 [] [0] [] [0] [] 1 ![1]
  dot_S2000x128_S128x64_S2000x64_1_0_0_1_n_n_wf : DotDims.WF S2000x128 S128x64 S2000x64 [1] [0] [0] [1] [] []
  dot_S2000x64_S64x64_S2000x64_1_0_0_1_n_n_wf : DotDims.WF S2000x64 S64x64 S2000x64 [1] [0] [0] [1] [] []
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S100000x64.size a
  hwx0_3 : ∀ i : grid0.Coords, EltTy.bits .f32 = 32 ∨ (Rect.block (s := S100000x64) S2000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S100000x64.size a
  hwx1_3 : ∀ i : grid1.Coords, EltTy.bits .f32 = 32 ∨ (Rect.block (s := S100000x64) S2000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S100000x64.size a
  hwx2_1 : ∀ i : grid2.Coords, EltTy.bits .f32 = 32 ∨ (Rect.block (s := S100000x64) S2000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S100000x64.size a
  hwx2_2 : ∀ i : grid2.Coords, EltTy.bits .f32 = 32 ∨ (Rect.block (s := S100000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x64.size a ≤ S100000x64.size a
  hwx3_3 : ∀ i : grid3.Coords, EltTy.bits .f32 = 32 ∨ (Rect.block (s := S100000x64) S2000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S100000x64.size a
  hwx4_0 : ∀ i : grid4.Coords, EltTy.bits .f32 = 32 ∨ (Rect.block (s := S100000x64) S2000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x64.size a ≤ S100000x64.size a
  hwx4_1 : ∀ i : grid4.Coords, EltTy.bits .f32 = 32 ∨ (Rect.block (s := S100000x64) S2000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x64.size a ≤ S100000x64.size a
  hwx4_2 : ∀ i : grid4.Coords, EltTy.bits .f32 = 32 ∨ (Rect.block (s := S100000x64) S2000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S100000x64.size a
  hwx5_0 : ∀ i : grid5.Coords, EltTy.bits .f32 = 32 ∨ (Rect.block (s := S100000x64) S2000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x64.size a ≤ S100000x64.size a
  hwx6_0 : ∀ i : grid6.Coords, EltTy.bits .f32 = 32 ∨ (Rect.block (s := S100000x64) S2000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x64.size a ≤ S1x64.size a
  hwx6_1 : ∀ i : grid6.Coords, EltTy.bits .f32 = 32 ∨ (Rect.block (s := S1x64) S1x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S2000x64.size a ≤ S100000x64.size a
  hwx6_5 : ∀ i : grid6.Coords, EltTy.bits .f32 = 32 ∨ (Rect.block (s := S100000x64) S2000x64.size (cc6_transform_5 i) (hinb6_5 i)).WholeWords (EltTy.packing .f32)

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000_S800000x1_S800000_n_0_n_n_0_1_1 : GatherDims S100000 S800000x1 S800000 where
  offsetDims := []
  collapsedSliceDims := [0]
  operandBatchingDims := []
  startIndicesBatchingDims := []
  startIndexMap := [0]
  indexVectorDim := 1
  sliceSizes := ![1]
  wf := gather_S100000_S800000x1_S800000_n_0_n_n_0_1_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf

abbrev win0_0 : Pipeline.Window sig grid0 :=
  Pipeline.Window.ofSpec (Memref.whole main_arg2) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v21) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v23) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S2000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v21) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v44) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v44) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v45) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v46) S2000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v44) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v65) S2000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v66) S2000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v66) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v67_0) S1x64.size cc5_transform_1 reads5_1 true true 1 stage5_1 sem5_1
    hrank5 hreads5_1 hinb5_1 nbuf5_1 (Memref.isWhole_whole _) hwx5_1 hstage5_1

abbrev win5_2 : Pipeline.Window sig grid5 :=
  Pipeline.Window.ofSpec (Memref.whole main_v67_1) S1x64.size cc5_transform_2 reads5_2 true true 1 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v66) S2000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v76) S1x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v77) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v78) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v79) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v80) S2000x64.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S800000 : Shape := ⟨1, ![800000]⟩
abbrev S100000x128 : Shape := ⟨2, ![100000, 128]⟩
abbrev S128x64 : Shape := ⟨2, ![128, 64]⟩
abbrev S64 : Shape := ⟨1, ![64]⟩
abbrev S64x64 : Shape := ⟨2, ![64, 64]⟩
abbrev S_ : Shape := ⟨0, ![]⟩
abbrev S100000 : Shape := ⟨1, ![100000]⟩
abbrev S800000x1 : Shape := ⟨2, ![800000, 1]⟩
abbrev S100000x64 : Shape := ⟨2, ![100000, 64]⟩
abbrev S1x64 : Shape := ⟨2, ![1, 64]⟩
abbrev S800000x64 : Shape := ⟨2, ![800000, 64]⟩
abbrev S100000x1 : Shape := ⟨2, ![100000, 1]⟩

abbrev nBuf : Space → Nat
  | .hbm => 132
  | .vmem => 0
  | .smem => 0
  | _ => 0

abbrev hbmTy0_0 (i : Nat) : BufTy := match i % 128 with
  | 0 => ⟨S800000, .i32⟩
  | 1 => ⟨S800000, .i32⟩
  | 2 => ⟨S100000x128, .f32⟩
  | 3 => ⟨S128x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64, .f32⟩
  | 10 => ⟨S64, .f32⟩
  | 11 => ⟨S_, .f32⟩
  | 12 => ⟨S800000, .f32⟩
  | 13 => ⟨S_, .f32⟩
  | 14 => ⟨S100000, .f32⟩
  | 15 => ⟨S800000x1, .i32⟩
  | 16 => ⟨S100000, .f32⟩
  | 17 => ⟨S_, .f32⟩
  | 18 => ⟨S_, .f32⟩
  | 19 => ⟨S100000, .f32⟩
  | 20 => ⟨S100000, .f32⟩
  | 21 => ⟨S_, .f32⟩
  | 22 => ⟨S100000, .f32⟩
  | 23 => ⟨S800000x1, .i32⟩
  | 24 => ⟨S100000, .f32⟩
  | 25 => ⟨S_, .f32⟩
  | 26 => ⟨S_, .f32⟩
  | 27 => ⟨S100000, .f32⟩
  | 28 => ⟨S100000, .f32⟩
  | 29 => ⟨S_, .f32⟩
  | 30 => ⟨S100000, .f32⟩
  | 31 => ⟨S100000, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000, .f32⟩
  | 41 => ⟨S_, .f32⟩
  | 42 => ⟨S100000, .f32⟩
  | 43 => ⟨S100000, .f32⟩
  | 44 => ⟨S100000x64, .f32⟩
  | 45 => ⟨S1x64, .f32⟩
  | 46 => ⟨S100000x64, .f32⟩
  | 47 => ⟨S100000x64, .f32⟩
  | 48 => ⟨S100000x64, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x64, .f32⟩
  | 58 => ⟨S800000x1, .f32⟩
  | 59 => ⟨S800000x64, .f32⟩
  | 60 => ⟨S800000x64, .f32⟩
  | 61 => ⟨S_, .f32⟩
  | 62 => ⟨S100000x64, .f32⟩
  | 63 => ⟨S800000x1, .i32⟩
  | 64 => ⟨S100000x64, .f32⟩
  | 65 => ⟨S100000x1, .f32⟩
  | 66 => ⟨S100000x64, .f32⟩
  | 67 => ⟨S100000x64, .f32⟩
  | 68 => ⟨S1x64, .f32⟩
  | 69 => ⟨S100000x64, .f32⟩
  | 70 => ⟨S100000x64, .f32⟩
  | 71 => ⟨S100000x64, .f32⟩
  | 72 => ⟨S_, .f32⟩
  | 73 => ⟨S100000x64, .f32⟩
  | 74 => ⟨S100000x64, .f32⟩
  | 75 => ⟨S100000x64, .f32⟩
  | 76 => ⟨S_, .i32⟩
  | 77 => ⟨S800000, .i32⟩
  | 78 => ⟨S800000, .i1⟩
  | 79 => ⟨S_, .i32⟩
  | 80 => ⟨S800000, .i32⟩
  | 81 => ⟨S800000, .i32⟩
  | 82 => ⟨S800000, .i32⟩
  | 83 => ⟨S800000x1, .i32⟩
  | 84 => ⟨S800000x64, .f32⟩
  | 85 => ⟨S800000x1, .f32⟩
  | 86 => ⟨S800000x64, .f32⟩
  | 87 => ⟨S800000x64, .f32⟩
  | 88 => ⟨S_, .f32⟩
  | 89 => ⟨S100000x64, .f32⟩
  | 90 => ⟨S800000x1, .i32⟩
  | 91 => ⟨S100000x64, .f32⟩
  | 92 => ⟨S100000x1, .f32⟩
  | 93 => ⟨S100000x64, .f32⟩
  | 94 => ⟨S100000x64, .f32⟩
  | 95 => ⟨S1x64, .f32⟩
  | 96 => ⟨S100000x64, .f32⟩
  | 97 => ⟨S100000x64, .f32⟩
  | 98 => ⟨S100000x64, .f32⟩
  | 99 => ⟨S_, .f32⟩
  | 100 => ⟨S100000x64, .f32⟩
  | 101 => ⟨S100000x64, .f32⟩
  | 102 => ⟨S_, .f32⟩
  | 103 => ⟨S64, .f32⟩
  | 104 => ⟨S_, .f32⟩
  | 105 => ⟨S64, .f32⟩
  | 106 => ⟨S64, .f32⟩
  | 107 => ⟨S1x64, .f32⟩
  | 108 => ⟨S100000x64, .f32⟩
  | 109 => ⟨S100000x64, .f32⟩
  | 110 => ⟨S100000x64, .f32⟩
  | 111 => ⟨S_, .f32⟩
  | 112 => ⟨S64, .f32⟩
  | 113 => ⟨S_, .f32⟩
  | 114 => ⟨S64, .f32⟩
  | 115 => ⟨S64, .f32⟩
  | 116 => ⟨S1x64, .f32⟩
  | 117 => ⟨S100000x64, .f32⟩
  | 118 => ⟨S100000x64, .f32⟩
  | 119 => ⟨S_, .f32⟩
  | 120 => ⟨S64, .f32⟩
  | 121 => ⟨S64, .f32⟩
  | 122 => ⟨S64, .f32⟩
  | 123 => ⟨S1x64, .f32⟩
  | 124 => ⟨S100000x64, .f32⟩
  | 125 => ⟨S100000x64, .f32⟩
  | 126 => ⟨S1x64, .f32⟩
  | 127 => ⟨S100000x64, .f32⟩
  | _ => ⟨S800000, .i32⟩

abbrev hbmTy0_1 (i : Nat) : BufTy := match i % 128 with
  | 0 => ⟨S100000x64, .f32⟩
  | 1 => ⟨S1x64, .f32⟩
  | 2 => ⟨S100000x64, .f32⟩
  | 3 => ⟨S100000x64, .f32⟩
  | _ => ⟨S800000, .i32⟩

abbrev hbmTy (i : Nat) : BufTy := match i / 128 with
  | 0 => hbmTy0_0 i
  | 1 => hbmTy0_1 i
  | _ => ⟨S800000, .i32⟩

abbrev bufTy : (tb : Table) → Fin (tcTables nBuf tb) → BufTy
  | .hbm, ⟨i, _⟩ => hbmTy i
  | _, _ => ⟨S800000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v4 : Ref sig .tc := ⟨.hbm, 20, rfl⟩
abbrev main_cst_2 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_3 : Ref sig .tc := ⟨.hbm, 25, rfl⟩
abbrev main_call1_v0 : Ref sig .tc := ⟨.hbm, 26, rfl⟩
abbrev main_call1_v1 : Ref sig .tc := ⟨.hbm, 27, rfl⟩
abbrev main_v8 : Ref sig .tc := ⟨.hbm, 28, rfl⟩
abbrev main_cst_4 : Ref sig .tc := ⟨.hbm, 29, rfl⟩
abbrev main_v9 : Ref sig .tc := ⟨.hbm, 30, rfl⟩
abbrev main_v10 : Ref sig .tc := ⟨.hbm, 31, rfl⟩
abbrev main_c : Ref sig .tc := ⟨.hbm, 32, rfl⟩
abbrev main_v11 : Ref sig .tc := ⟨.hbm, 33, rfl⟩
abbrev main_v12 : Ref sig .tc := ⟨.hbm, 34, rfl⟩
abbrev main_c_5 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_6 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_c_7 : Ref sig .tc := ⟨.hbm, 49, rfl⟩
abbrev main_v25 : Ref sig .tc := ⟨.hbm, 50, rfl⟩
abbrev main_v26 : Ref sig .tc := ⟨.hbm, 51, rfl⟩
abbrev main_c_8 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_9 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_10 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_c_11 : Ref sig .tc := ⟨.hbm, 76, rfl⟩
abbrev main_v48 : Ref sig .tc := ⟨.hbm, 77, rfl⟩
abbrev main_v49 : Ref sig .tc := ⟨.hbm, 78, rfl⟩
abbrev main_c_12 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_13 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_14 : Ref sig .tc := ⟨.hbm, 99, rfl⟩
abbrev main_v68 : Ref sig .tc := ⟨.hbm, 100, rfl⟩
abbrev main_v69 : Ref sig .tc := ⟨.hbm, 101, rfl⟩
abbrev main_cst_15 : Ref sig .tc := ⟨.hbm, 102, rfl⟩
abbrev main_v70 : Ref sig .tc := ⟨.hbm, 103, rfl⟩
abbrev main_cst_16 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_17 : Ref sig .tc := ⟨.hbm, 111, rfl⟩
abbrev main_v77 : Ref sig .tc := ⟨.hbm, 112, rfl⟩
abbrev main_cst_18 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_cst_19 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S800000x1_S800000x64_0_1 : S800000x1.BroadcastsInDim S800000x64 (![0, 1] : Fin 2 → Fin S800000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  scatter_S100000_S800000x1_S800000_n_0_0_1_wf : ScatterDims.WF S100000 S800000x1 S800000 [] [0] [0] 1
  gather_S100000_S800000x1_S800000_n_0_n_n_0_1_1_wf : GatherDims.WF S100000 S800000x1 S800000 [] [0] [] [0] [] 1 ![1]
  dot_S100000x128_S128x64_S100000x64_1_0_0_1_n_n_wf : DotDims.WF S100000x128 S128x64 S100000x64 [1] [0] [0] [1] [] []
  dot_S100000x64_S64x64_S100000x64_1_0_0_1_n_n_wf : DotDims.WF S100000x64 S64x64 S100000x64 [1] [0] [0] [1] [] []
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000_S800000x1_S800000_n_0_n_n_0_1_1 : GatherDims S100000 S800000x1 S800000 where
  offsetDims := []
  collapsedSliceDims := [0]
  operandBatchingDims := []
  startIndicesBatchingDims := []
  startIndexMap := [0]
  indexVectorDim := 1
  sliceSizes := ![1]
  wf := gather_S100000_S800000x1_S800000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf

class Facts : Prop extends Facts₀ where

variable [Facts]
-- ==== Proof.KSpec.lean ====
/-
  The kernel program's result as a composition of named stages, at the ideal instance: what each pallas_call leaves in
  its output array as one function of its input arrays, index by index (a row-block matrix product plus a bias row;
  the scaled residual; the column sums of the features and of their squares; the normalisation by a mean row and a
  variance row), and between them the host's degree norms and graph aggregation.
-/
import proofs.«106122_j57346403336483_1_alg».proof.KernelIdeal
import Idealize.ShloMosaic.PureOps.Ideal
import Idealize.ShloMosaic.Lib.ValueIdx

noncomputable section

namespace Cert.KernelIdeal.KSpec

open Idealize.ShloMosaic Cert.KernelIdeal

variable [Facts]
open Facts₀ Facts

/-- One float array of shape `s` at the ideal instance (entries are extended reals). -/
abbrev Arr (s : Shape) := FVec Ideal s .f32
/-- The edge endpoint arrays. -/
abbrev EIdx := IVec S800000 32

/-- `deg ^ (-1/2)` per node, where `deg` counts the edges whose endpoint array `idx` names the node, clipped below at 1. -/
def norm (idx : EIdx) : Arr S100000 :=
  Host.powf (F := Ideal) (maximumf (F := Ideal) (broadcastInDim S100000 ![] bcast_S_S100000 (id (constant (F := Ideal) S_ .f32 0x3F800000#32)))
      (Host.scatterAdd (F := Ideal) scatter_S100000_S800000x1_S800000_n_0_0_1 (broadcastInDim S100000 ![] bcast_S_S100000 (constant (F := Ideal) S_ .f32 0x00000000#32))
        (broadcastInDim S800000x1 ![0] bcast_S800000_S800000x1_0 idx) (broadcastInDim S800000 ![] bcast_S_S800000 (constant (F := Ideal) S_ .f32 0x3F800000#32))))
    (broadcastInDim S100000 ![] bcast_S_S100000 (constant (F := Ideal) S_ .f32 0xBF000000#32))

/-- The source endpoints as gather indices: a negative one wrapped by the node count, as a column. -/
def wrap (src : EIdx) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 100000#32))) src)

/-- The source normalisation per edge. -/
def normSrc (src : EIdx) : Arr S800000 :=
  Host.gather gather_S100000_S800000x1_S800000_n_0_n_n_0_1_1 (norm src) (wrap src)

/-- A length-64 vector laid along every row of a [100000, 64] array. -/
def rowB (v : Arr S64) : Arr S100000x64 :=
  broadcastInDim S100000x64 ![0, 1] bcast_S1x64_S100000x64_0_1 (broadcastInDim S1x64 ![1] bcast_S64_S1x64_1 v)

/-- The graph aggregation of the node features `hw`: gather along the sources, scale by the source norm, sum into the
    destinations, scale by the destination norm, add the bias. -/
def agg (hw : Arr S100000x64) (src dst : EIdx) (b : Arr S64) : Arr S100000x64 :=
  addf (F := Ideal) (mulf (F := Ideal)
      (Host.scatterAdd (F := Ideal) scatter_S100000x64_S800000x1_S800000x64_1_0_0_1 (broadcastInDim S100000x64 ![] bcast_S_S100000x64 (constant (F := Ideal) S_ .f32 0x00000000#32))
        (broadcastInDim S800000x1 ![0] bcast_S800000_S800000x1_0 dst)
        (mulf (F := Ideal) (Host.gather gather_S100000x64_S800000x1_S800000x64_1_0_n_n_0_1_164 hw (wrap src))
          (broadcastInDim S800000x64 ![0, 1] bcast_S800000x1_S800000x64_0_1 (broadcastInDim S800000x1 ![0] bcast_S800000_S800000x1_0 (normSrc src)))))
      (broadcastInDim S100000x64 ![0, 1] bcast_S100000x1_S100000x64_0_1 (broadcastInDim S100000x1 ![0] bcast_S100000_S100000x1_0 (norm dst))))
    (rowB b)

/-- The row and the column of an index of a [100000, 64] array, and the column of an index of a [1, 64] row. -/
def row (i : S100000x64.Idx) : Fin 100000 := ⟨(i 0).val, ValueIdx.idx2_lt0 i⟩
def col (i : S100000x64.Idx) : Fin 64 := ⟨(i 1).val, ValueIdx.idx2_lt1 i⟩
def col1 (j : S1x64.Idx) : Fin 64 := ⟨(j 1).val, ValueIdx.idx2_lt1 j⟩

/-- `x · w` plus the bias row, with 128 contracted. -/
def mm128 (x : Arr S100000x128) (w : Arr S128x64) (b : Arr S1x64) : Arr S100000x64 :=
  fun i => (∑ k : Fin 128, x (ValueIdx.ix2 (row i) k) * w (ValueIdx.ix2 k (col i))) + b (ValueIdx.ix2 (0 : Fin 1) (col i))

/-- `h · w` plus the bias row, with 64 contracted. -/
def mm64 (h : Arr S100000x64) (w : Arr S64x64) (b : Arr S1x64) : Arr S100000x64 :=
  fun i => (∑ k : Fin 64, h (ValueIdx.ix2 (row i) k) * w (ValueIdx.ix2 k (col i))) + b (ValueIdx.ix2 (0 : Fin 1) (col i))

/-- The scaled residual `(h + a) · 2^(-1/2)` (the scale as its float word). -/
def comb (h a : Arr S100000x64) : Arr S100000x64 :=
  fun i => (h i + a i) * Ideal.ofBits .f32 0x3F3504F3#32

/-- The column sums, as a row. -/
def colSum (h : Arr S100000x64) : Arr S1x64 :=
  fun j => ∑ r : Fin 100000, h (ValueIdx.ix2 r (col1 j))

/-- The column sums of the squares, as a row. -/
def colSumSq (h : Arr S100000x64) : Arr S1x64 :=
  fun j => ∑ r : Fin 100000, h (ValueIdx.ix2 r (col1 j)) * h (ValueIdx.ix2 r (col1 j))

/-- The normalisation of `h` by a mean row `mu`, a variance row `va`, a scale row `g` and a shift row `b`. -/
def bnApply (h : Arr S100000x64) (mu va g b : Arr S1x64) : Arr S100000x64 :=
  fun i => (h i - mu (ValueIdx.ix2 (0 : Fin 1) (col i)))
      * Ideal.rsqrt (va (ValueIdx.ix2 (0 : Fin 1) (col i)) + Ideal.ofBits .f32 0x3727C5AC#32)
      * g (ValueIdx.ix2 (0 : Fin 1) (col i)) + b (ValueIdx.ix2 (0 : Fin 1) (col i))

/-- A length-64 vector as a [1, 64] row, and back. -/
def rowOf (v : Arr S64) : Arr S1x64 := shapeCast S1x64 v shapeCasts_S64_S1x64
def flat (v : Arr S1x64) : Arr S64 := shapeCast S64 v shapeCasts_S1x64_S64

/-- The zero bias row of the graph layers' linear maps. -/
def zrow : Arr S1x64 := rowOf (broadcastInDim S64 ![] bcast_S_S64 (constant (F := Ideal) S_ .f32 0x00000000#32))

/-- One graph layer. -/
def layer (h : Arr S100000x64) (w : Arr S64x64) (b : Arr S64) (src dst : EIdx) : Arr S100000x64 :=
  comb h (agg (mm64 h w zrow) src dst b)

/-- The features entering the batch normalisation. -/
def feat (src dst : EIdx) (x : Arr S100000x128) (fcw : Arr S128x64) (fcb : Arr S64) (w1 : Arr S64x64) (b1 : Arr S64)
    (w2 : Arr S64x64) (b2 : Arr S64) : Arr S100000x64 :=
  layer (layer (mm128 x fcw (rowOf fcb)) w1 b1 src dst) w2 b2 src dst

/-- The column means, from the column sums. -/
def meanK (h : Arr S100000x64) : Arr S64 :=
  Host.divf (F := Ideal) (flat (colSum h)) (broadcastInDim S64 ![] bcast_S_S64 (constant (F := Ideal) S_ .f32 0x47C35000#32))

/-- The column variances as the mean square less the squared mean. -/
def varK (h : Arr S100000x64) : Arr S64 :=
  subf (F := Ideal) (Host.divf (F := Ideal) (flat (colSumSq h)) (broadcastInDim S64 ![] bcast_S_S64 (constant (F := Ideal) S_ .f32 0x47C35000#32)))
    (mulf (F := Ideal) (meanK h) (meanK h))

/-- The batch normalisation as the kernel program computes it. -/
def bnK (h : Arr S100000x64) (g be : Arr S64) : Arr S100000x64 :=
  bnApply h (rowOf (meanK h)) (rowOf (varK h)) (rowOf g) (rowOf be)

/-- The kernel program's result. -/
def out (src dst : EIdx) (x : Arr S100000x128) (fcw : Arr S128x64) (fcb : Arr S64) (w1 : Arr S64x64) (b1 : Arr S64)
    (w2 : Arr S64x64) (b2 : Arr S64) (g be : Arr S64) : Arr S100000x64 :=
  bnK (feat src dst x fcw fcb w1 b1 w2 b2) g be

end Cert.KernelIdeal.KSpec

end
-- ==== Proof.Region0.lean ====
/-
  Region 0: the dense layer's row blocks. Each grid point multiplies a block of 2000 rows of x by the whole weight matrix and adds the bias row; the 50 blocks tile the array, so the output array is x · w + b at every index.
-/
import proofs.«106122_j57346403336483_1_alg».proof.Proof.Gen.KernelIdeal.Frame
import proofs.«106122_j57346403336483_1_alg».proof.Proof.KSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.SL.Sem
open Idealize.ShloMosaic.Pipeline (Dat Cfg Window)
open Cert.KernelIdeal Cert.KernelIdeal.Gen
open Idealize.ShloMosaic.ValueIdx

/-- The windows' block indices, decided once over the grid: the first operand's and the result's blocks move down the
    rows with the point, one block a point; the weights and the bias row are one block each. -/
theorem mm0_idx : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable [Facts]
open Facts₀ Facts

/-! ## The block's matrix product and bias row, at an index -/

/-- The left operand of the block product is read at the output's row … -/
theorem mm0_lhs_0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
/-- … and the contracted coordinate; -/
theorem mm0_lhs_1 (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q
/-- the right operand at the contracted coordinate … -/
theorem mm0_rhs_0 (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q
/-- … and the output's column. -/
theorem mm0_rhs_1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- The product of a [2000,128] block and the [128,64] weights into a zero accumulator, at row `p` and column `q`:
    the sum over the 128 contracted coordinates. -/
theorem mm0_matmul_apply (a : FVec Ideal S2000x128 .bf16) (b : FVec Ideal S128x64 .bf16) (p : Fin 2000) (q : Fin 64) :
    matmul (F := Ideal) dot_S2000x128_S128x64_S2000x64_1_0_0_1_n_n none a b (constant (F := Ideal) S2000x64 .f32 0x00000000#32) (ix2 p q)
      = ∑ k : Fin 128, a (ix2 p k) * b (ix2 k q) := by
  show FloatOps.matmul _ _ _ _ _ _ = _
  rw [Ideal.matmul_constant_zero_apply, ← Equiv.sum_comp (ValueIdx.contrEquiv1 dot_S2000x128_S128x64_S2000x64_1_0_0_1_n_n 128 rfl rfl).symm]
  refine Finset.sum_congr rfl fun k _ => ?_
  have hk := ValueIdx.contrEquiv1_symm_val dot_S2000x128_S128x64_S2000x64_1_0_0_1_n_n 128 rfl rfl k
  have el : dot_S2000x128_S128x64_S2000x64_1_0_0_1_n_n.lhsIdx (ix2 p q) ((ValueIdx.contrEquiv1 dot_S2000x128_S128x64_S2000x64_1_0_0_1_n_n 128 rfl rfl).symm k) = ix2 p k := funext fun a => Fin.ext (by
    match a with
    | ⟨0, _⟩ => exact mm0_lhs_0 _ _
    | ⟨1, _⟩ => exact (mm0_lhs_1 _ _).trans hk)
  have er : dot_S2000x128_S128x64_S2000x64_1_0_0_1_n_n.rhsIdx (ix2 p q) ((ValueIdx.contrEquiv1 dot_S2000x128_S128x64_S2000x64_1_0_0_1_n_n 128 rfl rfl).symm k) = ix2 k q := funext fun a => Fin.ext (by
    match a with
    | ⟨0, _⟩ => exact (mm0_rhs_0 _ _).trans hk
    | ⟨1, _⟩ => exact mm0_rhs_1 _ _)
  rw [el, er]

/-- The body's result at row `p` and column `q` of its block: the row of the first operand's block against the
    weights' column, plus the bias row's entry of that column (the narrowings to bf16 are the identity on extended reals). -/
theorem mm0_pay (x0 : Vec Ideal S2000x128 .f32) (x1 : Vec Ideal S128x64 .f32) (x2 : Vec Ideal S1x64 .f32) (p : Fin 2000) (q : Fin 64) :
    k0_pay1 (F := Ideal) x0 x1 x2 (ix2 p q) = (∑ k : Fin 128, x0 (ix2 p k) * x1 (ix2 k q)) + x2 (ix2 (0 : Fin 1) q) := by
  unfold k0_pay1
  rw [addf_apply, mm0_matmul_apply, broadcastTo_1b_ab_apply]
  simp only [shapeCast_self]
  rfl

variable (V : (c : Dev nD) → (b : Ref sig .tc) → Buf (Elt Ideal) ((c : Thread nD τ).loc b))

/-! ## One block of the result from the blocks of the operands -/

/-- If the first operand's block is rows `2000 n + p` of `A`, and the other two blocks are `B` and `C` themselves, the
    body's result is rows `2000 n + p` of `A · B` plus the row `C`. -/
theorem mm0_block (A : KSpec.Arr S100000x128) (B : KSpec.Arr S128x64) (C : KSpec.Arr S1x64)
    (X0 : Vec Ideal S2000x128 .f32) (X1 : Vec Ideal S128x64 .f32) (X2 : Vec Ideal S1x64 .f32) (G : Vec Ideal S2000x64 .f32)
    (n : Nat) (hn : n < 50)
    (h0 : ∀ (p : Fin 2000) (k : Fin 128), X0 (ix2 p k) = A (ix2 (⟨2000 * n + p.val, by have := p.isLt; omega⟩ : Fin 100000) k))
    (h1 : ∀ (k : Fin 128) (q : Fin 64), X1 (ix2 k q) = B (ix2 k q))
    (h2 : ∀ q : Fin 64, X2 (ix2 (0 : Fin 1) q) = C (ix2 (0 : Fin 1) q))
    (hG : ∀ (p : Fin 2000) (q : Fin 64), G (ix2 p q) = KSpec.mm128 A B C (ix2 (⟨2000 * n + p.val, by have := p.isLt; omega⟩ : Fin 100000) q))
    (j : S2000x64.Idx) : k0_pay1 (F := Ideal) X0 X1 X2 j = G j := by
  obtain ⟨p, q, rfl⟩ : ∃ (p : Fin 2000) (q : Fin 64), j = ix2 p q := ⟨j 0, j 1, eq_ix2 j⟩
  rw [mm0_pay, hG]
  unfold KSpec.mm128
  simp only [h0, h1, h2]
  rfl

/-! ## From the blocks to the array -/

theorem mm0_hz : (![0, 0] : Fin 2 → Nat) = fun _ => 0 := funext fun a => by fin_cases a <;> rfl

/-- What point `t` writes back is block `t` of the product plus the bias row, of the arrays as the region finds them. -/
theorem mm0_flushed (c : Dev nD) (t : Fin cfg0.N) :
    (dat0 V c).flushed 3 t = ((cfg0.win 3).blk t).view.read (Elt Ideal) (KSpec.mm128 (V c main_arg2) (V c main_arg3) (V c main_v20)) := by
  show (cfg0.win 3).cut (grid0.coords t) ((dat0 V c).after 3 t) = _
  rw [after0_3]
  unfold out0_3
  rw [View.canon_unit_zero mm0_hz]
  simp only [View.ld_unit_zero (S := S2000x128) mm0_hz, View.ld_unit_zero (S := S128x64) mm0_hz, View.ld_unit_zero (S := S1x64) mm0_hz]
  obtain ⟨e00, e01, e10, e11, e20, e21, e30, e31⟩ := mm0_idx t
  have ht : t.val < 50 := lt_of_lt_of_eq t.isLt N_0
  funext j
  refine mm0_block (V c main_arg2) (V c main_arg3) (V c main_v20) (iblk0 V c 0 t) (iblk0 V c 1 t) (iblk0 V c 2 t) _ t.val ht ?_ ?_ ?_ ?_ j
  · intro p k
    unfold iblk0
    rw [View.read_apply]
    show V c main_arg2 (((cfg0.win 0).blk t).view.emb (ix2 p k)) = V c main_arg2 _
    refine congrArg _ (funext fun a => Fin.ext ?_)
    match a with
    | ⟨0, _⟩ => show win0_0.index t (0 : Fin 2) * 2000 + 1 * p.val = 2000 * t.val + p.val; omega
    | ⟨1, _⟩ => show win0_0.index t (1 : Fin 2) * 128 + 1 * k.val = k.val; omega
  · intro k q
    unfold iblk0
    rw [View.read_apply]
    show V c main_arg3 (((cfg0.win 1).blk t).view.emb (ix2 k q)) = V c main_arg3 _
    refine congrArg _ (funext fun a => Fin.ext ?_)
    match a with
    | ⟨0, _⟩ => show win0_1.index t (0 : Fin 2) * 128 + 1 * k.val = k.val; omega
    | ⟨1, _⟩ => show win0_1.index t (1 : Fin 2) * 64 + 1 * q.val = q.val; omega
  · intro q
    unfold iblk0
    rw [View.read_apply]
    show V c main_v20 (((cfg0.win 2).blk t).view.emb (ix2 (0 : Fin 1) q)) = V c main_v20 _
    refine congrArg _ (funext fun a => Fin.ext ?_)
    match a with
    | ⟨0, _⟩ => show win0_2.index t (0 : Fin 2) * 1 + 1 * (0 : Fin 1).val = (0 : Fin 1).val; omega
    | ⟨1, _⟩ => show win0_2.index t (1 : Fin 2) * 64 + 1 * q.val = q.val; omega
  · intro p q
    show KSpec.mm128 (V c main_arg2) (V c main_arg3) (V c main_v20) (((cfg0.win 3).blk t).view.emb (ix2 p q)) = _
    refine congrArg _ (funext fun a => Fin.ext ?_)
    match a with
    | ⟨0, _⟩ => show win0_3.index t (0 : Fin 2) * 2000 + 1 * p.val = 2000 * t.val + p.val; omega
    | ⟨1, _⟩ => show win0_3.index t (1 : Fin 2) * 64 + 1 * q.val = q.val; omega

/-- An index of the result array is in point `t`'s block iff each coordinate is in the block's range on its axis. -/
theorem mm0_mem_blk (t : Fin cfg0.N) (i : S100000x64.Idx) :
    i ∈ ((cfg0.win 3).blk t).view.set ↔ ∀ a : Fin 2, win0_3.index t a * S2000x64.size a ≤ (i a).val ∧ (i a).val < win0_3.index t a * S2000x64.size a + S2000x64.size a := by
  show i ∈ ((View.whole main_v21).slice (win0_3.rect t)).set ↔ _
  rw [View.set_slice_whole, Rect.mem_set_unit]
  exact Iff.rfl

/-- Every index of the result array is in the block of the point its row falls to: row `r` in point `r / 2000`'s. -/
theorem mm0_cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 50 := N_0
  obtain ⟨t, ht⟩ : ∃ t : Fin cfg0.N, t.val = (i 0).val / 2000 := ⟨⟨(i 0).val / 2000, by rw [hN]; omega⟩, rfl⟩
  obtain ⟨-, -, -, -, -, -, e30, e31⟩ := mm0_idx t
  refine ⟨t, flush0_3 t, ?_⟩
  rw [mm0_mem_blk]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 64 ≤ (i 1).val ∧ (i 1).val < win0_3.index t (1 : Fin 2) * 64 + 64; omega

theorem region0 (c : Dev nD) :
    (dat0 V c).arrAt 3 cfg0.N = KSpec.mm128 (V c main_arg2) (V c main_arg3) (V c main_v20) :=
  (dat0 V c).arrAt_eq_of_cover 3 _ (fun t _ => mm0_flushed V c t) mm0_cover

end Cert.KernelIdeal.Val

end
-- ==== Proof.Region1.lean ====
/-
  Region 1: the first graph layer's linear map, by row blocks of 2000: h · w plus the (zero) bias row.
-/
import proofs.«106122_j57346403336483_1_alg».proof.Proof.Gen.KernelIdeal.Frame
import proofs.«106122_j57346403336483_1_alg».proof.Proof.KSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.SL.Sem
open Idealize.ShloMosaic.Pipeline (Dat Cfg Window)
open Cert.KernelIdeal Cert.KernelIdeal.Gen
open Idealize.ShloMosaic.ValueIdx

/-- The windows' block indices, decided once over the grid: the blocks of the features and of the result move down the
    rows with the point, one block a point; the weights and the bias row are one block each. -/
theorem mm1_idx : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable [Facts]
open Facts₀ Facts

/-! ## The block's matrix product and bias row, at an index -/

/-- The left operand of the block product is read at the output's row … -/
theorem mm1_lhs_0 (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
/-- … and the contracted coordinate; -/
theorem mm1_lhs_1 (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
/-- the right operand at the contracted coordinate … -/
theorem mm1_rhs_0 (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
/-- … and the output's column. -/
theorem mm1_rhs_1 (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- The product of a [2000,64] block and the [64,64] weights into a zero accumulator, at row `p` and column `q`:
    the sum over the 64 contracted coordinates. -/
theorem mm1_matmul_apply (a : FVec Ideal S2000x64 .bf16) (b : FVec Ideal S64x64 .bf16) (p : Fin 2000) (q : Fin 64) :
    matmul (F := Ideal) dot_S2000x64_S64x64_S2000x64_1_0_0_1_n_n none a b (constant (F := Ideal) S2000x64 .f32 0x00000000#32) (ix2 p q)
      = ∑ k : Fin 64, a (ix2 p k) * b (ix2 k q) := by
  show FloatOps.matmul _ _ _ _ _ _ = _
  rw [Ideal.matmul_constant_zero_apply, ← Equiv.sum_comp (ValueIdx.contrEquiv1 dot_S2000x64_S64x64_S2000x64_1_0_0_1_n_n 64 rfl rfl).symm]
  refine Finset.sum_congr rfl fun k _ => ?_
  have hk := ValueIdx.contrEquiv1_symm_val dot_S2000x64_S64x64_S2000x64_1_0_0_1_n_n 64 rfl rfl k
  have el : dot_S2000x64_S64x64_S2000x64_1_0_0_1_n_n.lhsIdx (ix2 p q) ((ValueIdx.contrEquiv1 dot_S2000x64_S64x64_S2000x64_1_0_0_1_n_n 64 rfl rfl).symm k) = ix2 p k := funext fun a => Fin.ext (by
    match a with
    | ⟨0, _⟩ => exact mm1_lhs_0 _ _
    | ⟨1, _⟩ => exact (mm1_lhs_1 _ _).trans hk)
  have er : dot_S2000x64_S64x64_S2000x64_1_0_0_1_n_n.rhsIdx (ix2 p q) ((ValueIdx.contrEquiv1 dot_S2000x64_S64x64_S2000x64_1_0_0_1_n_n 64 rfl rfl).symm k) = ix2 k q := funext fun a => Fin.ext (by
    match a with
    | ⟨0, _⟩ => exact (mm1_rhs_0 _ _).trans hk
    | ⟨1, _⟩ => exact mm1_rhs_1 _ _)
  rw [el, er]

/-- The body's result at row `p` and column `q` of its block: the row of the features' block against the weights'
    column, plus the bias row's entry of that column (the casts to the same shape and the narrowings to bf16 are the
    identity on extended reals). -/
theorem mm1_pay (x0 : Vec Ideal S2000x64 .f32) (x1 : Vec Ideal S64x64 .f32) (x2 : Vec Ideal S1x64 .f32) (p : Fin 2000) (q : Fin 64) :
    k1_pay1 (F := Ideal) x0 x1 x2 (ix2 p q) = (∑ k : Fin 64, x0 (ix2 p k) * x1 (ix2 k q)) + x2 (ix2 (0 : Fin 1) q) := by
  unfold k1_pay1
  rw [addf_apply, mm1_matmul_apply, broadcastTo_1b_ab_apply]
  simp only [shapeCast_self]
  rfl

variable (V : (c : Dev nD) → (b : Ref sig .tc) → Buf (Elt Ideal) ((c : Thread nD τ).loc b))

/-! ## One block of the result from the blocks of the operands -/

/-- If the features' block is rows `2000 n + p` of `A`, and the other two blocks are `B` and `C` themselves, the body's
    result is rows `2000 n + p` of `A · B` plus the row `C`. -/
theorem mm1_block (A : KSpec.Arr S100000x64) (B : KSpec.Arr S64x64) (C : KSpec.Arr S1x64)
    (X0 : Vec Ideal S2000x64 .f32) (X1 : Vec Ideal S64x64 .f32) (X2 : Vec Ideal S1x64 .f32) (G : Vec Ideal S2000x64 .f32)
    (n : Nat) (hn : n < 50)
    (h0 : ∀ (p : Fin 2000) (k : Fin 64), X0 (ix2 p k) = A (ix2 (⟨2000 * n + p.val, by have := p.isLt; omega⟩ : Fin 100000) k))
    (h1 : ∀ (k : Fin 64) (q : Fin 64), X1 (ix2 k q) = B (ix2 k q))
    (h2 : ∀ q : Fin 64, X2 (ix2 (0 : Fin 1) q) = C (ix2 (0 : Fin 1) q))
    (hG : ∀ (p : Fin 2000) (q : Fin 64), G (ix2 p q) = KSpec.mm64 A B C (ix2 (⟨2000 * n + p.val, by have := p.isLt; omega⟩ : Fin 100000) q))
    (j : S2000x64.Idx) : k1_pay1 (F := Ideal) X0 X1 X2 j = G j := by
  obtain ⟨p, q, rfl⟩ : ∃ (p : Fin 2000) (q : Fin 64), j = ix2 p q := ⟨j 0, j 1, eq_ix2 j⟩
  rw [mm1_pay, hG]
  unfold KSpec.mm64
  simp only [h0, h1, h2]
  rfl

/-! ## From the blocks to the array -/

theorem mm1_hz : (![0, 0] : Fin 2 → Nat) = fun _ => 0 := funext fun a => by fin_cases a <;> rfl

/-- What point `t` writes back is block `t` of the product plus the bias row, of the arrays as the region finds them. -/
theorem mm1_flushed (c : Dev nD) (t : Fin cfg1.N) :
    (dat1 V c).flushed 3 t = ((cfg1.win 3).blk t).view.read (Elt Ideal) (KSpec.mm64 (V c main_v21) (V c main_arg5) (V c main_v23)) := by
  show (cfg1.win 3).cut (grid1.coords t) ((dat1 V c).after 3 t) = _
  rw [after1_3]
  unfold out1_3
  rw [View.canon_unit_zero mm1_hz]
  simp only [View.ld_unit_zero (S := S2000x64) mm1_hz, View.ld_unit_zero (S := S64x64) mm1_hz, View.ld_unit_zero (S := S1x64) mm1_hz]
  obtain ⟨e00, e01, e10, e11, e20, e21, e30, e31⟩ := mm1_idx t
  have ht : t.val < 50 := lt_of_lt_of_eq t.isLt N_1
  funext j
  refine mm1_block (V c main_v21) (V c main_arg5) (V c main_v23) (iblk1 V c 0 t) (iblk1 V c 1 t) (iblk1 V c 2 t) _ t.val ht ?_ ?_ ?_ ?_ j
  · intro p k
    unfold iblk1
    rw [View.read_apply]
    show V c main_v21 (((cfg1.win 0).blk t).view.emb (ix2 p k)) = V c main_v21 _
    refine congrArg _ (funext fun a => Fin.ext ?_)
    match a with
    | ⟨0, _⟩ => show win1_0.index t (0 : Fin 2) * 2000 + 1 * p.val = 2000 * t.val + p.val; omega
    | ⟨1, _⟩ => show win1_0.index t (1 : Fin 2) * 64 + 1 * k.val = k.val; omega
  · intro k q
    unfold iblk1
    rw [View.read_apply]
    show V c main_arg5 (((cfg1.win 1).blk t).view.emb (ix2 k q)) = V c main_arg5 _
    refine congrArg _ (funext fun a => Fin.ext ?_)
    match a with
    | ⟨0, _⟩ => show win1_1.index t (0 : Fin 2) * 64 + 1 * k.val = k.val; omega
    | ⟨1, _⟩ => show win1_1.index t (1 : Fin 2) * 64 + 1 * q.val = q.val; omega
  · intro q
    unfold iblk1
    rw [View.read_apply]
    show V c main_v23 (((cfg1.win 2).blk t).view.emb (ix2 (0 : Fin 1) q)) = V c main_v23 _
    refine congrArg _ (funext fun a => Fin.ext ?_)
    match a with
    | ⟨0, _⟩ => show win1_2.index t (0 : Fin 2) * 1 + 1 * (0 : Fin 1).val = (0 : Fin 1).val; omega
    | ⟨1, _⟩ => show win1_2.index t (1 : Fin 2) * 64 + 1 * q.val = q.val; omega
  · intro p q
    show KSpec.mm64 (V c main_v21) (V c main_arg5) (V c main_v23) (((cfg1.win 3).blk t).view.emb (ix2 p q)) = _
    refine congrArg _ (funext fun a => Fin.ext ?_)
    match a with
    | ⟨0, _⟩ => show win1_3.index t (0 : Fin 2) * 2000 + 1 * p.val = 2000 * t.val + p.val; omega
    | ⟨1, _⟩ => show win1_3.index t (1 : Fin 2) * 64 + 1 * q.val = q.val; omega

/-- An index of the result array is in point `t`'s block iff each coordinate is in the block's range on its axis. -/
theorem mm1_mem_blk (t : Fin cfg1.N) (i : S100000x64.Idx) :
    i ∈ ((cfg1.win 3).blk t).view.set ↔ ∀ a : Fin 2, win1_3.index t a * S2000x64.size a ≤ (i a).val ∧ (i a).val < win1_3.index t a * S2000x64.size a + S2000x64.size a := by
  show i ∈ ((View.whole main_v24).slice (win1_3.rect t)).set ↔ _
  rw [View.set_slice_whole, Rect.mem_set_unit]
  exact Iff.rfl

/-- Every index of the result array is in the block of the point its row falls to: row `r` in point `r / 2000`'s. -/
theorem mm1_cover (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 50 := N_1
  obtain ⟨t, ht⟩ : ∃ t : Fin cfg1.N, t.val = (i 0).val / 2000 := ⟨⟨(i 0).val / 2000, by rw [hN]; omega⟩, rfl⟩
  obtain ⟨-, -, -, -, -, -, e30, e31⟩ := mm1_idx t
  refine ⟨t, flush1_3 t, ?_⟩
  rw [mm1_mem_blk]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 64 ≤ (i 1).val ∧ (i 1).val < win1_3.index t (1 : Fin 2) * 64 + 64; omega

theorem region1 (c : Dev nD) :
    (dat1 V c).arrAt 3 cfg1.N = KSpec.mm64 (V c main_v21) (V c main_arg5) (V c main_v23) :=
  (dat1 V c).arrAt_eq_of_cover 3 _ (fun t _ => mm1_flushed V c t) mm1_cover

end Cert.KernelIdeal.Val

end
-- ==== Proof.Region2.lean ====
/-
  Region 2: the first scaled residual, pointwise on row blocks of 2000.

  The output array [100000, 64] is written in 50 row blocks of 2000 rows; at point t the body reads rows
  2000 t … 2000 t + 1999 of the two input arrays (all three windows move together down the rows, one block of all
  64 columns each), adds them entry by entry and multiplies by the float word of 2^(-1/2). So what point t writes back
  is block t of the whole-array function `KSpec.comb h a`, and the 50 blocks tile the array: row r lies in block r / 2000.
-/
import proofs.«106122_j57346403336483_1_alg».proof.Proof.Gen.KernelIdeal.Frame
import proofs.«106122_j57346403336483_1_alg».proof.Proof.KSpec
import Idealize.ShloMosaic.Lib.Pipeline.Value
import Idealize.ShloMosaic.Lib.ValueIdx
import Idealize.ShloMosaic.PureOps.Ideal.Laws

set_option maxRecDepth 16384

noncomputable section

namespace Cert.KernelIdeal.Val

open Idealize.ShloMosaic Idealize.ShloMosaic.TcCoe Idealize.SL.Sem
open Idealize.ShloMosaic.Pipeline (Dat Cfg Window)
open Cert.KernelIdeal Cert.KernelIdeal.Gen

/-- The three index maps over the 50 points: every window's block index is (t, 0). -/
theorem rows2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

variable [Facts]
open Facts₀ Facts

/-- The body's one load rectangle and its one store rectangle start at row 0, column 0. -/
theorem origin2 : (![0, 0] : Fin 2 → Nat) = fun _ => 0 :=
  funext fun a => match a with
    | ⟨0, _⟩ => rfl
    | ⟨1, _⟩ => rfl

/-- The body's arithmetic at one entry of the block: the sum of the two loaded entries times the constant
    (the two shape casts are to the same shape, the constant is laid over the whole block). -/
theorem resid2_entry (x0 x1 : Vec Ideal S2000x64 .f32) (j : S2000x64.Idx) :
    k2_pay1 (F := Ideal) x0 x1 j = (x0 j + x1 j) * Ideal.ofBits .f32 0x3F3504F3#32 := by
  unfold k2_pay1
  simp only [shapeCast_self]
  rfl

/-- So, when the two loaded blocks hold the arrays `h` and `a` at the array index `i` that the block index `j`
    stands for, the body's result there is the scaled residual of `h` and `a` at `i`. -/
theorem resid2_block (h a : KSpec.Arr S100000x64) (x0 x1 : Vec Ideal S2000x64 .f32) (j : S2000x64.Idx)
    (i : S100000x64.Idx) (e0 : x0 j = h i) (e1 : x1 j = a i) :
    k2_pay1 (F := Ideal) x0 x1 j = KSpec.comb h a i := by
  rw [resid2_entry, e0, e1]
  rfl

variable (V : (c : Dev nD) → (b : Ref sig .tc) → Buf (Elt Ideal) ((c : Thread nD τ).loc b))

/-- What point `t` writes back is block `t` of the scaled residual of the two input arrays as the region finds them:
    the input blocks are the arrays read through the same rows and columns as the output block. -/
theorem wrote2 (c : Dev nD) (t : Fin cfg2.N) :
    (dat2 V c).flushed 2 t
      = ((cfg2.win 2).blk t).view.read (Elt Ideal) (KSpec.comb (V c main_v21) (V c main_v43)) := by
  show (cfg2.win 2).cut (grid2.coords t) ((dat2 V c).after 2 t) = _
  rw [after2_2]
  unfold out2_2
  rw [View.canon_unit_zero origin2]
  simp only [View.ld_unit_zero (S := S2000x64) origin2]
  obtain ⟨r0, c0, r1, c1, r2, c2⟩ := rows2 t
  funext (j : S2000x64.Idx)
  refine resid2_block (V c main_v21) (V c main_v43) (iblk2 V c 0 t) (iblk2 V c 1 t) j
    (((cfg2.win 2).blk t).view.emb j) ?_ ?_
  · show V c main_v21 (((cfg2.win 0).blk t).view.emb j) = V c main_v21 (((cfg2.win 2).blk t).view.emb j)
    refine congrArg (V c main_v21) (funext fun a => Fin.ext ?_)
    match a with
    | ⟨0, _⟩ =>
      show win2_0.index t (0 : Fin 2) * 2000 + 1 * (j 0).val = win2_2.index t (0 : Fin 2) * 2000 + 1 * (j 0).val
      rw [r0, r2]
    | ⟨1, _⟩ =>
      show win2_0.index t (1 : Fin 2) * 64 + 1 * (j 1).val = win2_2.index t (1 : Fin 2) * 64 + 1 * (j 1).val
      rw [c0, c2]
  · show V c main_v43 (((cfg2.win 1).blk t).view.emb j) = V c main_v43 (((cfg2.win 2).blk t).view.emb j)
    refine congrArg (V c main_v43) (funext fun a => Fin.ext ?_)
    match a with
    | ⟨0, _⟩ =>
      show win2_1.index t (0 : Fin 2) * 2000 + 1 * (j 0).val = win2_2.index t (0 : Fin 2) * 2000 + 1 * (j 0).val
      rw [r1, r2]
    | ⟨1, _⟩ =>
      show win2_1.index t (1 : Fin 2) * 64 + 1 * (j 1).val = win2_2.index t (1 : Fin 2) * 64 + 1 * (j 1).val
      rw [c1, c2]

/-- An index of the array is in point `t`'s output block iff each coordinate is in the block's range on its axis. -/
theorem mem_rows2 (t : Fin cfg2.N) (i : S100000x64.Idx) :
    i ∈ ((cfg2.win 2).blk t).view.set
      ↔ ∀ a : Fin 2, win2_2.index t a * S2000x64.size a ≤ (i a).val
          ∧ (i a).val < win2_2.index t a * S2000x64.size a + S2000x64.size a := by
  show i ∈ ((View.whole main_v44).slice (win2_2.rect t)).set ↔ _
  rw [View.set_slice_whole, Rect.mem_set_unit]
  exact Iff.rfl

/-- The 50 row blocks tile the array: row `r` is in the block of point `r / 2000`. -/
theorem tiled2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 50 := N_2
  let t : Fin cfg2.N := ⟨(i 0).val / 2000, by rw [hN]; omega⟩
  obtain ⟨-, -, -, -, r2, c2⟩ := rows2 t
  have ht : t.val = (i 0).val / 2000 := rfl
  refine ⟨t, flush2_2 t, ?_⟩
  rw [mem_rows2]
  intro a
  match a with
  | ⟨0, _⟩ =>
    show win2_2.index t (0 : Fin 2) * 2000 ≤ (i 0).val ∧ (i 0).val < win2_2.index t (0 : Fin 2) * 2000 + 2000
    rw [r2, ht]; omega
  | ⟨1, _⟩ =>
    show win2_2.index t (1 : Fin 2) * 64 ≤ (i 1).val ∧ (i 1).val < win2_2.index t (1 : Fin 2) * 64 + 64
    rw [c2]; omega

theorem region2 (c : Dev nD) :
    (dat2 V c).arrAt 2 cfg2.N = KSpec.comb (V c main_v21) (V c main_v43) :=
  (dat2 V c).arrAt_eq_of_cover 2 _ (fun t _ => wrote2 V c t) tiled2

end Cert.KernelIdeal.Val

end
-- ==== Proof.Region3.lean ====
/-
  Region 3: the second graph layer's linear map, by row blocks of 2000: h · w plus the (zero) bias row.
-/
import proofs.«106122_j57346403336483_1_alg».proof.Proof.Gen.KernelIdeal.Frame
import proofs.«106122_j57346403336483_1_alg».proof.Proof.KSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.SL.Sem
open Idealize.ShloMosaic.Pipeline (Dat Cfg Window)
open Cert.KernelIdeal Cert.KernelIdeal.Gen
open Idealize.ShloMosaic.ValueIdx

/-- The windows' block indices, decided once over the grid: the blocks of the features and of the result move down the
    rows with the point, one block a point; the weights and the bias row are one block each. -/
theorem mm3_idx : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

variable [Facts]
open Facts₀ Facts

/-! ## The block's matrix product and bias row, at an index -/

/-- The left operand of the block product is read at the output's row … -/
theorem mm3_lhs_0 (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
/-- … and the contracted coordinate; -/
theorem mm3_lhs_1 (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
/-- the right operand at the contracted coordinate … -/
theorem mm3_rhs_0 (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
/-- … and the output's column. -/
theorem mm3_rhs_1 (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- The product of a [2000,64] block and the [64,64] weights into a zero accumulator, at row `p` and column `q`:
    the sum over the 64 contracted coordinates. -/
theorem mm3_matmul_apply (a : FVec Ideal S2000x64 .bf16) (b : FVec Ideal S64x64 .bf16) (p : Fin 2000) (q : Fin 64) :
    matmul (F := Ideal) dot_S2000x64_S64x64_S2000x64_1_0_0_1_n_n none a b (constant (F := Ideal) S2000x64 .f32 0x00000000#32) (ix2 p q)
      = ∑ k : Fin 64, a (ix2 p k) * b (ix2 k q) := by
  show FloatOps.matmul _ _ _ _ _ _ = _
  rw [Ideal.matmul_constant_zero_apply, ← Equiv.sum_comp (ValueIdx.contrEquiv1 dot_S2000x64_S64x64_S2000x64_1_0_0_1_n_n 64 rfl rfl).symm]
  refine Finset.sum_congr rfl fun k _ => ?_
  have hk := ValueIdx.contrEquiv1_symm_val dot_S2000x64_S64x64_S2000x64_1_0_0_1_n_n 64 rfl rfl k
  have el : dot_S2000x64_S64x64_S2000x64_1_0_0_1_n_n.lhsIdx (ix2 p q) ((ValueIdx.contrEquiv1 dot_S2000x64_S64x64_S2000x64_1_0_0_1_n_n 64 rfl rfl).symm k) = ix2 p k := funext fun a => Fin.ext (by
    match a with
    | ⟨0, _⟩ => exact mm3_lhs_0 _ _
    | ⟨1, _⟩ => exact (mm3_lhs_1 _ _).trans hk)
  have er : dot_S2000x64_S64x64_S2000x64_1_0_0_1_n_n.rhsIdx (ix2 p q) ((ValueIdx.contrEquiv1 dot_S2000x64_S64x64_S2000x64_1_0_0_1_n_n 64 rfl rfl).symm k) = ix2 k q := funext fun a => Fin.ext (by
    match a with
    | ⟨0, _⟩ => exact (mm3_rhs_0 _ _).trans hk
    | ⟨1, _⟩ => exact mm3_rhs_1 _ _)
  rw [el, er]

/-- The body's result at row `p` and column `q` of its block: the row of the features' block against the weights'
    column, plus the bias row's entry of that column (the casts to the same shape and the narrowings to bf16 are the
    identity on extended reals). -/
theorem mm3_pay (x0 : Vec Ideal S2000x64 .f32) (x1 : Vec Ideal S64x64 .f32) (x2 : Vec Ideal S1x64 .f32) (p : Fin 2000) (q : Fin 64) :
    k3_pay1 (F := Ideal) x0 x1 x2 (ix2 p q) = (∑ k : Fin 64, x0 (ix2 p k) * x1 (ix2 k q)) + x2 (ix2 (0 : Fin 1) q) := by
  unfold k3_pay1
  rw [addf_apply, mm3_matmul_apply, broadcastTo_1b_ab_apply]
  simp only [shapeCast_self]
  rfl

variable (V : (c : Dev nD) → (b : Ref sig .tc) → Buf (Elt Ideal) ((c : Thread nD τ).loc b))

/-! ## One block of the result from the blocks of the operands -/

/-- If the features' block is rows `2000 n + p` of `A`, and the other two blocks are `B` and `C` themselves, the body's
    result is rows `2000 n + p` of `A · B` plus the row `C`. -/
theorem mm3_block (A : KSpec.Arr S100000x64) (B : KSpec.Arr S64x64) (C : KSpec.Arr S1x64)
    (X0 : Vec Ideal S2000x64 .f32) (X1 : Vec Ideal S64x64 .f32) (X2 : Vec Ideal S1x64 .f32) (G : Vec Ideal S2000x64 .f32)
    (n : Nat) (hn : n < 50)
    (h0 : ∀ (p : Fin 2000) (k : Fin 64), X0 (ix2 p k) = A (ix2 (⟨2000 * n + p.val, by have := p.isLt; omega⟩ : Fin 100000) k))
    (h1 : ∀ (k : Fin 64) (q : Fin 64), X1 (ix2 k q) = B (ix2 k q))
    (h2 : ∀ q : Fin 64, X2 (ix2 (0 : Fin 1) q) = C (ix2 (0 : Fin 1) q))
    (hG : ∀ (p : Fin 2000) (q : Fin 64), G (ix2 p q) = KSpec.mm64 A B C (ix2 (⟨2000 * n + p.val, by have := p.isLt; omega⟩ : Fin 100000) q))
    (j : S2000x64.Idx) : k3_pay1 (F := Ideal) X0 X1 X2 j = G j := by
  obtain ⟨p, q, rfl⟩ : ∃ (p : Fin 2000) (q : Fin 64), j = ix2 p q := ⟨j 0, j 1, eq_ix2 j⟩
  rw [mm3_pay, hG]
  unfold KSpec.mm64
  simp only [h0, h1, h2]
  rfl

/-! ## From the blocks to the array -/

theorem mm3_hz : (![0, 0] : Fin 2 → Nat) = fun _ => 0 := funext fun a => by fin_cases a <;> rfl

/-- What point `t` writes back is block `t` of the product plus the bias row, of the arrays as the region finds them. -/
theorem mm3_flushed (c : Dev nD) (t : Fin cfg3.N) :
    (dat3 V c).flushed 3 t = ((cfg3.win 3).blk t).view.read (Elt Ideal) (KSpec.mm64 (V c main_v44) (V c main_arg7) (V c main_v45)) := by
  show (cfg3.win 3).cut (grid3.coords t) ((dat3 V c).after 3 t) = _
  rw [after3_3]
  unfold out3_3
  rw [View.canon_unit_zero mm3_hz]
  simp only [View.ld_unit_zero (S := S2000x64) mm3_hz, View.ld_unit_zero (S := S64x64) mm3_hz, View.ld_unit_zero (S := S1x64) mm3_hz]
  obtain ⟨e00, e01, e10, e11, e20, e21, e30, e31⟩ := mm3_idx t
  have ht : t.val < 50 := lt_of_lt_of_eq t.isLt N_3
  funext j
  refine mm3_block (V c main_v44) (V c main_arg7) (V c main_v45) (iblk3 V c 0 t) (iblk3 V c 1 t) (iblk3 V c 2 t) _ t.val ht ?_ ?_ ?_ ?_ j
  · intro p k
    unfold iblk3
    rw [View.read_apply]
    show V c main_v44 (((cfg3.win 0).blk t).view.emb (ix2 p k)) = V c main_v44 _
    refine congrArg _ (funext fun a => Fin.ext ?_)
    match a with
    | ⟨0, _⟩ => show win3_0.index t (0 : Fin 2) * 2000 + 1 * p.val = 2000 * t.val + p.val; omega
    | ⟨1, _⟩ => show win3_0.index t (1 : Fin 2) * 64 + 1 * k.val = k.val; omega
  · intro k q
    unfold iblk3
    rw [View.read_apply]
    show V c main_arg7 (((cfg3.win 1).blk t).view.emb (ix2 k q)) = V c main_arg7 _
    refine congrArg _ (funext fun a => Fin.ext ?_)
    match a with
    | ⟨0, _⟩ => show win3_1.index t (0 : Fin 2) * 64 + 1 * k.val = k.val; omega
    | ⟨1, _⟩ => show win3_1.index t (1 : Fin 2) * 64 + 1 * q.val = q.val; omega
  · intro q
    unfold iblk3
    rw [View.read_apply]
    show V c main_v45 (((cfg3.win 2).blk t).view.emb (ix2 (0 : Fin 1) q)) = V c main_v45 _
    refine congrArg _ (funext fun a => Fin.ext ?_)
    match a with
    | ⟨0, _⟩ => show win3_2.index t (0 : Fin 2) * 1 + 1 * (0 : Fin 1).val = (0 : Fin 1).val; omega
    | ⟨1, _⟩ => show win3_2.index t (1 : Fin 2) * 64 + 1 * q.val = q.val; omega
  · intro p q
    show KSpec.mm64 (V c main_v44) (V c main_arg7) (V c main_v45) (((cfg3.win 3).blk t).view.emb (ix2 p q)) = _
    refine congrArg _ (funext fun a => Fin.ext ?_)
    match a with
    | ⟨0, _⟩ => show win3_3.index t (0 : Fin 2) * 2000 + 1 * p.val = 2000 * t.val + p.val; omega
    | ⟨1, _⟩ => show win3_3.index t (1 : Fin 2) * 64 + 1 * q.val = q.val; omega

/-- An index of the result array is in point `t`'s block iff each coordinate is in the block's range on its axis. -/
theorem mm3_mem_blk (t : Fin cfg3.N) (i : S100000x64.Idx) :
    i ∈ ((cfg3.win 3).blk t).view.set ↔ ∀ a : Fin 2, win3_3.index t a * S2000x64.size a ≤ (i a).val ∧ (i a).val < win3_3.index t a * S2000x64.size a + S2000x64.size a := by
  show i ∈ ((View.whole main_v46).slice (win3_3.rect t)).set ↔ _
  rw [View.set_slice_whole, Rect.mem_set_unit]
  exact Iff.rfl

/-- Every index of the result array is in the block of the point its row falls to: row `r` in point `r / 2000`'s. -/
theorem mm3_cover (i : S100000x64.Idx) :
    ∃ t : Fin cfg3.N, (cfg3.win 3).flush t = true ∧ i ∈ ((cfg3.win 3).blk t).view.set := by
  have hi0 : (i 0).val < 100000 := (i 0).isLt
  have hi1 : (i 1).val < 64 := (i 1).isLt
  have hN : cfg3.N = 50 := N_3
  obtain ⟨t, ht⟩ : ∃ t : Fin cfg3.N, t.val = (i 0).val / 2000 := ⟨⟨(i 0).val / 2000, by rw [hN]; omega⟩, rfl⟩
  obtain ⟨-, -, -, -, -, -, e30, e31⟩ := mm3_idx t
  refine ⟨t, flush3_3 t, ?_⟩
  rw [mm3_mem_blk]
  intro a
  match a with
  | ⟨0, _⟩ => show win3_3.index t (0 : Fin 2) * 2000 ≤ (i 0).val ∧ (i 0).val < win3_3.index t (0 : Fin 2) * 2000 + 2000; omega
  | ⟨1, _⟩ => show win3_3.index t (1 : Fin 2) * 64 ≤ (i 1).val ∧ (i 1).val < win3_3.index t (1 : Fin 2) * 64 + 64; omega

theorem region3 (c : Dev nD) :
    (dat3 V c).arrAt 3 cfg3.N = KSpec.mm64 (V c main_v44) (V c main_arg7) (V c main_v45) :=
  (dat3 V c).arrAt_eq_of_cover 3 _ (fun t _ => mm3_flushed V c t) mm3_cover

end Cert.KernelIdeal.Val

end
-- ==== Proof.Region4.lean ====
/-
  Region 4: the second scaled residual, pointwise on row blocks of 2000.

  As in the first one, the output array [100000, 64] is written in 50 row blocks of 2000 rows; at point t the body
  reads rows 2000 t … 2000 t + 1999 of its two input arrays (the three windows move together down the rows, each
  block all 64 columns wide), adds them entry by entry and multiplies by the float word of 2^(-1/2). What point t
  writes back is therefore block t of `KSpec.comb h a`, and the 50 blocks tile the array: row r lies in block r / 2000.
-/
import proofs.«106122_j57346403336483_1_alg».proof.Proof.Gen.KernelIdeal.Frame
import proofs.«106122_j57346403336483_1_alg».proof.Proof.KSpec
import Idealize.ShloMosaic.Lib.Pipeline.Value
import Idealize.ShloMosaic.Lib.ValueIdx
import Idealize.ShloMosaic.PureOps.Ideal.Laws

set_option maxRecDepth 16384

noncomputable section

namespace Cert.KernelIdeal.Val

open Idealize.ShloMosaic Idealize.ShloMosaic.TcCoe Idealize.SL.Sem
open Idealize.ShloMosaic.Pipeline (Dat Cfg Window)
open Cert.KernelIdeal Cert.KernelIdeal.Gen

/-- The three index maps over the 50 points: every window's block index is (t, 0). -/
theorem rows4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

variable [Facts]
open Facts₀ Facts

/-- The body's one load rectangle and its one store rectangle start at row 0, column 0. -/
theorem origin4 : (![0, 0] : Fin 2 → Nat) = fun _ => 0 :=
  funext fun a => match a with
    | ⟨0, _⟩ => rfl
    | ⟨1, _⟩ => rfl

/-- The body's arithmetic at one entry of the block: the sum of the two loaded entries times the constant
    (the two shape casts are to the same shape, the constant is laid over the whole block). -/
theorem resid4_entry (x0 x1 : Vec Ideal S2000x64 .f32) (j : S2000x64.Idx) :
    k4_pay1 (F := Ideal) x0 x1 j = (x0 j + x1 j) * Ideal.ofBits .f32 0x3F3504F3#32 := by
  unfold k4_pay1
  simp only [shapeCast_self]
  rfl

/-- So, when the two loaded blocks hold the arrays `h` and `a` at the array index `i` that the block index `j`
    stands for, the body's result there is the scaled residual of `h` and `a` at `i`. -/
theorem resid4_block (h a : KSpec.Arr S100000x64) (x0 x1 : Vec Ideal S2000x64 .f32) (j : S2000x64.Idx)
    (i : S100000x64.Idx) (e0 : x0 j = h i) (e1 : x1 j = a i) :
    k4_pay1 (F := Ideal) x0 x1 j = KSpec.comb h a i := by
  rw [resid4_entry, e0, e1]
  rfl

variable (V : (c : Dev nD) → (b : Ref sig .tc) → Buf (Elt Ideal) ((c : Thread nD τ).loc b))

/-- What point `t` writes back is block `t` of the scaled residual of the two input arrays as the region finds them:
    the input blocks are the arrays read through the same rows and columns as the output block. -/
theorem wrote4 (c : Dev nD) (t : Fin cfg4.N) :
    (dat4 V c).flushed 2 t
      = ((cfg4.win 2).blk t).view.read (Elt Ideal) (KSpec.comb (V c main_v44) (V c main_v65)) := by
  show (cfg4.win 2).cut (grid4.coords t) ((dat4 V c).after 2 t) = _
  rw [after4_2]
  unfold out4_2
  rw [View.canon_unit_zero origin4]
  simp only [View.ld_unit_zero (S := S2000x64) origin4]
  obtain ⟨r0, c0, r1, c1, r2, c2⟩ := rows4 t
  funext (j : S2000x64.Idx)
  refine resid4_block (V c main_v44) (V c main_v65) (iblk4 V c 0 t) (iblk4 V c 1 t) j
    (((cfg4.win 2).blk t).view.emb j) ?_ ?_
  · show V c main_v44 (((cfg4.win 0).blk t).view.emb j) = V c main_v44 (((cfg4.win 2).blk t).view.emb j)
    refine congrArg (V c main_v44) (funext fun a => Fin.ext ?_)
    match a with
    | ⟨0, _⟩ =>
      show win4_0.index t (0 : Fin 2) * 2000 + 1 * (j 0).val = win4_2.index t (0 : Fin 2) * 2000 + 1 * (j 0).val
      rw [r0, r2]
    | ⟨1, _⟩ =>
      show win4_0.index t (1 : Fin 2) * 64 + 1 * (j 1).val = win4_2.index t (1 : Fin 2) * 64 + 1 * (j 1).val
      rw [c0, c2]
  · show V c main_v65 (((cfg4.win 1).blk t).view.emb j) = V c main_v65 (((cfg4.win 2).blk t).view.emb j)
    refine congrArg (V c main_v65) (funext fun a => Fin.ext ?_)
    match a with
    | ⟨0, _⟩ =>
      show win4_1.index t (0 : Fin 2) * 2000 + 1 * (j 0).val = win4_2.index t (0 : Fin 2) * 2000 + 1 * (j 0).val
      rw [r1, r2]
    | ⟨1, _⟩ =>
      show win4_1.index t (1 : Fin 2) * 64 + 1 * (j 1).val = win4_2.index t (1 : Fin 2) * 64 + 1 * (j 1).val
      rw [c1, c2]

/-- An index of the array is in point `t`'s output block iff each coordinate is in the block's range on its axis. -/
theorem mem_rows4 (t : Fin cfg4.N) (i : S100000x64.Idx) :
    i ∈ ((cfg4.win 2).blk t).view.set
      ↔ ∀ a : Fin 2, win4_2.index t a * S2000x64.size a ≤ (i a).val
          ∧ (i a).val < win4_2.index t a * S2000x64.size a + S2000x64.size a := by
  show i ∈ ((View.whole main_v66).slice (win4_2.rect t)).set ↔ _
  rw [View.set_slice_whole, Rect.mem_set_unit]
  exact Iff.rfl

/-- The 50 row blocks tile the array: row `r` is in the block of point `r / 2000`. -/
theorem tiled4 (i : S100000x64.Idx) :
    ∃ t : Fin cfg4.N, (cfg4.win 2).flush t = true ∧ i ∈ ((cfg4.win 2).blk t).view.set := by
  have hi0 : (i 0).val < 100000 := (i 0).isLt
  have hi1 : (i 1).val < 64 := (i 1).isLt
  have hN : cfg4.N = 50 := N_4
  let t : Fin cfg4.N := ⟨(i 0).val / 2000, by rw [hN]; omega⟩
  obtain ⟨-, -, -, -, r2, c2⟩ := rows4 t
  have ht : t.val = (i 0).val / 2000 := rfl
  refine ⟨t, flush4_2 t, ?_⟩
  rw [mem_rows4]
  intro a
  match a with
  | ⟨0, _⟩ =>
    show win4_2.index t (0 : Fin 2) * 2000 ≤ (i 0).val ∧ (i 0).val < win4_2.index t (0 : Fin 2) * 2000 + 2000
    rw [r2, ht]; omega
  | ⟨1, _⟩ =>
    show win4_2.index t (1 : Fin 2) * 64 ≤ (i 1).val ∧ (i 1).val < win4_2.index t (1 : Fin 2) * 64 + 64
    rw [c2]; omega

theorem region4 (c : Dev nD) :
    (dat4 V c).arrAt 2 cfg4.N = KSpec.comb (V c main_v44) (V c main_v65) :=
  (dat4 V c).arrAt_eq_of_cover 2 _ (fun t _ => wrote4 V c t) tiled4

end Cert.KernelIdeal.Val

end
-- ==== Proof.Region5.lean ====
/-
  Region 5: the column sums of the features and of their squares, accumulated over the 50 row blocks into two rows that stay resident across the grid (reset at the first point).

  Each point reads one block of 2000 rows. The first point stores the zero row and then adds the block's column sums (of
  the entries, respectively of their squares) to it; every later point adds its block's column sums to what the point
  before left. So after point n a row holds, at column q, the sum over the rows below 2000 (n + 1) of that column; after
  the last point, the sum over all 100000 rows. Over the extended reals the sum block by block is the sum over the whole
  range, and the one write-back, after the last point, covers the whole [1, 64] array.
-/
import proofs.«106122_j57346403336483_1_alg».proof.Proof.Gen.KernelIdeal.Frame
import proofs.«106122_j57346403336483_1_alg».proof.Proof.KSpec
import Idealize.ShloMosaic.Lib.Pipeline.Value
import Idealize.ShloMosaic.Lib.ValueIdx
import Idealize.ShloMosaic.Lib.IdealHost
import Idealize.ShloMosaic.PureOps.Ideal.Laws

set_option maxRecDepth 16384

noncomputable section

namespace Cert.KernelIdeal.Val

open Idealize.ShloMosaic Idealize.ShloMosaic.TcCoe Idealize.SL.Sem
open Idealize.ShloMosaic.Pipeline (Dat Cfg Window)
open Cert.KernelIdeal Cert.KernelIdeal.Gen

variable [Facts]
open Facts₀ Facts

namespace R5

/-! ## What each case of the body leaves in the two rows -/

section Pieces
variable {F : FTy → Type} [FloatOps F]

/-- The zero offsets of a whole-block access. -/
theorem hz5 : (![0, 0] : Fin 2 → Nat) = fun _ => 0 := funext fun a => by fin_cases a <;> rfl

/-- A later point's store into the first row: the row as found plus the block's column sums. -/
theorem piece_B_1 (c : Dev nD) (i : grid5.Coords) (a1 : Memref sig .tc .vmem S2000x64 .f32) (h1 : a1.IsWhole)
    (a2 : Memref sig .tc .vmem S1x64 .f32) (h2 : a2.IsWhole) (a3 : Memref sig .tc .vmem S1x64 .f32) (h3 : a3.IsWhole)
    (hc : ¬cond5_0 i) (x : Vec F S2000x64 .f32) (xo1 xo2 : Vec F S1x64 .f32) :
    out5_B_1 c i a1 h1 a2 h2 a3 h3 hc x xo1 xo2 = k5_pay4 x xo1 := by
  unfold out5_B_1
  rw [View.read_writes_eq_canon _ _ _ (cover5_B_1 c i a1 h1 a2 h2 a3 h3 hc x xo1 xo2)]
  unfold kernelRun5_B
  dsimp only
  sl_unfold_words
  rw [View.canon_unit_zero hz5]
  simp only [View.readAt_eq_ld, h1.read_unread, h2.read_unread, View.ld_unit_zero (S := S2000x64) hz5, View.ld_unit_zero (S := S1x64) hz5]

/-- A later point's store into the second row: the row as found plus the block's column sums of squares. -/
theorem piece_B_2 (c : Dev nD) (i : grid5.Coords) (a1 : Memref sig .tc .vmem S2000x64 .f32) (h1 : a1.IsWhole)
    (a2 : Memref sig .tc .vmem S1x64 .f32) (h2 : a2.IsWhole) (a3 : Memref sig .tc .vmem S1x64 .f32) (h3 : a3.IsWhole)
    (hc : ¬cond5_0 i) (x : Vec F S2000x64 .f32) (xo1 xo2 : Vec F S1x64 .f32) :
    out5_B_2 c i a1 h1 a2 h2 a3 h3 hc x xo1 xo2 = k5_pay5 x xo2 := by
  unfold out5_B_2
  rw [View.read_writes_eq_canon _ _ _ (cover5_B_2 c i a1 h1 a2 h2 a3 h3 hc x xo1 xo2)]
  unfold kernelRun5_B
  dsimp only
  sl_unfold_words
  rw [View.canon_unit_zero hz5]
  simp only [View.readAt_eq_ld, h1.read_unread, h3.read_unread, View.ld_unit_zero (S := S2000x64) hz5, View.ld_unit_zero (S := S1x64) hz5]

/-- The first point's last store into the first row: the zero row it has just stored, read back, plus the block's column sums. -/
theorem piece_A_1 (c : Dev nD) (i : grid5.Coords) (a1 : Memref sig .tc .vmem S2000x64 .f32) (h1 : a1.IsWhole)
    (a2 : Memref sig .tc .vmem S1x64 .f32) (h2 : a2.IsWhole) (a3 : Memref sig .tc .vmem S1x64 .f32) (h3 : a3.IsWhole)
    (hc : cond5_0 i) (x : Vec F S2000x64 .f32) :
    out5_A_1 c i a1 h1 a2 h2 a3 h3 hc x = k5_pay4 x (k5_pay1 (F := F)) := by
  unfold out5_A_1
  rw [View.read_writes_eq_canon _ _ _ (cover5_A_1 c i a1 h1 a2 h2 a3 h3 hc x)]
  unfold kernelRun5_A
  dsimp only
  sl_unfold_words
  rw [View.canon_cons_unit_zero (S := S1x64) hz5, View.readCov_unit_zero (S := S1x64) _ hz5]
  simp only [View.readAt_eq_ld, h1.read_unread, View.ld_unit_zero (S := S2000x64) hz5, View.ld_unit_zero (S := S1x64) hz5]

/-- The first point's last store into the second row: the zero row read back plus the block's column sums of squares. -/
theorem piece_A_2 (c : Dev nD) (i : grid5.Coords) (a1 : Memref sig .tc .vmem S2000x64 .f32) (h1 : a1.IsWhole)
    (a2 : Memref sig .tc .vmem S1x64 .f32) (h2 : a2.IsWhole) (a3 : Memref sig .tc .vmem S1x64 .f32) (h3 : a3.IsWhole)
    (hc : cond5_0 i) (x : Vec F S2000x64 .f32) :
    out5_A_2 c i a1 h1 a2 h2 a3 h3 hc x = k5_pay5 x (k5_pay2 (F := F)) := by
  unfold out5_A_2
  rw [View.read_writes_eq_canon _ _ _ (cover5_A_2 c i a1 h1 a2 h2 a3 h3 hc x)]
  unfold kernelRun5_A
  dsimp only
  sl_unfold_words
  rw [View.canon_cons_unit_zero (S := S1x64) hz5, View.readCov_unit_zero (S := S1x64) _ hz5]
  simp only [View.readAt_eq_ld, h1.read_unread, View.ld_unit_zero (S := S2000x64) hz5, View.ld_unit_zero (S := S1x64) hz5]
end Pieces

/-! ## The stored rows read at a column, over the extended reals -/

section AtIdeal
open ValueIdx

/-- The reduced-axis index over column `q` with row `k` inserted is `(k, q)`. -/
theorem lift_row (q : Fin 64) (k : Fin 2000) : Gen.reduces_S2000x64_S64.lift (ix1 q) k = ix2 k q := by
  funext a
  apply Fin.ext
  match a with
  | ⟨0, _⟩ => rfl
  | ⟨1, _⟩ => rfl

/-- The sum over the rows of a [2000, 64] block, at column `q`. -/
theorem rowsum_apply (src : FVec Ideal S2000x64 .f32) (hφ : FKind.Formats .f32)
    (hacc : (0x00000000#32 : BitVec 32) = FKind.add.neutral .f32 hφ) (q : Fin 64) :
    multiReduction .add [0] S64 src 0x00000000#32 Gen.reduces_S2000x64_S64 hφ hacc (ix1 q) = ∑ r : Fin 2000, src (ix2 r q) := by
  refine (Ideal.multiReduction_add_single src 0x00000000#32 Gen.reduces_S2000x64_S64 hφ hacc (ix1 q)).trans ?_
  exact Finset.sum_congr rfl fun k _ => congrArg src (lift_row q k)

/-- A length-64 vector viewed as a [1, 64] row reads its column. -/
theorem cast_row (v : FVec Ideal S64 .f32) (q : Fin 64) :
    shapeCast S1x64 v Gen.shapeCasts_S64_S1x64 (ix2 (0 : Fin 1) q) = v (ix1 q) := by
  refine (shapeCast_addUnit_apply ![64] v Gen.shapeCasts_S64_S1x64 (ix2 (0 : Fin 1) q)).trans ?_
  congr 1
  funext a
  match a with
  | ⟨0, _⟩ => rfl

/-- The first row's update at column `q`: the row as found plus the block's column sum. -/
theorem pay4_apply (x : Vec Ideal S2000x64 .f32) (xo : Vec Ideal S1x64 .f32) (q : Fin 64) :
    k5_pay4 (F := Ideal) x xo (ix2 (0 : Fin 1) q) = xo (ix2 (0 : Fin 1) q) + ∑ r : Fin 2000, x (ix2 r q) := by
  unfold k5_pay4 k5_pay3
  dsimp only
  refine (addf_apply _ _ _).trans ?_
  refine congrArg₂ (· + ·) (congrFun (shapeCast_self xo Gen.shapeCasts_S1x64_S1x64) _) ?_
  refine (cast_row _ q).trans ?_
  refine (rowsum_apply _ _ _ q).trans ?_
  exact Finset.sum_congr rfl fun r _ => congrFun (shapeCast_self x Gen.shapeCasts_S2000x64_S2000x64) _

/-- The second row's update at column `q`: the row as found plus the block's column sum of squares. -/
theorem pay5_apply (x : Vec Ideal S2000x64 .f32) (xo : Vec Ideal S1x64 .f32) (q : Fin 64) :
    k5_pay5 (F := Ideal) x xo (ix2 (0 : Fin 1) q) = xo (ix2 (0 : Fin 1) q) + ∑ r : Fin 2000, x (ix2 r q) * x (ix2 r q) := by
  unfold k5_pay5 k5_pay3
  dsimp only
  refine (addf_apply _ _ _).trans ?_
  refine congrArg₂ (· + ·) (congrFun (shapeCast_self xo Gen.shapeCasts_S1x64_S1x64) _) ?_
  refine (cast_row _ q).trans ?_
  refine (rowsum_apply _ _ _ q).trans ?_
  refine Finset.sum_congr rfl fun r _ => ?_
  refine (mulf_apply _ _ _).trans ?_
  rw [shapeCast_self x Gen.shapeCasts_S2000x64_S2000x64]

/-- The reset rows are zero. -/
theorem pay1_apply (j : S1x64.Idx) : k5_pay1 (F := Ideal) j = 0 := Ideal.ofBits_zero_f32
theorem pay2_apply (j : S1x64.Idx) : k5_pay2 (F := Ideal) j = 0 := Ideal.ofBits_zero_f32

end AtIdeal

/-! ## The rows after each point, and after the last -/

/-- Summing block by block is summing over the whole range: blocks of `b` consecutive terms, `a` of them. -/
theorem sum_blocks {M : Type*} [AddCommMonoid M] (f : ℕ → M) (b : ℕ) : ∀ a : ℕ,
    ∑ s ∈ Finset.range a, ∑ r : Fin b, f (b * s + r.val) = ∑ k ∈ Finset.range (b * a), f k
  | 0 => by simp
  | a + 1 => by
    rw [Finset.sum_range_succ, sum_blocks f b a, Nat.mul_succ, Finset.sum_range_add]
    exact congrArg _ (Finset.sum_range (fun x => f (b * a + x))).symm

section Run
open ValueIdx

variable (V : (c : Dev nD) → (b : Ref sig .tc) → Buf (Elt Ideal) ((c : Thread nD τ).loc b))

/-- The feature array as the region finds it. -/
abbrev xarr (c : Dev nD) : Vec Ideal S100000x64 .f32 := V c main_v66
/-- The block of 2000 rows that point `t` reads. -/
abbrev xblk (c : Dev nD) (t : Fin cfg5.N) : Vec Ideal S2000x64 .f32 := iblk5 V c 0 t

/-- Row `r` of point `t`'s block is row `2000 t + r` of the array. -/
theorem xblk_apply (c : Dev nD) (t : Fin cfg5.N) (r : Fin 2000) (q : Fin 64) (h : 2000 * t.val + r.val < 100000) :
    xblk V c t (ix2 r q) = xarr V c (ix2 ⟨2000 * t.val + r.val, h⟩ q) := by
  have hi : ∀ t : Fin cfg5.N, win5_0.index t 0 = t.val ∧ win5_0.index t 1 = 0 :=
    (by decide +kernel : ∀ t : Fin grid5.N, win5_0.index t 0 = t.val ∧ win5_0.index t 1 = 0)
  unfold xblk xarr iblk5
  rw [View.read_apply]
  show V c main_v66 _ = V c main_v66 _
  congr 1
  funext a
  apply Fin.ext
  match a with
  | ⟨0, _⟩ => show win5_0.index t 0 * 2000 + 1 * r.val = 2000 * t.val + r.val; rw [(hi t).1]; omega
  | ⟨1, _⟩ => show win5_0.index t 1 * 64 + 1 * q.val = q.val; rw [(hi t).2]; omega

/-- Column `q` of the array as a function of the row number (zero past the last row). -/
def colFn (c : Dev nD) (q : Fin 64) (k : ℕ) : EReal := if h : k < 100000 then xarr V c (ix2 ⟨k, h⟩ q) else 0

theorem blk_col (c : Dev nD) (t : Fin cfg5.N) (r : Fin 2000) (q : Fin 64) :
    xblk V c t (ix2 r q) = colFn V c q (2000 * t.val + r.val) := by
  have hN : cfg5.N = 50 := N_5
  have ht := t.isLt
  have h : 2000 * t.val + r.val < 100000 := by have := r.isLt; omega
  unfold colFn
  rw [dif_pos h]
  exact xblk_apply V c t r q h

/-- After point `n` the first row holds, at column `q`, the sum of that column over the rows of blocks `0 … n`. -/
theorem inv_sum (c : Dev nD) (q : Fin 64) : ∀ (n : ℕ) (h : n < cfg5.N),
    (outsAt5 V c n h).1 (ix2 (0 : Fin 1) q)
      = ∑ s ∈ Finset.range (n + 1), ∑ r : Fin 2000, colFn V c q (2000 * s + r.val)
  | 0, h => by
    rw [outsAt5_A V c ⟨0, h⟩ rfl]
    dsimp only
    refine (congrFun (piece_A_1 (F := Ideal) c (grid5.coords ⟨0, h⟩) (ms5_0 ⟨0, h⟩) (hs5_0 ⟨0, h⟩) (ms5_1 ⟨0, h⟩) (hs5_1 ⟨0, h⟩)
      (ms5_2 ⟨0, h⟩) (hs5_2 ⟨0, h⟩) ((hcond5_0 ⟨0, h⟩).mpr rfl) (xblk V c ⟨0, h⟩)) (ix2 (0 : Fin 1) q)).trans ?_
    refine (pay4_apply (xblk V c ⟨0, h⟩) (k5_pay1 (F := Ideal)) q).trans ?_
    rw [pay1_apply, zero_add, Finset.sum_range_one]
    exact Finset.sum_congr rfl fun r _ => blk_col V c ⟨0, h⟩ r q
  | n + 1, h => by
    have hN : cfg5.N = 50 := N_5
    have hB : ¬(⟨n + 1, h⟩ : Fin cfg5.N).val % 50 = 0 := by dsimp only; omega
    rw [outsAt5_B V c ⟨n + 1, h⟩ hB]
    dsimp only
    refine (congrFun (piece_B_1 (F := Ideal) c (grid5.coords ⟨n + 1, h⟩) (ms5_0 ⟨n + 1, h⟩) (hs5_0 ⟨n + 1, h⟩) (ms5_1 ⟨n + 1, h⟩) (hs5_1 ⟨n + 1, h⟩)
      (ms5_2 ⟨n + 1, h⟩) (hs5_2 ⟨n + 1, h⟩) (fun hh => hB ((hcond5_0 ⟨n + 1, h⟩).mp hh)) (xblk V c ⟨n + 1, h⟩)
      (outsAt5 V c n (Nat.lt_of_succ_lt h)).1 (outsAt5 V c n (Nat.lt_of_succ_lt h)).2) (ix2 (0 : Fin 1) q)).trans ?_
    refine (pay4_apply (xblk V c ⟨n + 1, h⟩) (outsAt5 V c n (Nat.lt_of_succ_lt h)).1 q).trans ?_
    rw [Finset.sum_range_succ _ (n + 1)]
    refine congrArg₂ (· + ·) (inv_sum c q n (Nat.lt_of_succ_lt h)) ?_
    exact Finset.sum_congr rfl fun r _ => blk_col V c ⟨n + 1, h⟩ r q

end Run

section Final
open ValueIdx

variable (V : (c : Dev nD) → (b : Ref sig .tc) → Buf (Elt Ideal) ((c : Thread nD τ).loc b))

/-- The same for the second row, with the squares. -/
theorem inv_sumsq (c : Dev nD) (q : Fin 64) : ∀ (n : ℕ) (h : n < cfg5.N),
    (outsAt5 V c n h).2 (ix2 (0 : Fin 1) q)
      = ∑ s ∈ Finset.range (n + 1), ∑ r : Fin 2000, colFn V c q (2000 * s + r.val) * colFn V c q (2000 * s + r.val)
  | 0, h => by
    rw [outsAt5_A V c ⟨0, h⟩ rfl]
    dsimp only
    refine (congrFun (piece_A_2 (F := Ideal) c (grid5.coords ⟨0, h⟩) (ms5_0 ⟨0, h⟩) (hs5_0 ⟨0, h⟩) (ms5_1 ⟨0, h⟩) (hs5_1 ⟨0, h⟩)
      (ms5_2 ⟨0, h⟩) (hs5_2 ⟨0, h⟩) ((hcond5_0 ⟨0, h⟩).mpr rfl) (xblk V c ⟨0, h⟩)) (ix2 (0 : Fin 1) q)).trans ?_
    refine (pay5_apply (xblk V c ⟨0, h⟩) (k5_pay2 (F := Ideal)) q).trans ?_
    rw [pay2_apply, zero_add, Finset.sum_range_one]
    exact Finset.sum_congr rfl fun r _ => by rw [blk_col V c ⟨0, h⟩ r q]
  | n + 1, h => by
    have hN : cfg5.N = 50 := N_5
    have hB : ¬(⟨n + 1, h⟩ : Fin cfg5.N).val % 50 = 0 := by dsimp only; omega
    rw [outsAt5_B V c ⟨n + 1, h⟩ hB]
    dsimp only
    refine (congrFun (piece_B_2 (F := Ideal) c (grid5.coords ⟨n + 1, h⟩) (ms5_0 ⟨n + 1, h⟩) (hs5_0 ⟨n + 1, h⟩) (ms5_1 ⟨n + 1, h⟩) (hs5_1 ⟨n + 1, h⟩)
      (ms5_2 ⟨n + 1, h⟩) (hs5_2 ⟨n + 1, h⟩) (fun hh => hB ((hcond5_0 ⟨n + 1, h⟩).mp hh)) (xblk V c ⟨n + 1, h⟩)
      (outsAt5 V c n (Nat.lt_of_succ_lt h)).1 (outsAt5 V c n (Nat.lt_of_succ_lt h)).2) (ix2 (0 : Fin 1) q)).trans ?_
    refine (pay5_apply (xblk V c ⟨n + 1, h⟩) (outsAt5 V c n (Nat.lt_of_succ_lt h)).2 q).trans ?_
    rw [Finset.sum_range_succ _ (n + 1)]
    refine congrArg₂ (· + ·) (inv_sumsq c q n (Nat.lt_of_succ_lt h)) ?_
    exact Finset.sum_congr rfl fun r _ => by rw [blk_col V c ⟨n + 1, h⟩ r q]

/-- The column function summed over all rows is the column sum of the array. -/
theorem sum_colFn (c : Dev nD) (q : Fin 64) (g : EReal → EReal) :
    ∑ k ∈ Finset.range 100000, g (colFn V c q k) = ∑ r : Fin 100000, g (xarr V c (ix2 r q)) := by
  rw [Finset.sum_range]
  exact Finset.sum_congr rfl fun r _ => by unfold colFn; rw [dif_pos r.isLt]

/-- The last point of the grid. -/
abbrev tLast : Fin cfg5.N := ⟨49, (by decide : 49 < grid5.N)⟩

/-- After the last point the first row is the column sums of the whole array. -/
theorem row1_last (c : Dev nD) (h : 49 < cfg5.N) : (outsAt5 V c 49 h).1 = KSpec.colSum (xarr V c) := by
  funext j
  obtain ⟨p, q, rfl⟩ : ∃ (p : Fin 1) (q : Fin 64), j = ix2 p q := ⟨j 0, j 1, eq_ix2 j⟩
  obtain rfl : p = 0 := Subsingleton.elim _ _
  rw [inv_sum V c q 49 h, sum_blocks (colFn V c q) 2000 50]
  exact sum_colFn V c q id

/-- After the last point the second row is the column sums of the squares. -/
theorem row2_last (c : Dev nD) (h : 49 < cfg5.N) : (outsAt5 V c 49 h).2 = KSpec.colSumSq (xarr V c) := by
  funext j
  obtain ⟨p, q, rfl⟩ : ∃ (p : Fin 1) (q : Fin 64), j = ix2 p q := ⟨j 0, j 1, eq_ix2 j⟩
  obtain rfl : p = 0 := Subsingleton.elim _ _
  rw [inv_sumsq V c q 49 h, sum_blocks (fun k => colFn V c q k * colFn V c q k) 2000 50]
  exact sum_colFn V c q (fun x => x * x)

/-- Both output windows sit at block (0, 0) at every point. -/
theorem idx1_zero : ∀ t : Fin cfg5.N, win5_1.index t 0 = 0 ∧ win5_1.index t 1 = 0 :=
  (by decide +kernel : ∀ t : Fin grid5.N, win5_1.index t 0 = 0 ∧ win5_1.index t 1 = 0)
theorem idx2_zero : ∀ t : Fin cfg5.N, win5_2.index t 0 = 0 ∧ win5_2.index t 1 = 0 :=
  (by decide +kernel : ∀ t : Fin grid5.N, win5_2.index t 0 = 0 ∧ win5_2.index t 1 = 0)
/-- and neither is cut: each block is the full [1, 64]. -/
theorem xsize1 : ∀ t : Fin cfg5.N, win5_1.xsize (grid5.coords t) 0 = 1 ∧ win5_1.xsize (grid5.coords t) 1 = 64 :=
  (by decide +kernel : ∀ t : Fin grid5.N, win5_1.xsize (grid5.coords t) 0 = 1 ∧ win5_1.xsize (grid5.coords t) 1 = 64)
theorem xsize2 : ∀ t : Fin cfg5.N, win5_2.xsize (grid5.coords t) 0 = 1 ∧ win5_2.xsize (grid5.coords t) 1 = 64 :=
  (by decide +kernel : ∀ t : Fin grid5.N, win5_2.xsize (grid5.coords t) 0 = 1 ∧ win5_2.xsize (grid5.coords t) 1 = 64)

/-- The one write-back of the first row, after the last point, writes the column sums: its block is the whole [1, 64] array. -/
theorem flushed1_eq (c : Dev nD) (t : Fin cfg5.N) (hf : (cfg5.win 1).flush t = true) :
    (dat5 V c).flushed 1 t = ((cfg5.win 1).blk t).view.read (Elt Ideal) (KSpec.colSum (xarr V c)) := by
  have hN : cfg5.N = 50 := N_5
  have h49 : t.val = 49 := by have := (flush5_1 t).mp hf; have := t.isLt; omega
  obtain rfl : t = tLast := Fin.ext h49
  show (cfg5.win 1).cut (grid5.coords tLast) ((dat5 V c).after 1 tLast) = _
  rw [after5_1, row1_last]
  have hz' : (fun a => win5_1.index tLast a * main_v67_0.ty.shape.size a) = fun _ => 0 := funext fun a => by
    match a with
    | ⟨0, _⟩ => show win5_1.index tLast 0 * 1 = 0; rw [(idx1_zero tLast).1]
    | ⟨1, _⟩ => show win5_1.index tLast 1 * 64 = 0; rw [(idx1_zero tLast).2]
  exact (Memref.read_access_unit_zero (Elt Ideal) main_v67_0 hz' (fun a => by rw [congrFun hz' a]; simp) (KSpec.colSum (xarr V c))).symm

/-- Likewise the second row's write-back writes the column sums of the squares. -/
theorem flushed2_eq (c : Dev nD) (t : Fin cfg5.N) (hf : (cfg5.win 2).flush t = true) :
    (dat5 V c).flushed 2 t = ((cfg5.win 2).blk t).view.read (Elt Ideal) (KSpec.colSumSq (xarr V c)) := by
  have hN : cfg5.N = 50 := N_5
  have h49 : t.val = 49 := by have := (flush5_2 t).mp hf; have := t.isLt; omega
  obtain rfl : t = tLast := Fin.ext h49
  show (cfg5.win 2).cut (grid5.coords tLast) ((dat5 V c).after 2 tLast) = _
  rw [after5_2, row2_last]
  have hz' : (fun a => win5_2.index tLast a * main_v67_1.ty.shape.size a) = fun _ => 0 := funext fun a => by
    match a with
    | ⟨0, _⟩ => show win5_2.index tLast 0 * 1 = 0; rw [(idx2_zero tLast).1]
    | ⟨1, _⟩ => show win5_2.index tLast 1 * 64 = 0; rw [(idx2_zero tLast).2]
  exact (Memref.read_access_unit_zero (Elt Ideal) main_v67_1 hz' (fun a => by rw [congrFun hz' a]; simp) (KSpec.colSumSq (xarr V c))).symm

end Final

end R5

open R5

/-! ## The two output arrays after the region -/

variable (V : (c : Dev nD) → (b : Ref sig .tc) → Buf (Elt Ideal) ((c : Thread nD τ).loc b))

/-- Output array 1 ends as the column sums of the input array: the last point's block, the whole array, is written back. -/
theorem region5_sum (c : Dev nD) :
    (dat5 V c).arrAt 1 cfg5.N = KSpec.colSum (V c main_v66) :=
  (dat5 V c).arrAt_eq_of_cover 1 (KSpec.colSum (xarr V c)) (flushed1_eq V c) fun i =>
    ⟨tLast, (flush5_1 tLast).mpr rfl, by
      show i ∈ ((View.whole main_v67_0).slice (win5_1.rect tLast)).set
      rw [View.set_slice_whole, Rect.mem_set_unit]
      intro a
      have h0 : (i 0 : Nat) < 1 := (i 0).isLt
      have h1 : (i 1 : Nat) < 64 := (i 1).isLt
      match a with
      | ⟨0, _⟩ =>
        show win5_1.index tLast 0 * win5_1.size 0 ≤ (i 0 : Nat) ∧ (i 0 : Nat) < win5_1.index tLast 0 * win5_1.size 0 + win5_1.xsize (grid5.coords tLast) 0
        rw [(idx1_zero tLast).1, (xsize1 tLast).1]; omega
      | ⟨1, _⟩ =>
        show win5_1.index tLast 1 * win5_1.size 1 ≤ (i 1 : Nat) ∧ (i 1 : Nat) < win5_1.index tLast 1 * win5_1.size 1 + win5_1.xsize (grid5.coords tLast) 1
        rw [(idx1_zero tLast).2, (xsize1 tLast).2]; omega⟩

/-- Output array 2 ends as the column sums of the squares. -/
theorem region5_sumsq (c : Dev nD) :
    (dat5 V c).arrAt 2 cfg5.N = KSpec.colSumSq (V c main_v66) :=
  (dat5 V c).arrAt_eq_of_cover 2 (KSpec.colSumSq (xarr V c)) (flushed2_eq V c) fun i =>
    ⟨tLast, (flush5_2 tLast).mpr rfl, by
      show i ∈ ((View.whole main_v67_1).slice (win5_2.rect tLast)).set
      rw [View.set_slice_whole, Rect.mem_set_unit]
      intro a
      have h0 : (i 0 : Nat) < 1 := (i 0).isLt
      have h1 : (i 1 : Nat) < 64 := (i 1).isLt
      match a with
      | ⟨0, _⟩ =>
        show win5_2.index tLast 0 * win5_2.size 0 ≤ (i 0 : Nat) ∧ (i 0 : Nat) < win5_2.index tLast 0 * win5_2.size 0 + win5_2.xsize (grid5.coords tLast) 0
        rw [(idx2_zero tLast).1, (xsize2 tLast).1]; omega
      | ⟨1, _⟩ =>
        show win5_2.index tLast 1 * win5_2.size 1 ≤ (i 1 : Nat) ∧ (i 1 : Nat) < win5_2.index tLast 1 * win5_2.size 1 + win5_2.xsize (grid5.coords tLast) 1
        rw [(idx2_zero tLast).2, (xsize2 tLast).2]; omega⟩

end Cert.KernelIdeal.Val

end
-- ==== Proof.Region6.lean ====
/-
  Region 6: the normalisation, pointwise on row blocks of 2000, the mean, variance, scale and shift rows read whole at every point.

  The output array [100000, 64] is written in 50 row blocks of 2000 rows. At point t the body reads rows
  2000 t … 2000 t + 1999 of the feature array (window 0 moves with the output down the rows) and, at every point, the
  same block (0, 0) of each of the four [1, 64] rows, which is the whole row. Each row is laid along the 2000 rows of
  the block, so the entry at (p, q) is

      (x (p, q) - mean (0, q)) · rsqrt (variance (0, q) + eps) · scale (0, q) + shift (0, q) :

  the body loads the variance row before the mean row (it adds eps to the former and takes the reciprocal square root;
  the latter it subtracts from the features). What point t writes back is therefore block t of `KSpec.bnApply` of the
  five arrays, and the 50 blocks tile the array: row r lies in block r / 2000.
-/
import proofs.«106122_j57346403336483_1_alg».proof.Proof.Gen.KernelIdeal.Frame
import proofs.«106122_j57346403336483_1_alg».proof.Proof.KSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.SL.Sem
open Idealize.ShloMosaic.Pipeline (Dat Cfg Window)
open Cert.KernelIdeal Cert.KernelIdeal.Gen

/-- The six index maps over the 50 points: the feature window's and the output window's block index is (t, 0); each
    of the four rows is read at block (0, 0) at every point. -/
theorem rows6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

variable [Facts]
open Facts₀ Facts

/-- Every load rectangle of the body and its one store rectangle start at row 0, column 0. -/
theorem origin6 : (![0, 0] : Fin 2 → Nat) = fun _ => 0 :=
  funext fun a => match a with
    | ⟨0, _⟩ => rfl
    | ⟨1, _⟩ => rfl

/-- The body's arithmetic at the entry (p, q) of the block. The shape casts are to the same shapes; a [1, 64] row laid
    along the 2000 rows reads its column q; `xva` is the row the body adds eps to and takes the reciprocal square root
    of, `xmu` the row it subtracts. -/
theorem norm6_entry (x0 : Vec Ideal S2000x64 .f32) (xva xmu xg xb : Vec Ideal S1x64 .f32) (p : Fin 2000) (q : Fin 64) :
    k6_pay1 (F := Ideal) x0 xva xmu xg xb (ValueIdx.ix2 p q)
      = (x0 (ValueIdx.ix2 p q) - xmu (ValueIdx.ix2 (0 : Fin 1) q))
          * Ideal.rsqrt (xva (ValueIdx.ix2 (0 : Fin 1) q) + Ideal.ofBits .f32 0x3727C5AC#32)
          * xg (ValueIdx.ix2 (0 : Fin 1) q) + xb (ValueIdx.ix2 (0 : Fin 1) q) := by
  unfold k6_pay1
  simp only [shapeCast_self]
  show (x0 (ValueIdx.ix2 p q) - broadcastTo S2000x64 xmu _ (ValueIdx.ix2 p q))
        * broadcastTo S2000x64 (rsqrt (addf (F := Ideal) xva (broadcast S1x64 (Scalar.ofBits .f32 0x3727C5AC#32))))
            _ (ValueIdx.ix2 p q)
        * broadcastTo S2000x64 xg _ (ValueIdx.ix2 p q)
      + broadcastTo S2000x64 xb _ (ValueIdx.ix2 p q) = _
  rw [ValueIdx.broadcastTo_1b_ab_apply xmu, ValueIdx.broadcastTo_1b_ab_apply xg, ValueIdx.broadcastTo_1b_ab_apply xb,
    ValueIdx.broadcastTo_1b_ab_apply (rsqrt (addf (F := Ideal) xva (broadcast S1x64 (Scalar.ofBits .f32 0x3727C5AC#32))))]
  rfl

/-- So, when the loaded feature block holds the array `h` at the array index `i` that (p, q) stands for, `i` is in
    column q, and the four loaded rows are the arrays' rows at column q, the body's result at (p, q) is the
    normalisation of `h` by the mean, variance, scale and shift rows at `i`. -/
theorem norm6_block (h : KSpec.Arr S100000x64) (mu va g b : KSpec.Arr S1x64)
    (x0 : Vec Ideal S2000x64 .f32) (xva xmu xg xb : Vec Ideal S1x64 .f32) (p : Fin 2000) (q : Fin 64)
    (i : S100000x64.Idx) (hq : KSpec.col i = q) (e0 : x0 (ValueIdx.ix2 p q) = h i)
    (emu : xmu (ValueIdx.ix2 (0 : Fin 1) q) = mu (ValueIdx.ix2 (0 : Fin 1) q))
    (eva : xva (ValueIdx.ix2 (0 : Fin 1) q) = va (ValueIdx.ix2 (0 : Fin 1) q))
    (eg : xg (ValueIdx.ix2 (0 : Fin 1) q) = g (ValueIdx.ix2 (0 : Fin 1) q))
    (eb : xb (ValueIdx.ix2 (0 : Fin 1) q) = b (ValueIdx.ix2 (0 : Fin 1) q)) :
    k6_pay1 (F := Ideal) x0 xva xmu xg xb (ValueIdx.ix2 p q) = KSpec.bnApply h mu va g b i := by
  rw [norm6_entry, e0, emu, eva, eg, eb]
  subst hq
  rfl

variable (V : (c : Dev nD) → (b : Ref sig .tc) → Buf (Elt Ideal) ((c : Thread nD τ).loc b))

/-- One of the four rows, as the region finds it, read through its window's block at point `t`: the block index is
    (0, 0) and the block is the whole row, so the block's entry (0, q) is the array's entry (0, q). Stated once over an
    array, a window's view embedding and its two decided block indices, for the four rows alike. -/
theorem row6_at (a : KSpec.Arr S1x64) (emb : S1x64.Idx → S1x64.Idx) (n0 n1 : Nat) (q : Fin 64)
    (h0 : n0 = 0) (h1 : n1 = 0)
    (hemb0 : ((emb (ValueIdx.ix2 (0 : Fin 1) q)) 0).val = n0 * 1 + 1 * (0 : Fin 1).val)
    (hemb1 : ((emb (ValueIdx.ix2 (0 : Fin 1) q)) 1).val = n1 * 64 + 1 * q.val) :
    a (emb (ValueIdx.ix2 (0 : Fin 1) q)) = a (ValueIdx.ix2 (0 : Fin 1) q) := by
  refine congrArg a (funext fun ax => Fin.ext ?_)
  match ax with
  | ⟨0, _⟩ =>
    show ((emb (ValueIdx.ix2 (0 : Fin 1) q)) 0).val = (0 : Fin 1).val
    rw [hemb0, h0]; omega
  | ⟨1, _⟩ =>
    show ((emb (ValueIdx.ix2 (0 : Fin 1) q)) 1).val = q.val
    rw [hemb1, h1]; omega

/-- What point `t` writes back is block `t` of the normalisation of the feature array by the four rows, all as the
    region finds them: the feature block is the array read through the same rows and columns as the output block, and
    each row's block is the row. -/
theorem wrote6 (c : Dev nD) (t : Fin cfg6.N) :
    (dat6 V c).flushed 5 t
      = ((cfg6.win 5).blk t).view.read (Elt Ideal)
          (KSpec.bnApply (V c main_v66) (V c main_v76) (V c main_v77) (V c main_v78) (V c main_v79)) := by
  show (cfg6.win 5).cut (grid6.coords t) ((dat6 V c).after 5 t) = _
  rw [after6_5]
  unfold out6_5
  rw [View.canon_unit_zero origin6]
  simp only [View.ld_unit_zero (S := S2000x64) origin6, View.ld_unit_zero (S := S1x64) origin6]
  obtain ⟨r0, c0, r1, c1, r2, c2, r3, c3, r4, c4, r5, c5⟩ := rows6 t
  funext (j : S2000x64.Idx)
  obtain ⟨p, q, rfl⟩ : ∃ (p : Fin 2000) (q : Fin 64), j = ValueIdx.ix2 p q := ⟨j 0, j 1, ValueIdx.eq_ix2 j⟩
  refine norm6_block (V c main_v66) (V c main_v76) (V c main_v77) (V c main_v78) (V c main_v79)
    (iblk6 V c 0 t) (iblk6 V c 2 t) (iblk6 V c 1 t) (iblk6 V c 3 t) (iblk6 V c 4 t) p q
    (((cfg6.win 5).blk t).view.emb (ValueIdx.ix2 p q)) ?_ ?_ ?_ ?_ ?_ ?_
  · refine Fin.ext ?_
    show win6_5.index t (1 : Fin 2) * 64 + 1 * q.val = q.val
    rw [c5]; omega
  · show V c main_v66 (((cfg6.win 0).blk t).view.emb (ValueIdx.ix2 p q))
        = V c main_v66 (((cfg6.win 5).blk t).view.emb (ValueIdx.ix2 p q))
    refine congrArg (V c main_v66) (funext fun a => Fin.ext ?_)
    match a with
    | ⟨0, _⟩ =>
      show win6_0.index t (0 : Fin 2) * 2000 + 1 * p.val = win6_5.index t (0 : Fin 2) * 2000 + 1 * p.val
      rw [r0, r5]
    | ⟨1, _⟩ =>
      show win6_0.index t (1 : Fin 2) * 64 + 1 * q.val = win6_5.index t (1 : Fin 2) * 64 + 1 * q.val
      rw [c0, c5]
  · exact row6_at (V c main_v76) ((cfg6.win 1).blk t).view.emb (win6_1.index t (0 : Fin 2)) (win6_1.index t (1 : Fin 2)) q
      r1 c1 rfl rfl
  · exact row6_at (V c main_v77) ((cfg6.win 2).blk t).view.emb (win6_2.index t (0 : Fin 2)) (win6_2.index t (1 : Fin 2)) q
      r2 c2 rfl rfl
  · exact row6_at (V c main_v78) ((cfg6.win 3).blk t).view.emb (win6_3.index t (0 : Fin 2)) (win6_3.index t (1 : Fin 2)) q
      r3 c3 rfl rfl
  · exact row6_at (V c main_v79) ((cfg6.win 4).blk t).view.emb (win6_4.index t (0 : Fin 2)) (win6_4.index t (1 : Fin 2)) q
      r4 c4 rfl rfl

/-- An index of the array is in point `t`'s output block iff each coordinate is in the block's range on its axis. -/
theorem mem_rows6 (t : Fin cfg6.N) (i : S100000x64.Idx) :
    i ∈ ((cfg6.win 5).blk t).view.set
      ↔ ∀ a : Fin 2, win6_5.index t a * S2000x64.size a ≤ (i a).val
          ∧ (i a).val < win6_5.index t a * S2000x64.size a + S2000x64.size a := by
  show i ∈ ((View.whole main_v80).slice (win6_5.rect t)).set ↔ _
  rw [View.set_slice_whole, Rect.mem_set_unit]
  exact Iff.rfl

/-- The 50 row blocks tile the array: row `r` is in the block of point `r / 2000`. -/
theorem tiled6 (i : S100000x64.Idx) :
    ∃ t : Fin cfg6.N, (cfg6.win 5).flush t = true ∧ i ∈ ((cfg6.win 5).blk t).view.set := by
  have hi0 : (i 0).val < 100000 := (i 0).isLt
  have hi1 : (i 1).val < 64 := (i 1).isLt
  have hN : cfg6.N = 50 := N_6
  let t : Fin cfg6.N := ⟨(i 0).val / 2000, by rw [hN]; omega⟩
  obtain ⟨-, -, -, -, -, -, -, -, -, -, r5, c5⟩ := rows6 t
  have ht : t.val = (i 0).val / 2000 := rfl
  refine ⟨t, flush6_5 t, ?_⟩
  rw [mem_rows6]
  intro a
  match a with
  | ⟨0, _⟩ =>
    show win6_5.index t (0 : Fin 2) * 2000 ≤ (i 0).val ∧ (i 0).val < win6_5.index t (0 : Fin 2) * 2000 + 2000
    rw [r5, ht]; omega
  | ⟨1, _⟩ =>
    show win6_5.index t (1 : Fin 2) * 64 ≤ (i 1).val ∧ (i 1).val < win6_5.index t (1 : Fin 2) * 64 + 64
    rw [c5]; omega

theorem region6 (c : Dev nD) :
    (dat6 V c).arrAt 5 cfg6.N = KSpec.bnApply (V c main_v66) (V c main_v76) (V c main_v77) (V c main_v78) (V c main_v79) :=
  (dat6 V c).arrAt_eq_of_cover 5 _ (fun t _ => wrote6 V c t) tiled6

end Cert.KernelIdeal.Val

end
-- ==== Proof.KChain.lean ====
/-
  The kernel program's result buffer after the run, read back through the program: each pallas_call's output array is
  its stage function of the arrays it was entered with, and each stretch of host operations between two calls its
  operations' term, so the last call's output is the composition `KSpec.out` of the argument arrays.
-/
import proofs.«106122_j57346403336483_1_alg».proof.Proof.Gen.KernelIdeal.Frame
import proofs.«106122_j57346403336483_1_alg».proof.Proof.KSpec
import proofs.«106122_j57346403336483_1_alg».proof.Proof.Region0
import proofs.«106122_j57346403336483_1_alg».proof.Proof.Region1
import proofs.«106122_j57346403336483_1_alg».proof.Proof.Region2
import proofs.«106122_j57346403336483_1_alg».proof.Proof.Region3
import proofs.«106122_j57346403336483_1_alg».proof.Proof.Region4
import proofs.«106122_j57346403336483_1_alg».proof.Proof.Region5
import proofs.«106122_j57346403336483_1_alg».proof.Proof.Region6
import Idealize.ShloMosaic.Lib.StableHlo.Run

set_option maxRecDepth 16384

noncomputable section

namespace Cert.KernelIdeal.Val

open Idealize.ShloMosaic Idealize.ShloMosaic.TcCoe Idealize.SL.Sem Idealize.ShloMosaic.StableHlo
open Cert.KernelIdeal Cert.KernelIdeal.Gen

variable [Facts]
open Facts₀ Facts

variable (m : (ℓ : Loc nD τ sig) → Buf (Elt Ideal) ℓ) (ρ : Dev nD → PrngReg)

/-! The walk is outside-in, one buffer at one boundary at a time. A buffer that a stretch of host operations or a call
    does not write is carried back unchanged to the boundary after its writer (a call leaves its input arrays as
    entered); a buffer a stretch writes is its operations' term over the stretch's entry contents; a call's output
    array is its stage function of the entry contents of its input arrays. The argument arrays are written by nobody,
    so at every boundary they hold the launch contents. -/

/-! ## Carrying a buffer back across the boundaries that do not write it -/

/-- Steps the buffer `b` on the left of the goal back across every call that has no array at `b` and every stretch of
    host operations none of which writes `b`, as far as that goes. -/
local macro "carry_back" b:ident : tactic => `(tactic| (
  repeat (first
    | rw [W17_of_ne _ _ _ $b (by decide)] | rw [W15_of_ne _ _ _ $b (by decide)] | rw [W14_of_ne _ _ _ $b (by decide)]
    | rw [W12_of_ne _ _ _ $b (by decide)] | rw [W10_of_ne _ _ _ $b (by decide)] | rw [W8_of_ne _ _ _ $b (by decide)]
    | rw [W6_of_ne _ _ _ $b (by decide)]
    | (refine (StableHlo.after_of_forall_not_mem (b := Proc.devRef .tc $b) _ _ (List.forall_iff_forall_mem.mp ?_)).trans ?_
       · simp only [hostOps0, hostOps0_1, hostOps0_2, hostOps0_3, hostOps0_4, hostOps1, hostOps2, hostOps3, hostOps4, hostOps6,
           List.flatten_cons, List.flatten_nil, List.append_nil, List.cons_append, List.nil_append, List.Forall,
           StableHlo.nullary_writes, StableHlo.unary_writes, StableHlo.binary_writes, StableHlo.ternary_writes,
           StableHlo.quaternary_writes, StableHlo.reshape_writes, StableHlo.binaryIndexed_writes, Finset.mem_singleton]
         (repeat' apply And.intro) <;> exact StableHlo.devRef_ne_of_ne (by decide)))))

/-! ## The launch contents of the argument arrays -/

/-- The edge sources and destinations, the node features, the dense layer's weights and bias, the two graph layers'
    weights and biases, and the normalisation's scale and shift, as launched on core `c`. -/
abbrev aSrc (c : Dev nD) : KSpec.EIdx := m ((c.tc : Thread nD τ).loc main_arg0)
abbrev aDst (c : Dev nD) : KSpec.EIdx := m ((c.tc : Thread nD τ).loc main_arg1)
abbrev aX (c : Dev nD) : KSpec.Arr S100000x128 := m ((c.tc : Thread nD τ).loc main_arg2)
abbrev aFcw (c : Dev nD) : KSpec.Arr S128x64 := m ((c.tc : Thread nD τ).loc main_arg3)
abbrev aFcb (c : Dev nD) : KSpec.Arr S64 := m ((c.tc : Thread nD τ).loc main_arg4)
abbrev aW1 (c : Dev nD) : KSpec.Arr S64x64 := m ((c.tc : Thread nD τ).loc main_arg5)
abbrev aB1 (c : Dev nD) : KSpec.Arr S64 := m ((c.tc : Thread nD τ).loc main_arg6)
abbrev aW2 (c : Dev nD) : KSpec.Arr S64x64 := m ((c.tc : Thread nD τ).loc main_arg7)
abbrev aB2 (c : Dev nD) : KSpec.Arr S64 := m ((c.tc : Thread nD τ).loc main_arg8)
abbrev aG (c : Dev nD) : KSpec.Arr S64 := m ((c.tc : Thread nD τ).loc main_arg9)
abbrev aBe (c : Dev nD) : KSpec.Arr S64 := m ((c.tc : Thread nD τ).loc main_arg10)

theorem W2_dst (c : Dev nD) : W2 m ρ c (Proc.devRef .tc main_arg1) = aDst m c := by carry_back main_arg1; rfl
theorem W4_src (c : Dev nD) : W4 m ρ c (Proc.devRef .tc main_arg0) = aSrc m c := by carry_back main_arg0; rfl
theorem W4_fcb (c : Dev nD) : W4 m ρ c (Proc.devRef .tc main_arg4) = aFcb m c := by carry_back main_arg4; rfl
theorem W5_x (c : Dev nD) : W5 m ρ c (Proc.devRef .tc main_arg2) = aX m c := by carry_back main_arg2; rfl
theorem W5_fcw (c : Dev nD) : W5 m ρ c (Proc.devRef .tc main_arg3) = aFcw m c := by carry_back main_arg3; rfl
theorem W7_w1 (c : Dev nD) : W7 m ρ c (Proc.devRef .tc main_arg5) = aW1 m c := by carry_back main_arg5; rfl
theorem W8_src (c : Dev nD) : W8 m ρ c (Proc.devRef .tc main_arg0) = aSrc m c := by carry_back main_arg0; rfl
theorem W8_dst (c : Dev nD) : W8 m ρ c (Proc.devRef .tc main_arg1) = aDst m c := by carry_back main_arg1; rfl
theorem W8_b1 (c : Dev nD) : W8 m ρ c (Proc.devRef .tc main_arg6) = aB1 m c := by carry_back main_arg6; rfl
theorem W11_w2 (c : Dev nD) : W11 m ρ c (Proc.devRef .tc main_arg7) = aW2 m c := by carry_back main_arg7; rfl
theorem W12_src (c : Dev nD) : W12 m ρ c (Proc.devRef .tc main_arg0) = aSrc m c := by carry_back main_arg0; rfl
theorem W12_dst (c : Dev nD) : W12 m ρ c (Proc.devRef .tc main_arg1) = aDst m c := by carry_back main_arg1; rfl
theorem W12_b2 (c : Dev nD) : W12 m ρ c (Proc.devRef .tc main_arg8) = aB2 m c := by carry_back main_arg8; rfl
theorem W15_g (c : Dev nD) : W15 m ρ c (Proc.devRef .tc main_arg9) = aG m c := by carry_back main_arg9; rfl
theorem W15_be (c : Dev nD) : W15 m ρ c (Proc.devRef .tc main_arg10) = aBe m c := by carry_back main_arg10; rfl

/-! ## Before the first call: the degree norms and the dense layer's bias row -/

/-- The edge weights: one per edge. -/
def ones : KSpec.Arr S800000 :=
  broadcastInDim S800000 ![] Gen.bcast_S_S800000 (constant (F := Ideal) S_ .f32 0x3F800000#32)

/-- The number of edges whose endpoint array `idx` names each node. -/
def deg (idx : KSpec.EIdx) : KSpec.Arr S100000 :=
  Host.scatterAdd (F := Ideal) scatter_S100000_S800000x1_S800000_n_0_0_1
    (broadcastInDim S100000 ![] Gen.bcast_S_S100000 (constant (F := Ideal) S_ .f32 0x00000000#32))
    (broadcastInDim S800000x1 ![0] Gen.bcast_S800000_S800000x1_0 idx) ones

/-- That number clipped below at one. -/
def clipDeg (idx : KSpec.EIdx) : KSpec.Arr S100000 :=
  maximumf (F := Ideal) (broadcastInDim S100000 ![] Gen.bcast_S_S100000 (id (constant (F := Ideal) S_ .f32 0x3F800000#32))) (deg idx)

/-- The degree norm is the clipped degree to the power minus one half. -/
theorem norm_eq (idx : KSpec.EIdx) :
    KSpec.norm idx = Host.powf (F := Ideal) (clipDeg idx)
      (broadcastInDim S100000 ![] Gen.bcast_S_S100000 (constant (F := Ideal) S_ .f32 0xBF000000#32)) := rfl

theorem W1_ones (c : Dev nD) : W1 m ρ c (Proc.devRef .tc main_v0) = ones := by
  show StableHlo.after hostOps0 (W0 m ρ c) (Proc.devRef .tc main_v0) = _
  generalize W0 m ρ c = V
  after_results
  rfl

theorem W1_degSrc (c : Dev nD) : W1 m ρ c (Proc.devRef .tc main_v3) = deg (aSrc m c) := by
  show StableHlo.after hostOps0 (W0 m ρ c) (Proc.devRef .tc main_v3) = _
  generalize hV : W0 m ρ c = V
  after_results
  subst hV
  rfl

theorem W1_one (c : Dev nD) : W1 m ρ c (Proc.devRef .tc main_cst_1) = constant (F := Ideal) S_ .f32 0x3F800000#32 := by
  show StableHlo.after hostOps0 (W0 m ρ c) (Proc.devRef .tc main_cst_1) = _
  generalize W0 m ρ c = V
  after_results

/-- One clip stretch, whatever the entry contents `V`: the degree array `d` clipped below at the unit constant `k`
    (the transports of a value between a buffer's type and its tensor type are identities). -/
theorem clip_src_of (V : Valuation τ sig (Elt Ideal)) (k : KSpec.Arr S_) (d : KSpec.Arr S100000)
    (hk : V (Proc.devRef .tc main_cst_1) = k) (hd : V (Proc.devRef .tc main_v3) = d) :
    StableHlo.after hostOps0_1 V (Proc.devRef .tc main_v4)
      = maximumf (F := Ideal) (broadcastInDim S100000 ![] Gen.bcast_S_S100000 (id k)) d := by
  after_results
  rw [hk, hd]
  rfl

theorem W2_clipSrc (c : Dev nD) : W2 m ρ c (Proc.devRef .tc main_v4) = clipDeg (aSrc m c) :=
  clip_src_of (W1 m ρ c) _ _ (W1_one m ρ c) (W1_degSrc m ρ c)

theorem W2_ones (c : Dev nD) : W2 m ρ c (Proc.devRef .tc main_v0) = ones := by
  carry_back main_v0; exact W1_ones m ρ c

theorem W3_degDst (c : Dev nD) : W3 m ρ c (Proc.devRef .tc main_v7) = deg (aDst m c) := by
  show StableHlo.after hostOps0_2 (W2 m ρ c) (Proc.devRef .tc main_v7) = _
  generalize hV : W2 m ρ c = V
  after_results
  subst hV
  rw [W2_dst, W2_ones]
  rfl

theorem W3_one (c : Dev nD) : W3 m ρ c (Proc.devRef .tc main_cst_3) = constant (F := Ideal) S_ .f32 0x3F800000#32 := by
  show StableHlo.after hostOps0_2 (W2 m ρ c) (Proc.devRef .tc main_cst_3) = _
  generalize W2 m ρ c = V
  after_results

theorem clip_dst_of (V : Valuation τ sig (Elt Ideal)) (k : KSpec.Arr S_) (d : KSpec.Arr S100000)
    (hk : V (Proc.devRef .tc main_cst_3) = k) (hd : V (Proc.devRef .tc main_v7) = d) :
    StableHlo.after hostOps0_3 V (Proc.devRef .tc main_v8)
      = maximumf (F := Ideal) (broadcastInDim S100000 ![] Gen.bcast_S_S100000 (id k)) d := by
  after_results
  rw [hk, hd]
  rfl

theorem W4_clipDst (c : Dev nD) : W4 m ρ c (Proc.devRef .tc main_v8) = clipDeg (aDst m c) :=
  clip_dst_of (W3 m ρ c) _ _ (W3_one m ρ c) (W3_degDst m ρ c)

theorem W4_clipSrc (c : Dev nD) : W4 m ρ c (Proc.devRef .tc main_v4) = clipDeg (aSrc m c) := by
  carry_back main_v4; exact W2_clipSrc m ρ c

theorem W5_normSrc (c : Dev nD) : W5 m ρ c (Proc.devRef .tc main_v17) = KSpec.normSrc (aSrc m c) := by
  show StableHlo.after hostOps0_4 (W4 m ρ c) (Proc.devRef .tc main_v17) = _
  generalize hV : W4 m ρ c = V
  after_results
  subst hV
  rw [W4_clipSrc, W4_src]
  rfl

theorem W5_normDst (c : Dev nD) : W5 m ρ c (Proc.devRef .tc main_v19) = KSpec.norm (aDst m c) := by
  show StableHlo.after hostOps0_4 (W4 m ρ c) (Proc.devRef .tc main_v19) = _
  generalize hV : W4 m ρ c = V
  after_results
  subst hV
  rw [W4_clipDst]
  rfl

theorem W5_fcbRow (c : Dev nD) : W5 m ρ c (Proc.devRef .tc main_v20) = KSpec.rowOf (aFcb m c) := by
  show StableHlo.after hostOps0_4 (W4 m ρ c) (Proc.devRef .tc main_v20) = _
  generalize hV : W4 m ρ c = V
  after_results
  subst hV
  rw [W4_fcb]
  rfl

/-! ## The features after the dense layer and after each graph layer, of the launch contents -/

def f0 (c : Dev nD) : KSpec.Arr S100000x64 := KSpec.mm128 (aX m c) (aFcw m c) (KSpec.rowOf (aFcb m c))
def f1 (c : Dev nD) : KSpec.Arr S100000x64 := KSpec.layer (f0 m c) (aW1 m c) (aB1 m c) (aSrc m c) (aDst m c)
def f2 (c : Dev nD) : KSpec.Arr S100000x64 := KSpec.layer (f1 m c) (aW2 m c) (aB2 m c) (aSrc m c) (aDst m c)

/-- The zero bias vector of the graph layers' linear maps. -/
def zvec : KSpec.Arr S64 := broadcastInDim S64 ![] Gen.bcast_S_S64 (constant (F := Ideal) S_ .f32 0x00000000#32)

/-! ## The dense layer (call 0) -/

theorem W6_f0 (c : Dev nD) : W6 m ρ c (Proc.devRef .tc main_v21) = f0 m c := by
  refine (W6_arr m ρ c 3).trans ((region0 (V5 m ρ) c).trans ?_)
  show KSpec.mm128 (W5 m ρ c (Proc.devRef .tc main_arg2)) (W5 m ρ c (Proc.devRef .tc main_arg3)) (W5 m ρ c (Proc.devRef .tc main_v20)) = _
  rw [W5_x, W5_fcw, W5_fcbRow]
  rfl

/-! ## The first graph layer (calls 1 and 2 and the aggregation between them) -/

theorem W7_zvec (c : Dev nD) : W7 m ρ c (Proc.devRef .tc main_v22) = zvec := by
  show StableHlo.after hostOps1 (W6 m ρ c) (Proc.devRef .tc main_v22) = _
  after_results
  rfl

theorem W7_zrow (c : Dev nD) : W7 m ρ c (Proc.devRef .tc main_v23) = KSpec.zrow := by
  show StableHlo.after hostOps1 (W6 m ρ c) (Proc.devRef .tc main_v23) = _
  after_results
  rfl

theorem W7_f0 (c : Dev nD) : W7 m ρ c (Proc.devRef .tc main_v21) = f0 m c := by
  carry_back main_v21; exact W6_f0 m ρ c

theorem W8_lin1 (c : Dev nD) : W8 m ρ c (Proc.devRef .tc main_v24) = KSpec.mm64 (f0 m c) (aW1 m c) KSpec.zrow := by
  refine (W8_arr m ρ c 3).trans ((region1 (V7 m ρ) c).trans ?_)
  show KSpec.mm64 (W7 m ρ c (Proc.devRef .tc main_v21)) (W7 m ρ c (Proc.devRef .tc main_arg5)) (W7 m ρ c (Proc.devRef .tc main_v23)) = _
  rw [W7_f0, W7_w1, W7_zrow]

theorem W8_normSrc (c : Dev nD) : W8 m ρ c (Proc.devRef .tc main_v17) = KSpec.normSrc (aSrc m c) := by
  carry_back main_v17; exact W5_normSrc m ρ c

theorem W8_normDst (c : Dev nD) : W8 m ρ c (Proc.devRef .tc main_v19) = KSpec.norm (aDst m c) := by
  carry_back main_v19; exact W5_normDst m ρ c

theorem W9_agg1 (c : Dev nD) :
    W9 m ρ c (Proc.devRef .tc main_v43) = KSpec.agg (KSpec.mm64 (f0 m c) (aW1 m c) KSpec.zrow) (aSrc m c) (aDst m c) (aB1 m c) := by
  show StableHlo.after hostOps2 (W8 m ρ c) (Proc.devRef .tc main_v43) = _
  after_results_simp
  rw [W8_lin1, W8_src, W8_dst, W8_b1, W8_normSrc, W8_normDst]
  rfl

/-- Call 1 reads the dense layer's features through an input window and leaves them as entered. -/
theorem W8_f0 (c : Dev nD) : W8 m ρ c (Proc.devRef .tc main_v21) = f0 m c :=
  ((W8_arr m ρ c 0).trans (((dat1 (V7 m ρ) c).arrAt_in 0 rfl _).trans (A_eq1 (V7 m ρ) c 0))).trans (W7_f0 m ρ c)

theorem W9_f0 (c : Dev nD) : W9 m ρ c (Proc.devRef .tc main_v21) = f0 m c := by
  carry_back main_v21; exact W8_f0 m ρ c

theorem W10_f1 (c : Dev nD) : W10 m ρ c (Proc.devRef .tc main_v44) = f1 m c := by
  refine (W10_arr m ρ c 2).trans ((region2 (V9 m ρ) c).trans ?_)
  show KSpec.comb (W9 m ρ c (Proc.devRef .tc main_v21)) (W9 m ρ c (Proc.devRef .tc main_v43)) = _
  rw [W9_f0, W9_agg1]
  rfl

/-! ## The second graph layer (calls 3 and 4 and the aggregation between them) -/

theorem W10_zvec (c : Dev nD) : W10 m ρ c (Proc.devRef .tc main_v22) = zvec := by
  carry_back main_v22; exact W7_zvec m ρ c

theorem W11_zrow (c : Dev nD) : W11 m ρ c (Proc.devRef .tc main_v45) = KSpec.zrow := by
  show StableHlo.after hostOps3 (W10 m ρ c) (Proc.devRef .tc main_v45) = _
  after_results
  rw [W10_zvec]
  rfl

theorem W11_f1 (c : Dev nD) : W11 m ρ c (Proc.devRef .tc main_v44) = f1 m c := by
  carry_back main_v44; exact W10_f1 m ρ c

theorem W12_lin2 (c : Dev nD) : W12 m ρ c (Proc.devRef .tc main_v46) = KSpec.mm64 (f1 m c) (aW2 m c) KSpec.zrow := by
  refine (W12_arr m ρ c 3).trans ((region3 (V11 m ρ) c).trans ?_)
  show KSpec.mm64 (W11 m ρ c (Proc.devRef .tc main_v44)) (W11 m ρ c (Proc.devRef .tc main_arg7)) (W11 m ρ c (Proc.devRef .tc main_v45)) = _
  rw [W11_f1, W11_w2, W11_zrow]

theorem W12_normSrc (c : Dev nD) : W12 m ρ c (Proc.devRef .tc main_v17) = KSpec.normSrc (aSrc m c) := by
  carry_back main_v17; exact W5_normSrc m ρ c

theorem W12_normDst (c : Dev nD) : W12 m ρ c (Proc.devRef .tc main_v19) = KSpec.norm (aDst m c) := by
  carry_back main_v19; exact W5_normDst m ρ c

theorem W13_agg2 (c : Dev nD) :
    W13 m ρ c (Proc.devRef .tc main_v65) = KSpec.agg (KSpec.mm64 (f1 m c) (aW2 m c) KSpec.zrow) (aSrc m c) (aDst m c) (aB2 m c) := by
  show StableHlo.after hostOps4 (W12 m ρ c) (Proc.devRef .tc main_v65) = _
  after_results_simp
  rw [W12_lin2, W12_src, W12_dst, W12_b2, W12_normSrc, W12_normDst]
  rfl

/-- Call 3 reads the first layer's features through an input window and leaves them as entered. -/
theorem W12_f1 (c : Dev nD) : W12 m ρ c (Proc.devRef .tc main_v44) = f1 m c :=
  ((W12_arr m ρ c 0).trans (((dat3 (V11 m ρ) c).arrAt_in 0 rfl _).trans (A_eq3 (V11 m ρ) c 0))).trans (W11_f1 m ρ c)

theorem W13_f1 (c : Dev nD) : W13 m ρ c (Proc.devRef .tc main_v44) = f1 m c := by
  carry_back main_v44; exact W12_f1 m ρ c

theorem W14_f2 (c : Dev nD) : W14 m ρ c (Proc.devRef .tc main_v66) = f2 m c := by
  refine (W14_arr m ρ c 2).trans ((region4 (V13 m ρ) c).trans ?_)
  show KSpec.comb (W13 m ρ c (Proc.devRef .tc main_v44)) (W13 m ρ c (Proc.devRef .tc main_v65)) = _
  rw [W13_f1, W13_agg2]
  rfl

/-! ## The batch normalisation (calls 5 and 6 and the moments between them) -/

theorem W15_sum (c : Dev nD) : W15 m ρ c (Proc.devRef .tc main_v67_0) = KSpec.colSum (f2 m c) := by
  refine (W15_arr m ρ c 1).trans ((region5_sum (V14 m ρ) c).trans ?_)
  show KSpec.colSum (W14 m ρ c (Proc.devRef .tc main_v66)) = _
  rw [W14_f2]

theorem W15_sumsq (c : Dev nD) : W15 m ρ c (Proc.devRef .tc main_v67_1) = KSpec.colSumSq (f2 m c) := by
  refine (W15_arr m ρ c 2).trans ((region5_sumsq (V14 m ρ) c).trans ?_)
  show KSpec.colSumSq (W14 m ρ c (Proc.devRef .tc main_v66)) = _
  rw [W14_f2]

theorem W16_mean (c : Dev nD) : W16 m ρ c (Proc.devRef .tc main_v76) = KSpec.rowOf (KSpec.meanK (f2 m c)) := by
  show StableHlo.after hostOps6 (W15 m ρ c) (Proc.devRef .tc main_v76) = _
  after_results
  rw [W15_sum]
  rfl

theorem W16_var (c : Dev nD) : W16 m ρ c (Proc.devRef .tc main_v77) = KSpec.rowOf (KSpec.varK (f2 m c)) := by
  show StableHlo.after hostOps6 (W15 m ρ c) (Proc.devRef .tc main_v77) = _
  after_results
  rw [W15_sum, W15_sumsq]
  rfl

theorem W16_g (c : Dev nD) : W16 m ρ c (Proc.devRef .tc main_v78) = KSpec.rowOf (aG m c) := by
  show StableHlo.after hostOps6 (W15 m ρ c) (Proc.devRef .tc main_v78) = _
  after_results
  rw [W15_g]
  rfl

theorem W16_be (c : Dev nD) : W16 m ρ c (Proc.devRef .tc main_v79) = KSpec.rowOf (aBe m c) := by
  show StableHlo.after hostOps6 (W15 m ρ c) (Proc.devRef .tc main_v79) = _
  after_results
  rw [W15_be]
  rfl

/-- Call 5 reads the second layer's features through an input window and leaves them as entered. -/
theorem W15_f2 (c : Dev nD) : W15 m ρ c (Proc.devRef .tc main_v66) = f2 m c :=
  ((W15_arr m ρ c 0).trans (((dat5 (V14 m ρ) c).arrAt_in 0 rfl _).trans (A_eq5 (V14 m ρ) c 0))).trans (W14_f2 m ρ c)

theorem W16_f2 (c : Dev nD) : W16 m ρ c (Proc.devRef .tc main_v66) = f2 m c := by
  carry_back main_v66; exact W15_f2 m ρ c

theorem W17_out (c : Dev nD) :
    W17 m ρ c (Proc.devRef .tc main_v80)
      = KSpec.bnApply (f2 m c) (KSpec.rowOf (KSpec.meanK (f2 m c))) (KSpec.rowOf (KSpec.varK (f2 m c)))
          (KSpec.rowOf (aG m c)) (KSpec.rowOf (aBe m c)) := by
  refine (W17_arr m ρ c 5).trans ((region6 (V16 m ρ) c).trans ?_)
  show KSpec.bnApply (W16 m ρ c (Proc.devRef .tc main_v66)) (W16 m ρ c (Proc.devRef .tc main_v76)) (W16 m ρ c (Proc.devRef .tc main_v77))
      (W16 m ρ c (Proc.devRef .tc main_v78)) (W16 m ρ c (Proc.devRef .tc main_v79)) = _
  rw [W16_f2, W16_mean, W16_var, W16_g, W16_be]

/-- The result buffer at the last boundary is `KSpec.out` of the launch contents of the argument arrays. -/
theorem kernel_value (c : Dev nD) :
    W17 (F := Ideal) m ρ c (Proc.devRef .tc main_v80)
      = KSpec.out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) := by
  rw [W17_out]
  rfl

end Cert.KernelIdeal.Val

end
-- ==== Proof.Spec.lean ====
/-
  The reference's result as a composition of named stages, at the ideal instance: the degree norms, the dense layer,
  two graph-convolution layers with a scaled residual, and the batch normalisation by the centred second moment.
-/
import proofs.«106122_j57346403336483_1_alg».proof.ReferenceIdeal
import Idealize.ShloMosaic.PureOps.Ideal

noncomputable section

namespace Cert.ReferenceIdeal.Spec

open Idealize.ShloMosaic Cert.ReferenceIdeal

variable [Facts]
open Facts₀ Facts

/-- One float array of shape `s` at the ideal instance (entries are extended reals). -/
abbrev Arr (s : Shape) := FVec Ideal s .f32
/-- The edge endpoint arrays. -/
abbrev EIdx := IVec S800000 32

/-- `deg ^ (-1/2)` per node, where `deg` counts the edges whose endpoint array `idx` names the node, clipped below at 1. -/
def norm (idx : EIdx) : Arr S100000 :=
  Host.powf (F := Ideal) (maximumf (F := Ideal) (broadcastInDim S100000 ![] bcast_S_S100000 (id (constant (F := Ideal) S_ .f32 0x3F800000#32)))
      (Host.scatterAdd (F := Ideal) scatter_S100000_S800000x1_S800000_n_0_0_1 (broadcastInDim S100000 ![] bcast_S_S100000 (constant (F := Ideal) S_ .f32 0x00000000#32))
        (broadcastInDim S800000x1 ![0] bcast_S800000_S800000x1_0 idx) (broadcastInDim S800000 ![] bcast_S_S800000 (constant (F := Ideal) S_ .f32 0x3F800000#32))))
    (broadcastInDim S100000 ![] bcast_S_S100000 (constant (F := Ideal) S_ .f32 0xBF000000#32))

/-- The source endpoints as gather indices: a negative one wrapped by the node count, as a column. -/
def wrap (src : EIdx) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 100000#32))) src)

/-- The source normalisation per edge. -/
def normSrc (src : EIdx) : Arr S800000 :=
  Host.gather gather_S100000_S800000x1_S800000_n_0_n_n_0_1_1 (norm src) (wrap src)

/-- A length-64 vector laid along every row of a [100000, 64] array. -/
def rowB (v : Arr S64) : Arr S100000x64 :=
  broadcastInDim S100000x64 ![0, 1] bcast_S1x64_S100000x64_0_1 (broadcastInDim S1x64 ![1] bcast_S64_S1x64_1 v)

/-- The graph aggregation of the node features `hw`: gather along the sources, scale by the source norm, sum into the
    destinations, scale by the destination norm, add the bias. -/
def agg (hw : Arr S100000x64) (src dst : EIdx) (b : Arr S64) : Arr S100000x64 :=
  addf (F := Ideal) (mulf (F := Ideal)
      (Host.scatterAdd (F := Ideal) scatter_S100000x64_S800000x1_S800000x64_1_0_0_1 (broadcastInDim S100000x64 ![] bcast_S_S100000x64 (constant (F := Ideal) S_ .f32 0x00000000#32))
        (broadcastInDim S800000x1 ![0] bcast_S800000_S800000x1_0 dst)
        (mulf (F := Ideal) (Host.gather gather_S100000x64_S800000x1_S800000x64_1_0_n_n_0_1_164 hw (wrap src))
          (broadcastInDim S800000x64 ![0, 1] bcast_S800000x1_S800000x64_0_1 (broadcastInDim S800000x1 ![0] bcast_S800000_S800000x1_0 (normSrc src)))))
      (broadcastInDim S100000x64 ![0, 1] bcast_S100000x1_S100000x64_0_1 (broadcastInDim S100000x1 ![0] bcast_S100000_S100000x1_0 (norm dst))))
    (rowB b)

/-- The dense layer `x · w + b`. -/
def lin0 (x : Arr S100000x128) (w : Arr S128x64) (b : Arr S64) : Arr S100000x64 :=
  addf (F := Ideal) (Host.dotGeneral (F := Ideal) dot_S100000x128_S128x64_S100000x64_1_0_0_1_n_n none x w) (rowB b)

/-- The linear map of a graph layer, `h · w`. -/
def lin (h : Arr S100000x64) (w : Arr S64x64) : Arr S100000x64 :=
  Host.dotGeneral (F := Ideal) dot_S100000x64_S64x64_S100000x64_1_0_0_1_n_n none h w

/-- The scaled residual `(h + a) · 2^(-1/2)` (the scale as its float word). -/
def comb (h a : Arr S100000x64) : Arr S100000x64 :=
  mulf (F := Ideal) (addf (F := Ideal) h a) (broadcastInDim S100000x64 ![] bcast_S_S100000x64 (constant (F := Ideal) S_ .f32 0x3F3504F3#32))

/-- One graph layer. -/
def layer (h : Arr S100000x64) (w : Arr S64x64) (b : Arr S64) (src dst : EIdx) : Arr S100000x64 :=
  comb h (agg (lin h w) src dst b)

/-- The features entering the batch normalisation. -/
def feat (src dst : EIdx) (x : Arr S100000x128) (fcw : Arr S128x64) (fcb : Arr S64) (w1 : Arr S64x64) (b1 : Arr S64)
    (w2 : Arr S64x64) (b2 : Arr S64) : Arr S100000x64 :=
  layer (layer (lin0 x fcw fcb) w1 b1 src dst) w2 b2 src dst

/-- The column means. -/
def mean (h : Arr S100000x64) : Arr S64 :=
  Host.divf (F := Ideal) (Host.reduceAdd (F := Ideal) h (constant (F := Ideal) S_ .f32 0x00000000#32) reducesTo_S100000x64_S64_d0 h_S_)
    (broadcastInDim S64 ![] bcast_S_S64 (constant (F := Ideal) S_ .f32 0x47C35000#32))

/-- The features centred by their column means. -/
def cen (h : Arr S100000x64) : Arr S100000x64 := subf (F := Ideal) h (rowB (mean h))

/-- The column variances: the mean of the squared centred features. -/
def var (h : Arr S100000x64) : Arr S64 :=
  Host.divf (F := Ideal) (Host.reduceAdd (F := Ideal) (mulf (F := Ideal) (cen h) (cen h)) (constant (F := Ideal) S_ .f32 0x00000000#32) reducesTo_S100000x64_S64_d0 h_S_)
    (broadcastInDim S64 ![] bcast_S_S64 (constant (F := Ideal) S_ .f32 0x47C35000#32))

/-- The batch normalisation. -/
def bn (h : Arr S100000x64) (g b : Arr S64) : Arr S100000x64 :=
  addf (F := Ideal) (mulf (F := Ideal) (mulf (F := Ideal) (cen h)
      (rowB (Host.rsqrt (F := Ideal) (addf (F := Ideal) (var h) (broadcastInDim S64 ![] bcast_S_S64 (constant (F := Ideal) S_ .f32 0x3727C5AC#32))))))
    (rowB g)) (rowB b)

/-- The reference's result. -/
def out (src dst : EIdx) (x : Arr S100000x128) (fcw : Arr S128x64) (fcb : Arr S64) (w1 : Arr S64x64) (b1 : Arr S64)
    (w2 : Arr S64x64) (b2 : Arr S64) (g be : Arr S64) : Arr S100000x64 :=
  bn (feat src dst x fcw fcb w1 b1 w2 b2) g be

end Cert.ReferenceIdeal.Spec

end
-- ==== Proof.RefValue.lean ====
/-
  The reference's run: its result buffer ends at the composition `Spec.out` of the argument arrays.
-/
import proofs.«106122_j57346403336483_1_alg».proof.Defs
import proofs.«106122_j57346403336483_1_alg».proof.Proof.Gen.ReferenceIdeal.Run
import proofs.«106122_j57346403336483_1_alg».proof.Proof.Spec

set_option maxRecDepth 16384

noncomputable section

namespace Cert.ReferenceIdeal.RefValue

open Idealize.ShloMosaic Idealize.ShloMosaic.TcCoe Idealize.SL.Sem
open Cert.ReferenceIdeal Cert.ReferenceIdeal.Gen

variable [Facts]
open Facts₀ Facts

/-- The run's composed term is the staged composition. -/
theorem ref_eq (m : (ℓ : Loc nD τ sig) → Buf (Elt Ideal) ℓ) (c : Dev nD) :
    Cert.ReferenceIdeal.Value.res_main_v94 (F := Ideal) m c
      = Spec.out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) := by
  unfold Cert.ReferenceIdeal.Value.res_main_v94
  rfl

end Cert.ReferenceIdeal.RefValue

end
-- ==== Proof.StageEq.lean ====
/-
  The stages of the two programs agree: the host stretches are the same operations, a row-block matrix product plus a bias row is the host's dot_general plus the broadcast bias (plus zero: the product itself), and the residual is the same pointwise expression.
-/
import proofs.«106122_j57346403336483_1_alg».proof.Proof.KSpec
import proofs.«106122_j57346403336483_1_alg».proof.Proof.Spec
import proofs.«106122_j57346403336483_1_alg».proof.Proof.Gen.ReferenceIdeal.Read
import Idealize.ShloMosaic.PureOps.Ideal.Laws
import Idealize.ShloMosaic.Lib.ValueIdx
import Idealize.ShloMosaic.Lib.ValueLayout
import Idealize.ShloMosaic.Lib.Pipeline.Value

noncomputable section

namespace Cert.Bridge

open Idealize.ShloMosaic

variable [Cert.KernelIdeal.Facts] [Cert.ReferenceIdeal.Facts]

/-! ## Reading the bias rows at an index -/

/-- A length-64 vector laid along every row of a [100000, 64] array reads, at (r, c), the vector at c: the first
    broadcast drops the row coordinate (the one-row array has a unit first axis), the second keeps the column. -/
theorem rowB_apply (v : Cert.KernelIdeal.KSpec.Arr Cert.KernelIdeal.S64) (i : Cert.KernelIdeal.S100000x64.Idx) :
    Cert.ReferenceIdeal.Spec.rowB v i = v (ValueIdx.ix1 (Cert.KernelIdeal.KSpec.col i)) := by
  show Cert.ReferenceIdeal.Read.val_main_v22 (F := Ideal) v i = _
  rw [Cert.ReferenceIdeal.Read.val_main_v22_apply, Cert.ReferenceIdeal.Read.val_main_v21_apply]
  exact congrArg v (funext fun a => Fin.ext (by match a with | ⟨0, _⟩ => rfl))

/-- A length-64 vector recast as a [1, 64] row reads, at (0, c), the vector at c: both indices have row-major
    position c. -/
theorem rowOf_apply (v : Cert.KernelIdeal.KSpec.Arr Cert.KernelIdeal.S64) (c : Fin 64) :
    Cert.KernelIdeal.KSpec.rowOf v (ValueIdx.ix2 (0 : Fin 1) c) = v (ValueIdx.ix1 c) := by
  unfold Cert.KernelIdeal.KSpec.rowOf
  exact ValueIdx.shapeCast_a_1a_apply v _ 0 c

/-- The zero bias row reads 0 at every column: it is the splat of the zero word, and that word is the real 0. -/
theorem zrow_apply (c : Fin 64) : Cert.KernelIdeal.KSpec.zrow (ValueIdx.ix2 (0 : Fin 1) c) = 0 := by
  unfold Cert.KernelIdeal.KSpec.zrow
  rw [rowOf_apply]
  exact Ideal.ofBits_zero_f32

/-! ## The host's matrix products at an index -/

/-- The host's [100000, 128] · [128, 64] product at (r, c) is the sum over the 128 contracted coordinates k of
    x (r, k) · w (k, c): the reference's read of its dot_general, with the left and right operand indices named by
    their coordinates. -/
theorem dot128_apply (x : Cert.KernelIdeal.KSpec.Arr Cert.KernelIdeal.S100000x128) (w : Cert.KernelIdeal.KSpec.Arr Cert.KernelIdeal.S128x64) (i : Cert.KernelIdeal.S100000x64.Idx) :
    Host.dotGeneral (F := Ideal) Cert.ReferenceIdeal.dot_S100000x128_S128x64_S100000x64_1_0_0_1_n_n none x w i
      = ∑ k : Fin 128, x (ValueIdx.ix2 (Cert.KernelIdeal.KSpec.row i) k) * w (ValueIdx.ix2 k (Cert.KernelIdeal.KSpec.col i)) := by
  show Cert.ReferenceIdeal.Read.val_main_v20 (F := Ideal) x w i = _
  rw [Cert.ReferenceIdeal.Read.val_main_v20_apply]
  refine Finset.sum_congr rfl fun k _ => ?_
  have el : Cert.ReferenceIdeal.Read.lidx_main_v20 i k = ValueIdx.ix2 (Cert.KernelIdeal.KSpec.row i) k :=
    funext fun a => Fin.ext (by match a with | ⟨0, _⟩ => rfl | ⟨1, _⟩ => rfl)
  have er : Cert.ReferenceIdeal.Read.ridx_main_v20 i k = ValueIdx.ix2 k (Cert.KernelIdeal.KSpec.col i) :=
    funext fun a => Fin.ext (by match a with | ⟨0, _⟩ => rfl | ⟨1, _⟩ => rfl)
  rw [el, er]

/-- The host's [100000, 64] · [64, 64] product of ANY left operand at (r, c) is the sum over the 64 contracted
    coordinates k of h (r, k) · w (k, c). The product's element is a sum over the contraction shape's indices; that
    shape has the one axis of extent 64, so the sum is re-indexed by k : Fin 64, and the operand indices are read axis
    by axis: the left one is (r, k), the right one (k, c). -/
theorem dot64_apply (h : Cert.KernelIdeal.KSpec.Arr Cert.KernelIdeal.S100000x64) (w : Cert.KernelIdeal.KSpec.Arr Cert.KernelIdeal.S64x64) (i : Cert.KernelIdeal.S100000x64.Idx) :
    Cert.ReferenceIdeal.Spec.lin h w i
      = ∑ k : Fin 64, h (ValueIdx.ix2 (Cert.KernelIdeal.KSpec.row i) k) * w (ValueIdx.ix2 k (Cert.KernelIdeal.KSpec.col i)) := by
  unfold Cert.ReferenceIdeal.Spec.lin
  simp only [Host.dotGeneral]
  rw [Ideal.dotGeneral_apply, ← Equiv.sum_comp (ValueIdx.contrEquiv1 Cert.ReferenceIdeal.dot_S100000x64_S64x64_S100000x64_1_0_0_1_n_n 64 rfl rfl).symm]
  refine Finset.sum_congr rfl fun k _ => ?_
  have hk := ValueIdx.contrEquiv1_symm_val Cert.ReferenceIdeal.dot_S100000x64_S64x64_S100000x64_1_0_0_1_n_n 64 rfl rfl k
  have el : Cert.ReferenceIdeal.dot_S100000x64_S64x64_S100000x64_1_0_0_1_n_n.lhsIdx i ((ValueIdx.contrEquiv1 Cert.ReferenceIdeal.dot_S100000x64_S64x64_S100000x64_1_0_0_1_n_n 64 rfl rfl).symm k)
      = ValueIdx.ix2 (Cert.KernelIdeal.KSpec.row i) k := funext fun a => Fin.ext (by
    match a with
    | ⟨0, _⟩ => exact Cert.ReferenceIdeal.Read.lhs_main_v24_0 _ _
    | ⟨1, _⟩ => exact (Cert.ReferenceIdeal.Read.lhs_main_v24_1 _ _).trans hk)
  have er : Cert.ReferenceIdeal.dot_S100000x64_S64x64_S100000x64_1_0_0_1_n_n.rhsIdx i ((ValueIdx.contrEquiv1 Cert.ReferenceIdeal.dot_S100000x64_S64x64_S100000x64_1_0_0_1_n_n 64 rfl rfl).symm k)
      = ValueIdx.ix2 k (Cert.KernelIdeal.KSpec.col i) := funext fun a => Fin.ext (by
    match a with
    | ⟨0, _⟩ => exact (Cert.ReferenceIdeal.Read.rhs_main_v24_0 _ _).trans hk
    | ⟨1, _⟩ => exact Cert.ReferenceIdeal.Read.rhs_main_v24_1 _ _)
  rw [el, er]

/-! ## The stages -/

/-- The degree norms are one term in the two programs: the same host operations over records with the same fields. -/
theorem norm_eq (idx : Cert.KernelIdeal.KSpec.EIdx) : Cert.KernelIdeal.KSpec.norm idx = Cert.ReferenceIdeal.Spec.norm idx := by
  rfl

/-- The graph aggregation is one term in the two programs: the same gather, scalings, scatter-sum and bias, over
    records with the same fields. -/
theorem agg_eq (hw : Cert.KernelIdeal.KSpec.Arr Cert.KernelIdeal.S100000x64) (src dst : Cert.KernelIdeal.KSpec.EIdx) (b : Cert.KernelIdeal.KSpec.Arr Cert.KernelIdeal.S64) :
    Cert.KernelIdeal.KSpec.agg hw src dst b = Cert.ReferenceIdeal.Spec.agg hw src dst b := by
  rfl

/-- The dense layer: the sum over the 128 contracted coordinates plus the bias row is the host's product plus the broadcast bias. -/
theorem mm128_eq (x : Cert.KernelIdeal.KSpec.Arr Cert.KernelIdeal.S100000x128) (w : Cert.KernelIdeal.KSpec.Arr Cert.KernelIdeal.S128x64) (b : Cert.KernelIdeal.KSpec.Arr Cert.KernelIdeal.S64) :
    Cert.KernelIdeal.KSpec.mm128 x w (Cert.KernelIdeal.KSpec.rowOf b) = Cert.ReferenceIdeal.Spec.lin0 x w b := by
  funext i
  unfold Cert.KernelIdeal.KSpec.mm128 Cert.ReferenceIdeal.Spec.lin0
  rw [ValueIdx.addf_apply, dot128_apply, rowB_apply, rowOf_apply]

/-- A graph layer's linear map: the sum over the 64 contracted coordinates plus the zero row is the host's product. -/
theorem mm64_eq (h : Cert.KernelIdeal.KSpec.Arr Cert.KernelIdeal.S100000x64) (w : Cert.KernelIdeal.KSpec.Arr Cert.KernelIdeal.S64x64) :
    Cert.KernelIdeal.KSpec.mm64 h w Cert.KernelIdeal.KSpec.zrow = Cert.ReferenceIdeal.Spec.lin h w := by
  funext i
  unfold Cert.KernelIdeal.KSpec.mm64
  rw [zrow_apply, add_zero, dot64_apply]

/-- The scaled residual: at every index both sides are (h + a) times the same float word, the reference reading
    that word through a splat. -/
theorem comb_eq (h a : Cert.KernelIdeal.KSpec.Arr Cert.KernelIdeal.S100000x64) : Cert.KernelIdeal.KSpec.comb h a = Cert.ReferenceIdeal.Spec.comb h a := by
  funext i
  rfl

/-- One graph layer is the same in the two programs: the linear map, the aggregation and the residual agree. -/
theorem layer_eq (h : Cert.KernelIdeal.KSpec.Arr Cert.KernelIdeal.S100000x64) (w : Cert.KernelIdeal.KSpec.Arr Cert.KernelIdeal.S64x64) (b : Cert.KernelIdeal.KSpec.Arr Cert.KernelIdeal.S64) (src dst : Cert.KernelIdeal.KSpec.EIdx) :
    Cert.KernelIdeal.KSpec.layer h w b src dst = Cert.ReferenceIdeal.Spec.layer h w b src dst := by
  unfold Cert.KernelIdeal.KSpec.layer Cert.ReferenceIdeal.Spec.layer
  rw [mm64_eq, agg_eq, comb_eq]

/-- The features entering the normalisation are the same in the two programs. -/
theorem feat_eq (src dst : Cert.KernelIdeal.KSpec.EIdx) (x : Cert.KernelIdeal.KSpec.Arr Cert.KernelIdeal.S100000x128) (fcw : Cert.KernelIdeal.KSpec.Arr Cert.KernelIdeal.S128x64) (fcb : Cert.KernelIdeal.KSpec.Arr Cert.KernelIdeal.S64)
    (w1 : Cert.KernelIdeal.KSpec.Arr Cert.KernelIdeal.S64x64) (b1 : Cert.KernelIdeal.KSpec.Arr Cert.KernelIdeal.S64) (w2 : Cert.KernelIdeal.KSpec.Arr Cert.KernelIdeal.S64x64) (b2 : Cert.KernelIdeal.KSpec.Arr Cert.KernelIdeal.S64) :
    Cert.KernelIdeal.KSpec.feat src dst x fcw fcb w1 b1 w2 b2 = Cert.ReferenceIdeal.Spec.feat src dst x fcw fcb w1 b1 w2 b2 := by
  unfold Cert.KernelIdeal.KSpec.feat Cert.ReferenceIdeal.Spec.feat
  rw [mm128_eq, layer_eq, layer_eq]

end Cert.Bridge

end
-- ==== Proof.IsReal.lean ====
/-
  An array of extended reals all of whose entries are real numbers.
-/
import Idealize.ShloMosaic.PureOps.Ideal

namespace Cert.Bridge

open Idealize.ShloMosaic

/-- Every entry of `v` is a real number (neither infinity). -/
def IsReal {s : Shape} (v : s.Idx → EReal) : Prop := ∀ i, ∃ r : ℝ, v i = (r : EReal)

end Cert.Bridge
-- ==== Proof.BnLaw.lean ====
/-
  The normalisation: for real features the mean square less the squared mean is the mean of the squared centred features, so the two programs normalise alike.
-/
import proofs.«106122_j57346403336483_1_alg».proof.Proof.KSpec
import proofs.«106122_j57346403336483_1_alg».proof.Proof.Spec
import proofs.«106122_j57346403336483_1_alg».proof.Proof.IsReal
import proofs.«106122_j57346403336483_1_alg».proof.Proof.Gen.ReferenceIdeal.Read
import Idealize.ShloMosaic.PureOps.Ideal.Laws
import Idealize.ShloMosaic.Lib.ValueIdx
import Idealize.ShloMosaic.Lib.ValueLayout
import Idealize.ShloMosaic.Lib.Pipeline.Value

noncomputable section

namespace Cert.Bridge

open Idealize.ShloMosaic

/-! ## The variance identity over the reals -/

/-- Over a finite index type with `N` terms, `N ≠ 0`: the mean of the squares less the square of the mean is the mean of
    the squared deviations from the mean. Division is written as the product with `1 / N`. -/
theorem bn_real_var_identity {ι : Type} [Fintype ι] (f : ι → ℝ) (N : ℝ) (hN : N ≠ 0) (hcard : (Fintype.card ι : ℝ) = N) :
    (∑ r, f r * f r) * (1 / N) - ((∑ r, f r) * (1 / N)) * ((∑ r, f r) * (1 / N))
      = (∑ r, (f r - (∑ s, f s) * (1 / N)) * (f r - (∑ s, f s) * (1 / N))) * (1 / N) := by
  generalize hμ : (∑ s, f s) * (1 / N) = μ
  have hS : ∑ s, f s = N * μ := by rw [← hμ]; field_simp
  have e : ∑ r, (f r - μ) * (f r - μ) = ∑ r, f r * f r - 2 * μ * ∑ r, f r + N * (μ * μ) := by
    have e1 : ∀ r, (f r - μ) * (f r - μ) = f r * f r - 2 * μ * f r + μ * μ := fun r => by ring
    simp only [e1]
    rw [Finset.sum_add_distrib, Finset.sum_sub_distrib, ← Finset.mul_sum, Finset.sum_const, Finset.card_univ,
      nsmul_eq_mul, hcard]
  rw [e, hS]
  field_simp
  ring

/-! ## The same identity over the extended reals, for real entries -/

/-- The coercion of a finite sum of reals is the sum of the coercions. -/
theorem bn_coe_sum {ι : Type} (s : Finset ι) (f : ι → ℝ) : ∑ r ∈ s, ((f r : ℝ) : EReal) = ((∑ r ∈ s, f r : ℝ) : EReal) := by
  classical
  induction s using Finset.induction_on with
  | empty => simp
  | insert a s ha ih => rw [Finset.sum_insert ha, Finset.sum_insert ha, ih, EReal.coe_add]

/-- For real entries `x r` and a nonzero real count `N`, with the extended reals' division: the mean square less the
    squared mean is the mean (from a zero initial value) of the squared centred entries. -/
theorem bn_ereal_var_identity {ι : Type} [Fintype ι] (x : ι → EReal) (hx : ∀ r, ∃ a : ℝ, x r = (a : EReal)) (N : ℝ) (hN : N ≠ 0)
    (hcard : (Fintype.card ι : ℝ) = N) :
    Ideal.div (∑ r, x r * x r) (N : EReal) - Ideal.div (∑ r, x r) (N : EReal) * Ideal.div (∑ r, x r) (N : EReal)
      = Ideal.div (0 + ∑ r, (x r - Ideal.div (∑ s, x s) (N : EReal)) * (x r - Ideal.div (∑ s, x s) (N : EReal))) (N : EReal) := by
  choose f hf using hx
  obtain rfl : x = fun r => ((f r : ℝ) : EReal) := funext hf
  simp only [← EReal.coe_mul, bn_coe_sum, Ideal.div_coe hN, ← EReal.coe_sub, zero_add]
  exact congrArg _ (bn_real_var_identity f N hN hcard)

/-! ## The layout operations read at an index -/

section Reads

open Idealize.ShloMosaic.ValueIdx

variable [Cert.KernelIdeal.Facts] [Cert.ReferenceIdeal.Facts]

/-- A length-64 vector as a [1, 64] row reads, at column `j`, the vector at `j`. -/
theorem bn_rowOf_apply (v : Cert.KernelIdeal.KSpec.Arr Cert.KernelIdeal.S64) (j : Fin 64) :
    Cert.KernelIdeal.KSpec.rowOf v (ix2 (0 : Fin 1) j) = v (ix1 j) := by
  unfold Cert.KernelIdeal.KSpec.rowOf
  exact shapeCast_a_1a_apply v _ 0 j

/-- A [1, 64] row flattened reads, at `j`, the row at column `j`. -/
theorem bn_flat_apply (v : Cert.KernelIdeal.KSpec.Arr Cert.KernelIdeal.S1x64) (j : Fin 64) :
    Cert.KernelIdeal.KSpec.flat v (ix1 j) = v (ix2 (0 : Fin 1) j) := by
  unfold Cert.KernelIdeal.KSpec.flat
  exact shapeCast_1a_a_apply v _ j

/-- A length-64 vector laid along every row reads, at `(r, j)`, the vector at `j`. -/
theorem bn_rowB_apply (v : Cert.ReferenceIdeal.Spec.Arr Cert.ReferenceIdeal.S64) (r : Fin 100000) (j : Fin 64) :
    Cert.ReferenceIdeal.Spec.rowB v (ix2 r j) = v (ix1 j) := by
  unfold Cert.ReferenceIdeal.Spec.rowB
  refine (broadcastInDim_apply _ _ _ (ix2 r j) (ix2 (0 : Fin 1) j) (fun a => match a with
    | ⟨0, _⟩ => by show 0 = if (1 : Nat) = 1 then 0 else r.val; rw [if_pos rfl]
    | ⟨1, _⟩ => by show j.val = if (64 : Nat) = 1 then 0 else j.val; rw [if_neg (by decide)])).trans ?_
  exact broadcastInDim_apply _ _ v _ (ix1 j) (fun a => match a with
    | ⟨0, _⟩ => by show j.val = if (64 : Nat) = 1 then 0 else j.val; rw [if_neg (by decide)])

/-- A scalar laid along 64 entries reads the scalar everywhere. -/
theorem bn_splat64_apply (c : Cert.ReferenceIdeal.Spec.Arr Cert.ReferenceIdeal.S_) (i : Cert.ReferenceIdeal.S64.Idx) :
    broadcastInDim Cert.ReferenceIdeal.S64 ![] Cert.ReferenceIdeal.Facts₀.bcast_S_S64 c i = c ix0 :=
  broadcastInDim_apply _ _ c i ix0 (fun a => a.elim0)

end Reads

/-! ## The column sums, the mean and the two variances read at an index -/

section Stages

open Idealize.ShloMosaic.ValueIdx
open Cert.ReferenceIdeal.Facts₀ Cert.ReferenceIdeal.Facts

variable [Cert.KernelIdeal.Facts] [Cert.ReferenceIdeal.Facts]

/-- The float word of the row count denotes the real 100000. -/
theorem bn_ofBits_100000 : Ideal.ofBits .f32 0x47C35000#32 = ((100000 : ℝ) : EReal) := by
  simp [Ideal.ofBits, Ideal.ieee, -EReal.coe_mul]; norm_num

/-- The host's sum over the rows from the zero word: at column `j`, zero plus the sum over `r` of the entries `(r, j)`. -/
theorem bn_hostColSum_apply (y : Cert.ReferenceIdeal.Spec.Arr Cert.ReferenceIdeal.S100000x64) (j : Fin 64) :
    Host.reduceAdd (F := Ideal) y (constant (F := Ideal) Cert.ReferenceIdeal.S_ .f32 0x00000000#32)
        reducesTo_S100000x64_S64_d0 h_S_ (ix1 j)
      = 0 + ∑ r : Fin 100000, y (ix2 r j) := by
  simp only [Host.reduceAdd, Ideal.hostReduceAdd_def]
  rw [Ideal.hostReduceAdd_single reducesTo_S100000x64_S64_d0 (by decide)]
  refine congrArg₂ (· + ·) Ideal.ofBits_zero_f32 (Finset.sum_congr rfl fun k _ => ?_)
  exact congrArg y (funext fun a => Fin.ext (by match a with | ⟨0, _⟩ => rfl | ⟨1, _⟩ => rfl))

/-- The divisor row reads the real 100000 everywhere. -/
theorem bn_count_apply (i : Cert.ReferenceIdeal.S64.Idx) :
    broadcastInDim Cert.ReferenceIdeal.S64 ![] bcast_S_S64 (constant (F := Ideal) Cert.ReferenceIdeal.S_ .f32 0x47C35000#32) i
      = ((100000 : ℝ) : EReal) :=
  (bn_splat64_apply _ i).trans bn_ofBits_100000

/-- The kernel program's mean at column `j`: the column sum over the row count. -/
theorem bn_meanK_apply (h : Cert.KernelIdeal.KSpec.Arr Cert.KernelIdeal.S100000x64) (j : Fin 64) :
    Cert.KernelIdeal.KSpec.meanK h (ix1 j) = Ideal.div (∑ r : Fin 100000, h (ix2 r j)) ((100000 : ℝ) : EReal) := by
  unfold Cert.KernelIdeal.KSpec.meanK
  show Ideal.div (Cert.KernelIdeal.KSpec.flat (Cert.KernelIdeal.KSpec.colSum h) (ix1 j)) _ = _
  rw [bn_flat_apply, bn_count_apply]
  rfl

/-- The reference's mean at column `j`: the same quotient. -/
theorem bn_mean_apply (h : Cert.ReferenceIdeal.Spec.Arr Cert.ReferenceIdeal.S100000x64) (j : Fin 64) :
    Cert.ReferenceIdeal.Spec.mean h (ix1 j) = Ideal.div (∑ r : Fin 100000, h (ix2 r j)) ((100000 : ℝ) : EReal) := by
  unfold Cert.ReferenceIdeal.Spec.mean
  show Ideal.div (Host.reduceAdd (F := Ideal) h _ reducesTo_S100000x64_S64_d0 h_S_ (ix1 j)) _ = _
  rw [bn_hostColSum_apply, bn_count_apply, zero_add]

/-- The kernel program's variance at column `j`: the mean square less the squared mean. -/
theorem bn_varK_apply (h : Cert.KernelIdeal.KSpec.Arr Cert.KernelIdeal.S100000x64) (j : Fin 64) :
    Cert.KernelIdeal.KSpec.varK h (ix1 j)
      = Ideal.div (∑ r : Fin 100000, h (ix2 r j) * h (ix2 r j)) ((100000 : ℝ) : EReal)
        - Ideal.div (∑ r : Fin 100000, h (ix2 r j)) ((100000 : ℝ) : EReal)
          * Ideal.div (∑ r : Fin 100000, h (ix2 r j)) ((100000 : ℝ) : EReal) := by
  unfold Cert.KernelIdeal.KSpec.varK
  show Ideal.div (Cert.KernelIdeal.KSpec.flat (Cert.KernelIdeal.KSpec.colSumSq h) (ix1 j)) _
      - Cert.KernelIdeal.KSpec.meanK h (ix1 j) * Cert.KernelIdeal.KSpec.meanK h (ix1 j) = _
  rw [bn_flat_apply, bn_count_apply, bn_meanK_apply]
  rfl

/-- The reference's variance at column `j`: the mean, from the zero word, of the squared centred entries. -/
theorem bn_var_apply (h : Cert.ReferenceIdeal.Spec.Arr Cert.ReferenceIdeal.S100000x64) (j : Fin 64) :
    Cert.ReferenceIdeal.Spec.var h (ix1 j)
      = Ideal.div (0 + ∑ r : Fin 100000,
            (h (ix2 r j) - Ideal.div (∑ s : Fin 100000, h (ix2 s j)) ((100000 : ℝ) : EReal))
              * (h (ix2 r j) - Ideal.div (∑ s : Fin 100000, h (ix2 s j)) ((100000 : ℝ) : EReal)))
          ((100000 : ℝ) : EReal) := by
  unfold Cert.ReferenceIdeal.Spec.var
  show Ideal.div (Host.reduceAdd (F := Ideal) _ _ reducesTo_S100000x64_S64_d0 h_S_ (ix1 j)) _ = _
  have e : ∀ r : Fin 100000,
      mulf (F := Ideal) (Cert.ReferenceIdeal.Spec.cen h) (Cert.ReferenceIdeal.Spec.cen h) (ix2 r j)
        = (h (ix2 r j) - Ideal.div (∑ s : Fin 100000, h (ix2 s j)) ((100000 : ℝ) : EReal))
          * (h (ix2 r j) - Ideal.div (∑ s : Fin 100000, h (ix2 s j)) ((100000 : ℝ) : EReal)) := by
    intro r
    show (h (ix2 r j) - Cert.ReferenceIdeal.Spec.rowB (Cert.ReferenceIdeal.Spec.mean h) (ix2 r j))
        * (h (ix2 r j) - Cert.ReferenceIdeal.Spec.rowB (Cert.ReferenceIdeal.Spec.mean h) (ix2 r j)) = _
    rw [bn_rowB_apply, bn_mean_apply]
  rw [bn_hostColSum_apply, bn_count_apply, Finset.sum_congr rfl (fun r _ => e r)]

end Stages

/-! ## The two normalisations agree -/

section Final

open Idealize.ShloMosaic.ValueIdx
open Cert.ReferenceIdeal.Facts₀ Cert.ReferenceIdeal.Facts

variable [Cert.KernelIdeal.Facts] [Cert.ReferenceIdeal.Facts]

/-- For real features the two variances agree at every column: the identity above at the 100000 entries of the column. -/
theorem bn_varK_eq_var (h : Cert.KernelIdeal.KSpec.Arr Cert.KernelIdeal.S100000x64) (hh : IsReal h) (j : Fin 64) :
    Cert.KernelIdeal.KSpec.varK h (ix1 j) = Cert.ReferenceIdeal.Spec.var h (ix1 j) := by
  rw [bn_varK_apply, bn_var_apply]
  exact bn_ereal_var_identity (fun r : Fin 100000 => h (ix2 r j)) (fun r => hh (ix2 r j)) 100000 (by norm_num) (by simp)

/-- With every feature a real number, the kernel program's normalisation (variance as mean square less squared mean, from
    the column sums) is the reference's (variance as the mean of the squared centred features). -/
theorem bn_eq (h : Cert.KernelIdeal.KSpec.Arr Cert.KernelIdeal.S100000x64) (g be : Cert.KernelIdeal.KSpec.Arr Cert.KernelIdeal.S64) (hh : IsReal h) :
    Cert.KernelIdeal.KSpec.bnK h g be = Cert.ReferenceIdeal.Spec.bn h g be := by
  funext i
  obtain ⟨r, j, rfl⟩ : ∃ (r : Fin 100000) (j : Fin 64), i = ix2 r j := ⟨i 0, i 1, eq_ix2 i⟩
  -- the mean row, the scale row and the shift row read alike on both sides
  have hm : Cert.KernelIdeal.KSpec.rowOf (Cert.KernelIdeal.KSpec.meanK h) (ix2 (0 : Fin 1) j)
      = Cert.ReferenceIdeal.Spec.rowB (Cert.ReferenceIdeal.Spec.mean h) (ix2 r j) := by
    rw [bn_rowOf_apply, bn_rowB_apply, bn_meanK_apply, bn_mean_apply]
  have hg : Cert.KernelIdeal.KSpec.rowOf g (ix2 (0 : Fin 1) j) = Cert.ReferenceIdeal.Spec.rowB g (ix2 r j) := by
    rw [bn_rowOf_apply, bn_rowB_apply]
  have hb : Cert.KernelIdeal.KSpec.rowOf be (ix2 (0 : Fin 1) j) = Cert.ReferenceIdeal.Spec.rowB be (ix2 r j) := by
    rw [bn_rowOf_apply, bn_rowB_apply]
  -- the reciprocal root of the variance plus the same small word: the variances agree
  have hv : Ideal.rsqrt (Cert.KernelIdeal.KSpec.rowOf (Cert.KernelIdeal.KSpec.varK h) (ix2 (0 : Fin 1) j) + Ideal.ofBits .f32 0x3727C5AC#32)
      = Cert.ReferenceIdeal.Spec.rowB (Host.rsqrt (F := Ideal) (addf (F := Ideal) (Cert.ReferenceIdeal.Spec.var h)
          (broadcastInDim Cert.ReferenceIdeal.S64 ![] bcast_S_S64 (constant (F := Ideal) Cert.ReferenceIdeal.S_ .f32 0x3727C5AC#32)))) (ix2 r j) := by
    rw [bn_rowOf_apply, bn_rowB_apply, bn_varK_eq_var h hh j]
    show _ = Ideal.rsqrt (Cert.ReferenceIdeal.Spec.var h (ix1 j)
      + broadcastInDim Cert.ReferenceIdeal.S64 ![] bcast_S_S64 (constant (F := Ideal) Cert.ReferenceIdeal.S_ .f32 0x3727C5AC#32) (ix1 j))
    rw [bn_splat64_apply]
    rfl
  show (h (ix2 r j) - Cert.KernelIdeal.KSpec.rowOf (Cert.KernelIdeal.KSpec.meanK h) (ix2 (0 : Fin 1) j))
        * Ideal.rsqrt (Cert.KernelIdeal.KSpec.rowOf (Cert.KernelIdeal.KSpec.varK h) (ix2 (0 : Fin 1) j) + Ideal.ofBits .f32 0x3727C5AC#32)
        * Cert.KernelIdeal.KSpec.rowOf g (ix2 (0 : Fin 1) j) + Cert.KernelIdeal.KSpec.rowOf be (ix2 (0 : Fin 1) j)
      = (h (ix2 r j) - Cert.ReferenceIdeal.Spec.rowB (Cert.ReferenceIdeal.Spec.mean h) (ix2 r j))
        * Cert.ReferenceIdeal.Spec.rowB (Host.rsqrt (F := Ideal) (addf (F := Ideal) (Cert.ReferenceIdeal.Spec.var h)
            (broadcastInDim Cert.ReferenceIdeal.S64 ![] bcast_S_S64 (constant (F := Ideal) Cert.ReferenceIdeal.S_ .f32 0x3727C5AC#32)))) (ix2 r j)
        * Cert.ReferenceIdeal.Spec.rowB g (ix2 r j) + Cert.ReferenceIdeal.Spec.rowB be (ix2 r j)
  rw [hm, hv, hg, hb]

end Final

end Cert.Bridge

end
-- ==== Proof.Finite.lean ====
/-
  Real inputs give real features: every stage of the reference's composition (sums of products, gathers, sums into destinations, a power of a degree at least one, broadcasts) keeps the entries real.
-/
import proofs.«106122_j57346403336483_1_alg».proof.Proof.Spec
import proofs.«106122_j57346403336483_1_alg».proof.Proof.IsReal
import Idealize.ShloMosaic.PureOps.Ideal.Laws
import Idealize.ShloMosaic.Lib.ValueIdx

noncomputable section

namespace Cert.Bridge

open Idealize.ShloMosaic

variable [Cert.ReferenceIdeal.Facts]

/-! ### Closure of the real numbers under each operation

Each lemma is over an abstract shape and an abstract array: an entry of the result is written with the entries of the
operands, and the real numbers are closed under the arithmetic that writes it. -/

/-- A finite sum of real numbers is a real number. -/
theorem real_sum {ι : Type} (S : Finset ι) (f : ι → EReal) (hf : ∀ i, ∃ r : ℝ, f i = (r : EReal)) :
    ∃ r : ℝ, ∑ i ∈ S, f i = (r : EReal) := by
  classical
  induction S using Finset.induction_on with
  | empty => exact ⟨0, by simp⟩
  | insert a S ha ih =>
    obtain ⟨r, hr⟩ := ih
    obtain ⟨q, hq⟩ := hf a
    exact ⟨q + r, by rw [Finset.sum_insert ha, hr, hq, EReal.coe_add]⟩

/-- The entrywise sum of two real arrays is real. -/
theorem isReal_addf {s : Shape} {v w : s.Idx → EReal} (hv : IsReal v) (hw : IsReal w) :
    IsReal (addf (F := Ideal) (φ := .f32) v w) := by
  intro i
  obtain ⟨a, ha⟩ := hv i
  obtain ⟨b, hb⟩ := hw i
  exact ⟨a + b, by show v i + w i = _; rw [ha, hb, EReal.coe_add]⟩

/-- The entrywise product of two real arrays is real. -/
theorem isReal_mulf {s : Shape} {v w : s.Idx → EReal} (hv : IsReal v) (hw : IsReal w) :
    IsReal (mulf (F := Ideal) (φ := .f32) v w) := by
  intro i
  obtain ⟨a, ha⟩ := hv i
  obtain ⟨b, hb⟩ := hw i
  exact ⟨a * b, by show v i * w i = _; rw [ha, hb, EReal.coe_mul]⟩

/-- The entrywise difference of two real arrays is real. -/
theorem isReal_subf {s : Shape} {v w : s.Idx → EReal} (hv : IsReal v) (hw : IsReal w) :
    IsReal (subf (F := Ideal) (φ := .f32) v w) := by
  intro i
  obtain ⟨a, ha⟩ := hv i
  obtain ⟨b, hb⟩ := hw i
  exact ⟨a - b, by show v i - w i = _; rw [ha, hb, EReal.coe_sub]⟩

/-- The entrywise maximum of two real arrays is real: it is one of the two entries. -/
theorem isReal_maximumf {s : Shape} {v w : s.Idx → EReal} (hv : IsReal v) (hw : IsReal w) :
    IsReal (maximumf (F := Ideal) (φ := .f32) v w) := by
  intro i
  show ∃ r : ℝ, max (v i) (w i) = (r : EReal)
  rcases max_choice (v i) (w i) with h | h
  · rw [h]; exact hv i
  · rw [h]; exact hw i

/-- A real base to a real exponent is the real power. -/
theorem isReal_powf {s : Shape} {v w : s.Idx → EReal} (hv : IsReal v) (hw : IsReal w) :
    IsReal (Host.powf (F := Ideal) (φ := .f32) v w) := by
  intro i
  obtain ⟨a, ha⟩ := hv i
  obtain ⟨b, hb⟩ := hw i
  exact ⟨Real.rpow a b, by show Ideal.pow (v i) (w i) = _; rw [ha, hb]; rfl⟩

/-- Every entry of a broadcast is an entry of its operand. -/
theorem isReal_broadcastInDim {s t : Shape} (dims : Fin s.rank → Fin t.rank) (h : s.BroadcastsInDim t dims)
    {v : s.Idx → EReal} (hv : IsReal v) : IsReal (broadcastInDim t dims h v) :=
  fun _ => hv _

/-- Every entry of a gather is an entry of its operand (the start indices are clamped into range). -/
theorem isReal_gather {s si t : Shape} {w : Nat} (d : GatherDims s si t) {v : s.Idx → EReal} (idx : IVec si w)
    (hv : IsReal v) : IsReal (Host.gather d v idx) :=
  fun _ => hv _

/-- A contraction of two real arrays is real: each entry is a finite sum of products of entries. -/
theorem isReal_dotGeneral {sl sr so : Shape} (d : DotDims sl sr so) (prec : Option ContractPrecision)
    {l : sl.Idx → EReal} {r : sr.Idx → EReal} (hl : IsReal l) (hr : IsReal r) :
    IsReal (Host.dotGeneral (F := Ideal) (φ₁ := .f32) (φ₂ := .f32) d prec l r) := by
  intro j
  show ∃ q : ℝ, FloatOps.dotGeneral (F := Ideal) (φ₁ := .f32) (φ₂ := .f32) d prec .single l r j = (q : EReal)
  rw [Ideal.dotGeneral_apply]
  refine real_sum _ _ fun k => ?_
  obtain ⟨a, ha⟩ := hl (d.lhsIdx j k)
  obtain ⟨b, hb⟩ := hr (d.rhsIdx j k)
  exact ⟨a * b, by rw [ha, hb, EReal.coe_mul]⟩

/-- Summing real updates into a real operand leaves it real: each entry is the operand's plus a finite sum of the
    updates that land there, wherever the indices send them. -/
theorem isReal_scatterAdd {s si u : Shape} {w : Nat} (d : ScatterDims s si u) {x : s.Idx → EReal} (idx : IVec si w)
    {upd : u.Idx → EReal} (hx : IsReal x) (hu : IsReal upd) :
    IsReal (Host.scatterAdd (F := Ideal) (φ := .f32) d x idx upd) := by
  intro i
  have key : ∀ S : Finset u.Idx, ∃ r : ℝ, x i + ∑ j ∈ S, upd j = (r : EReal) := fun S => by
    obtain ⟨a, ha⟩ := hx i
    obtain ⟨b, hb⟩ := real_sum S upd hu
    exact ⟨a + b, by rw [ha, hb, EReal.coe_add]⟩
  exact key _

/-- A single-precision word whose exponent field is not all ones denotes a real number. -/
theorem real_ieee (b : BitVec 32) (h : (b.extractLsb' 23 8).toNat ≠ 2 ^ 8 - 1) :
    ∃ r : ℝ, Ideal.ofBits .f32 b = (r : EReal) := by
  show ∃ r : ℝ, Ideal.ieee 8 23 b = (r : EReal)
  unfold Ideal.ieee
  simp only []
  rw [if_neg h]
  split_ifs <;> exact ⟨_, rfl⟩

/-- The splat of a finite word is a real array. -/
theorem isReal_constant (s : Shape) (b : BitVec 32) (h : (b.extractLsb' 23 8).toNat ≠ 2 ^ 8 - 1) :
    IsReal (constant (F := Ideal) s .f32 b) :=
  fun _ => real_ieee b h

/-! ### The stages of the reference, in order -/

open Cert.ReferenceIdeal Cert.ReferenceIdeal.Spec

/-- The four float words the stages spell (0, 1, -1/2 and the residual scale) have exponent fields below all ones. -/
theorem isReal_const_zero (s : Shape) : IsReal (constant (F := Ideal) s .f32 0x00000000#32) :=
  isReal_constant s _ (by decide)
theorem isReal_const_one (s : Shape) : IsReal (constant (F := Ideal) s .f32 0x3F800000#32) :=
  isReal_constant s _ (by decide)
theorem isReal_const_neg_half (s : Shape) : IsReal (constant (F := Ideal) s .f32 0xBF000000#32) :=
  isReal_constant s _ (by decide)
theorem isReal_const_scale (s : Shape) : IsReal (constant (F := Ideal) s .f32 0x3F3504F3#32) :=
  isReal_constant s _ (by decide)

/-- The degree norm is real: its base is the maximum of the real one and a sum of ones into zeros, its exponent the real
    -1/2; no bound on the base is needed. -/
theorem norm_real (idx : EIdx) : IsReal (Spec.norm idx) := by
  unfold Spec.norm
  refine isReal_powf (isReal_maximumf (isReal_broadcastInDim _ _ (isReal_const_one _)) ?_)
    (isReal_broadcastInDim _ _ (isReal_const_neg_half _))
  exact isReal_scatterAdd _ _ (isReal_broadcastInDim _ _ (isReal_const_zero _))
    (isReal_broadcastInDim _ _ (isReal_const_one _))

/-- The source norm per edge is a gather of the real norm. -/
theorem normSrc_real (src : EIdx) : IsReal (Spec.normSrc src) := by
  unfold Spec.normSrc
  exact isReal_gather _ _ (norm_real src)

/-- A real vector laid along every row is real. -/
theorem rowB_real {v : Arr S64} (hv : IsReal v) : IsReal (Spec.rowB v) := by
  unfold Spec.rowB
  exact isReal_broadcastInDim _ _ (isReal_broadcastInDim _ _ hv)

/-- The aggregation of real features with a real bias is real. -/
theorem agg_real {hw : Arr S100000x64} (src dst : EIdx) {b : Arr S64} (hhw : IsReal hw) (hb : IsReal b) :
    IsReal (Spec.agg hw src dst b) := by
  unfold Spec.agg
  refine isReal_addf (isReal_mulf ?_ ?_) (rowB_real hb)
  · refine isReal_scatterAdd _ _ (isReal_broadcastInDim _ _ (isReal_const_zero _)) (isReal_mulf ?_ ?_)
    · exact isReal_gather _ _ hhw
    · exact isReal_broadcastInDim _ _ (isReal_broadcastInDim _ _ (normSrc_real src))
  · exact isReal_broadcastInDim _ _ (isReal_broadcastInDim _ _ (norm_real dst))

/-- The dense layer of real arguments is real. -/
theorem lin0_real {x : Arr S100000x128} {w : Arr S128x64} {b : Arr S64} (hx : IsReal x) (hw : IsReal w) (hb : IsReal b) :
    IsReal (Spec.lin0 x w b) := by
  unfold Spec.lin0
  exact isReal_addf (isReal_dotGeneral _ _ hx hw) (rowB_real hb)

/-- The linear map of a graph layer keeps real features real. -/
theorem lin_real {h : Arr S100000x64} {w : Arr S64x64} (hh : IsReal h) (hw : IsReal w) : IsReal (Spec.lin h w) := by
  unfold Spec.lin
  exact isReal_dotGeneral _ _ hh hw

/-- The scaled residual of two real arrays is real. -/
theorem comb_real {h a : Arr S100000x64} (hh : IsReal h) (ha : IsReal a) : IsReal (Spec.comb h a) := by
  unfold Spec.comb
  exact isReal_mulf (isReal_addf hh ha) (isReal_broadcastInDim _ _ (isReal_const_scale _))

/-- One graph layer keeps real features real. -/
theorem layer_real {h : Arr S100000x64} {w : Arr S64x64} {b : Arr S64} (src dst : EIdx) (hh : IsReal h) (hw : IsReal w)
    (hb : IsReal b) : IsReal (Spec.layer h w b src dst) := by
  unfold Spec.layer
  exact comb_real hh (agg_real src dst (lin_real hh hw) hb)

/-- The features entering the normalisation are real when the float arguments are. -/
theorem feat_real (src dst : Cert.ReferenceIdeal.Spec.EIdx) (x : Cert.ReferenceIdeal.Spec.Arr Cert.ReferenceIdeal.S100000x128) (fcw : Cert.ReferenceIdeal.Spec.Arr Cert.ReferenceIdeal.S128x64) (fcb : Cert.ReferenceIdeal.Spec.Arr Cert.ReferenceIdeal.S64)
    (w1 : Cert.ReferenceIdeal.Spec.Arr Cert.ReferenceIdeal.S64x64) (b1 : Cert.ReferenceIdeal.Spec.Arr Cert.ReferenceIdeal.S64) (w2 : Cert.ReferenceIdeal.Spec.Arr Cert.ReferenceIdeal.S64x64) (b2 : Cert.ReferenceIdeal.Spec.Arr Cert.ReferenceIdeal.S64)
    (hx : IsReal x) (hfcw : IsReal fcw) (hfcb : IsReal fcb) (hw1 : IsReal w1) (hb1 : IsReal b1) (hw2 : IsReal w2) (hb2 : IsReal b2) :
    IsReal (Cert.ReferenceIdeal.Spec.feat src dst x fcw fcb w1 b1 w2 b2) := by
  unfold Cert.ReferenceIdeal.Spec.feat
  exact layer_real src dst (layer_real src dst (lin0_real hx hfcw hfcb) hw1 hb1) hw2 hb2

end Cert.Bridge

end
-- ==== Proof.Bridge.lean ====
/-
  The two compositions agree on real inputs: the features are the same function of the arguments in both programs, they
  are real when the arguments are, and on real features the two normalisations coincide.
-/
import proofs.«106122_j57346403336483_1_alg».proof.Proof.StageEq
import proofs.«106122_j57346403336483_1_alg».proof.Proof.BnLaw
import proofs.«106122_j57346403336483_1_alg».proof.Proof.Finite

noncomputable section

namespace Cert.Bridge

open Idealize.ShloMosaic

variable [Cert.KernelIdeal.Facts] [Cert.ReferenceIdeal.Facts]

/-- The kernel program's composition is the reference's, on real float arguments. -/
theorem out_eq (src dst : Cert.KernelIdeal.KSpec.EIdx) (x : Cert.KernelIdeal.KSpec.Arr Cert.KernelIdeal.S100000x128)
    (fcw : Cert.KernelIdeal.KSpec.Arr Cert.KernelIdeal.S128x64) (fcb : Cert.KernelIdeal.KSpec.Arr Cert.KernelIdeal.S64)
    (w1 : Cert.KernelIdeal.KSpec.Arr Cert.KernelIdeal.S64x64) (b1 : Cert.KernelIdeal.KSpec.Arr Cert.KernelIdeal.S64)
    (w2 : Cert.KernelIdeal.KSpec.Arr Cert.KernelIdeal.S64x64) (b2 : Cert.KernelIdeal.KSpec.Arr Cert.KernelIdeal.S64)
    (g be : Cert.KernelIdeal.KSpec.Arr Cert.KernelIdeal.S64)
    (hx : IsReal x) (hfcw : IsReal fcw) (hfcb : IsReal fcb) (hw1 : IsReal w1) (hb1 : IsReal b1) (hw2 : IsReal w2) (hb2 : IsReal b2) :
    Cert.KernelIdeal.KSpec.out src dst x fcw fcb w1 b1 w2 b2 g be = Cert.ReferenceIdeal.Spec.out src dst x fcw fcb w1 b1 w2 b2 g be := by
  unfold Cert.KernelIdeal.KSpec.out Cert.ReferenceIdeal.Spec.out
  rw [feat_eq]
  exact bn_eq _ g be (feat_real src dst x fcw fcb w1 b1 w2 b2 hx hfcw hfcb hw1 hb1 hw2 hb2)

end Cert.Bridge

end
-- ==== Proof.PreDecode.lean ====
/-
  The precondition read: every float argument array holds real numbers.
-/
import proofs.«106122_j57346403336483_1_alg».proof.Defs
import proofs.«106122_j57346403336483_1_alg».proof.Proof.Gen.Pre_finite_inputs
import proofs.«106122_j57346403336483_1_alg».proof.Proof.IsReal
import Idealize.ShloMosaic.Lib.ReduceAll
import Idealize.ShloMosaic.Lib.ValueIdx

noncomputable section

namespace Cert.Bridge

open Idealize.ShloMosaic

variable [Cert.KernelIdeal.Facts] [Cert.Pre_finite_inputs.Facts]

/-- The f32 word with exponent all ones and significand zero denotes +∞. -/
theorem ofBits_inf : Ideal.ofBits .f32 0x7F800000#32 = (⊤ : EReal) := by
  simp [Ideal.ofBits, Ideal.ieee]

/-- An extended real whose absolute value, the larger of it and its negative, is strictly below +∞ is a real
    number: at either infinity that larger one is +∞ itself. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- The rank-0 shape has one index. -/
instance : Subsingleton Cert.Pre_finite_inputs.S_.Idx := ⟨fun a b => funext fun d => d.elim0⟩

/-- ONE CONJUNCT OF THE PRECONDITION, at any shape: if "every |x i| < +∞" (the comparison of the absolute values with
    the broadcast +∞, reduced by `and` over all axes from 1) came out 1, every entry of `x` is a real number. -/
theorem isReal_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (h0 : 0 < Cert.Pre_finite_inputs.S_.numel)
    (e : Host.reduce IntOp.andi
          (cmpf .olt (Host.absf x) (broadcastInDim s ![] hb (constant (F := Ideal) Cert.Pre_finite_inputs.S_ .f32 0x7F800000#32)))
          (constantI Cert.Pre_finite_inputs.S_ 1 1#1) hr h0 ValueIdx.ix0 = 1#1) : IsReal x := by
  intro i
  exact real_of_abs_lt_inf (x i) (Host.reduce_andi_all _ _ hr h0 _ e i)

/-- Under the precondition the seven float arrays the features are computed from hold real numbers. -/
theorem reals_of_pre (m : (ℓ : Loc Cert.KernelIdeal.nD Cert.KernelIdeal.τ Cert.KernelIdeal.sig) → Buf (Elt Ideal) ℓ) (hpre : Cert.Pre_KernelIdeal m)
    (c : Dev Cert.KernelIdeal.nD) :
    IsReal (m ((c.tc : Thread Cert.KernelIdeal.nD Cert.KernelIdeal.τ).loc Cert.KernelIdeal.main_arg2)) ∧ IsReal (m ((c.tc : Thread Cert.KernelIdeal.nD Cert.KernelIdeal.τ).loc Cert.KernelIdeal.main_arg3)) ∧ IsReal (m ((c.tc : Thread Cert.KernelIdeal.nD Cert.KernelIdeal.τ).loc Cert.KernelIdeal.main_arg4)) ∧ IsReal (m ((c.tc : Thread Cert.KernelIdeal.nD Cert.KernelIdeal.τ).loc Cert.KernelIdeal.main_arg5)) ∧ IsReal (m ((c.tc : Thread Cert.KernelIdeal.nD Cert.KernelIdeal.τ).loc Cert.KernelIdeal.main_arg6)) ∧ IsReal (m ((c.tc : Thread Cert.KernelIdeal.nD Cert.KernelIdeal.τ).loc Cert.KernelIdeal.main_arg7)) ∧ IsReal (m ((c.tc : Thread Cert.KernelIdeal.nD Cert.KernelIdeal.τ).loc Cert.KernelIdeal.main_arg8)) := by
  -- the printed predicate at its one index: a left-nested conjunction, one conjunct per float argument, in argument order
  have e := congrFun (hpre c) ValueIdx.ix0
  dsimp only [Cert.Pre_finite_inputs.fn, Cert.Pre_finite_inputs.fn_part1, Cert.Pre_finite_inputs.fn_part2, andi] at e
  simp only [IntOp.andi_eq_one] at e
  -- the last two conjuncts are those of the tenth and eleventh arguments, which are not asked for here
  obtain ⟨⟨⟨⟨⟨⟨⟨⟨h2, h3⟩, h4⟩, h5⟩, h6⟩, h7⟩, h8⟩, -⟩, -⟩ := e
  exact ⟨isReal_of_all _ _ _ _ h2, isReal_of_all _ _ _ _ h3, isReal_of_all _ _ _ _ h4, isReal_of_all _ _ _ _ h5,
    isReal_of_all _ _ _ _ h6, isReal_of_all _ _ _ _ h7, isReal_of_all _ _ _ _ h8⟩

end Cert.Bridge

end
-- ==== Proof.lean ====
/-
  The certificate of a two-layer graph convolution network with batch normalisation, computed by seven pallas_calls
  (three row-block matrix products, two scaled residuals, the column sums and sums of squares, the normalisation) among
  the host's degree norms, gathers and sums into destinations, against the plain jnp reference.

  At the ideal instance the two programs run the same host operations around stages that agree index by index: a
  row-block product with a bias row is the host's product plus the broadcast bias, the residual is the same pointwise
  expression, and the column sums accumulated block by block are the host's reductions. The one law that joins the two
  sides is the variance identity: for real features the mean of the squares less the square of the mean is the mean of
  the squared centred features. It needs the features real, which they are when the float arguments are finite: every
  stage keeps entries real (finite sums of products, gathers, a power of a degree that is at least one).

  The three frames are the generated ones (the reference's is its run with the result dropped); nothing was rewritten
  by the ideal pass, so the idealization claim is trivial.
-/
import proofs.«106122_j57346403336483_1_alg».proof.Defs
import proofs.«106122_j57346403336483_1_alg».proof.Proof.Gen.Kernel
import proofs.«106122_j57346403336483_1_alg».proof.Proof.Gen.Kernel.Frame
import proofs.«106122_j57346403336483_1_alg».proof.Proof.Gen.KernelIdeal
import proofs.«106122_j57346403336483_1_alg».proof.Proof.Gen.KernelIdeal.Frame
import proofs.«106122_j57346403336483_1_alg».proof.Proof.Gen.ReferenceIdeal
import proofs.«106122_j57346403336483_1_alg».proof.Proof.Gen.ReferenceIdeal.Run
import proofs.«106122_j57346403336483_1_alg».proof.Proof.Gen.Pre_finite_inputs
import proofs.«106122_j57346403336483_1_alg».proof.Proof.KRun
import proofs.«106122_j57346403336483_1_alg».proof.Proof.KChain
import proofs.«106122_j57346403336483_1_alg».proof.Proof.RefValue
import proofs.«106122_j57346403336483_1_alg».proof.Proof.Bridge
import proofs.«106122_j57346403336483_1_alg».proof.Proof.PreDecode
import Idealize.ShloMosaic.Adequacy
import Idealize.ShloMosaic.Init

noncomputable section

namespace Cert.Proof

open Idealize.ShloMosaic Idealize.SL.Sem

/-- The two idealized programs end with equal results: the kernel program's result buffer is the composition
    `KSpec.out` of its arguments, the reference's `Spec.out` of its own, the arguments agree, and the two compositions
    coincide on real arguments. -/
theorem algebraic : Cert.algebraic_KernelIdeal_ReferenceIdeal := by
  intro m ρ m' ρ' hpre hagree
  refine ⟨fun c => Cert.ReferenceIdeal.Spec.out (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)), ?_, ?_⟩
  · refine (θ_run Cert.KernelIdeal.defs _ _).mono (fun r h c => ⟨(h c).1.trans ?_, (h c).2⟩) (Cert.KernelIdeal.GenP.run_value (F := Ideal) m ρ)
    obtain ⟨h2, h3, h4, h5, h6, h7, h8⟩ := Cert.Bridge.reals_of_pre m hpre c
    obtain ⟨e0, e1, e2, e3, e4, e5, e6, e7, e8, e9, e10⟩ := hagree c
    rw [Cert.KernelIdeal.Val.kernel_value m ρ c]
    dsimp only
    rw [e0, e1, e2, e3, e4, e5, e6, e7, e8, e9, e10]
    exact Cert.Bridge.out_eq _ _ _ _ _ _ _ _ _ _ _ h2 h3 h4 h5 h6 h7 h8
  · refine (θ_run Cert.ReferenceIdeal.defs _ _).mono (fun r h c => ⟨(h c).1.trans ?_, (h c).2⟩) (Cert.ReferenceIdeal.Value.run (F := Ideal) m' ρ')
    exact Cert.ReferenceIdeal.RefValue.ref_eq m' c

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
